-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v49)) (v5 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v49) = v4 c
          ∧ r.2.mem ((c.tc : Thread Cert.KernelIdeal.nD Cert.KernelIdeal.τ).loc Cert.KernelIdeal.main_v45) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x50257 : Shape := ⟨3, ![8, 128, 50257]⟩
abbrev S8x128 : Shape := ⟨2, ![8, 128]⟩
abbrev S_ : Shape := ⟨0, ![]⟩

class Facts : Prop where
  bcast_S_S8x128x50257 : S_.BroadcastsInDim S8x128x50257 (![] : Fin 0 → Fin S8x128x50257.rank)
  reducesTo_S8x128x50257_S_d0_1_2 : S8x128x50257.ReducesTo [0, 1, 2] S_
  h_S_ : 0 < S_.numel

variable [Facts]

def fn {F : FTy → Type} [FloatOps F] (main_arg0 : FVec F S8x128x50257 .f32) (main_arg1 : IVec S8x128 32) (main_arg2 : FVec F S8x128x50257 .f32) (main_arg3 : IVec S8x128 32) : IVec S_ 1 :=
  let main_v0 : FVec F S8x128x50257 .f32 := Host.absf main_arg0
  let main_cst : FVec F S_ .f32 := constant S_ .f32 0x7F800000#32
  let main_v1 : FVec F S8x128x50257 .f32 := broadcastInDim S8x128x50257 ![] bcast_S_S8x128x50257 main_cst
  let main_v2 : IVec S8x128x50257 1 := cmpf .olt main_v0 main_v1
  let main_c : IVec S_ 1 := constantI S_ 1 1#1
  let main_v3 : IVec S_ 1 := (fun x v => Host.reduce IntOp.andi x v reducesTo_S8x128x50257_S_d0_1_2 h_S_) main_v2 main_c
  let main_v4 : FVec F S8x128x50257 .f32 := Host.absf main_arg2
  let main_cst_0 : FVec F S_ .f32 := constant S_ .f32 0x7F800000#32
  let main_v5 : FVec F S8x128x50257 .f32 := broadcastInDim S8x128x50257 ![] bcast_S_S8x128x50257 main_cst_0
  let main_v6 : IVec S8x128x50257 1 := cmpf .olt main_v4 main_v5
  let main_c_1 : IVec S_ 1 := constantI S_ 1 1#1
  let main_v7 : IVec S_ 1 := (fun x v => Host.reduce IntOp.andi x v reducesTo_S8x128x50257_S_d0_1_2 h_S_) main_v6 main_c_1
  let main_v8 : IVec S_ 1 := andi main_v3 main_v7
  main_v8
-- ==== Kernel.lean ====
abbrev S8x128x50257 : Shape := ⟨3, ![8, 128, 50257]⟩
abbrev S8x128 : Shape := ⟨2, ![8, 128]⟩
abbrev S8x127 : Shape := ⟨2, ![8, 127]⟩
abbrev S_ : Shape := ⟨0, ![]⟩
abbrev S8x128x1 : Shape := ⟨3, ![8, 128, 1]⟩
abbrev S1x128x8448 : Shape := ⟨3, ![1, 128, 8448]⟩
abbrev S1x128x1 : Shape := ⟨3, ![1, 128, 1]⟩
abbrev S128x1 : Shape := ⟨2, ![128, 1]⟩
abbrev S128x8448 : Shape := ⟨2, ![128, 8448]⟩
abbrev S128 : Shape := ⟨1, ![128]⟩
abbrev S8x128x1x1 : Shape := ⟨4, ![8, 128, 1, 1]⟩
abbrev S1 : Shape := ⟨1, ![1]⟩
abbrev S1x1x1x1 : Shape := ⟨4, ![1, 1, 1, 1]⟩
abbrev S8 : Shape := ⟨1, ![8]⟩

abbrev nBuf : Space → Nat
  | .hbm => 123
  | .vmem => 12
  | .smem => 0
  | _ => 0

abbrev bufTy : (tb : Table) → Fin (tcTables nBuf tb) → BufTy
  | .hbm, ⟨0, _⟩ => ⟨S8x128x50257, .f32⟩
  | .hbm, ⟨1, _⟩ => ⟨S8x128, .i32⟩
  | .hbm, ⟨2, _⟩ => ⟨S8x128x50257, .f32⟩
  | .hbm, ⟨3, _⟩ => ⟨S8x128, .i32⟩
  | .hbm, ⟨4, _⟩ => ⟨S8x127, .i32⟩
  | .hbm, ⟨5, _⟩ => ⟨S_, .i32⟩
  | .hbm, ⟨6, _⟩ => ⟨S_, .i32⟩
  | .hbm, ⟨7, _⟩ => ⟨S8x128, .i32⟩
  | .hbm, ⟨8, _⟩ => ⟨S_, .i32⟩
  | .hbm, ⟨9, _⟩ => ⟨S8x128, .i32⟩
  | .hbm, ⟨10, _⟩ => ⟨S8x128, .i1⟩
  | .hbm, ⟨11, _⟩ => ⟨S_, .i32⟩
  | .hbm, ⟨12, _⟩ => ⟨S_, .i32⟩
  | .hbm, ⟨13, _⟩ => ⟨S8x128, .i32⟩
  | .hbm, ⟨14, _⟩ => ⟨S8x128, .i32⟩
  | .hbm, ⟨15, _⟩ => ⟨S8x127, .i32⟩
  | .hbm, ⟨16, _⟩ => ⟨S_, .i32⟩
  | .hbm, ⟨17, _⟩ => ⟨S_, .i32⟩
  | .hbm, ⟨18, _⟩ => ⟨S8x128, .i32⟩
  | .hbm, ⟨19, _⟩ => ⟨S_, .i32⟩
  | .hbm, ⟨20, _⟩ => ⟨S8x128, .i32⟩
  | .hbm, ⟨21, _⟩ => ⟨S8x128, .i1⟩
  | .hbm, ⟨22, _⟩ => ⟨S_, .i32⟩
  | .hbm, ⟨23, _⟩ => ⟨S_, .i32⟩
  | .hbm, ⟨24, _⟩ => ⟨S8x128, .i32⟩
  | .hbm, ⟨25, _⟩ => ⟨S8x128, .i32⟩
  | .hbm, ⟨26, _⟩ => ⟨S8x128x1, .f32⟩
  | .hbm, ⟨27, _⟩ => ⟨S8x128x1, .f32⟩
  | .hbm, ⟨28, _⟩ => ⟨S8x128, .f32⟩
  | .hbm, ⟨29, _⟩ => ⟨S8x128, .f32⟩
  | .hbm, ⟨30, _⟩ => ⟨S8x128x1, .i32⟩
  | .hbm, ⟨31, _⟩ => ⟨S_, .i32⟩
  | .hbm, ⟨32, _⟩ => ⟨S8x128x1, .i32⟩
  | .hbm, ⟨33, _⟩ => ⟨S8x128x1, .i1⟩
  | .hbm, ⟨34, _⟩ => ⟨S_, .i32⟩
  | .hbm, ⟨35, _⟩ => ⟨S8x128x1, .i32⟩
  | .hbm, ⟨36, _⟩ => ⟨S8x128x1, .i32⟩
  | .hbm, ⟨37, _⟩ => ⟨S8x128x1, .i32⟩
  | .hbm, ⟨38, _⟩ => ⟨S8x128x1x1, .i32⟩
  | .hbm, ⟨39, _⟩ => ⟨S1, .i32⟩
  | .hbm, ⟨40, _⟩ => ⟨S_, .i32⟩
  | .hbm, ⟨41, _⟩ => ⟨S8x128x1x1, .i32⟩
  | .hbm, ⟨42, _⟩ => ⟨S8x128x1x1, .i1⟩
  | .hbm, ⟨43, _⟩ => ⟨S1x1x1x1, .i32⟩
  | .hbm, ⟨44, _⟩ => ⟨S8x128x1x1, .i32⟩
  | .hbm, ⟨45, _⟩ => ⟨S8x128x1x1, .i1⟩
  | .hbm, ⟨46, _⟩ => ⟨S8x128x1x1, .i1⟩
  | .hbm, ⟨47, _⟩ => ⟨S_, .i1⟩
  | .hbm, ⟨48, _⟩ => ⟨S8x128x1, .i1⟩
  | .hbm, ⟨49, _⟩ => ⟨S8x128x1, .f32⟩
  | .hbm, ⟨50, _⟩ => ⟨S_, .f32⟩
  | .hbm, ⟨51, _⟩ => ⟨S8x128x1, .f32⟩
  | .hbm, ⟨52, _⟩ => ⟨S8x128x1, .f32⟩
  | .hbm, ⟨53, _⟩ => ⟨S8x128, .f32⟩
  | .hbm, ⟨54, _⟩ => ⟨S8x128x1, .i32⟩
  | .hbm, ⟨55, _⟩ => ⟨S_, .i32⟩
  | .hbm, ⟨56, _⟩ => ⟨S8x128x1, .i32⟩
  | .hbm, ⟨57, _⟩ => ⟨S8x128x1, .i1⟩
  | .hbm, ⟨58, _⟩ => ⟨S_, .i32⟩
  | .hbm, ⟨59, _⟩ => ⟨S8x128x1, .i32⟩
  | .hbm, ⟨60, _⟩ => ⟨S8x128x1, .i32⟩
  | .hbm, ⟨61, _⟩ => ⟨S8x128x1, .i32⟩
  | .hbm, ⟨62, _⟩ => ⟨S8x128x1x1, .i32⟩
  | .hbm, ⟨63, _⟩ => ⟨S1, .i32⟩
  | .hbm, ⟨64, _⟩ => ⟨S_, .i32⟩
  | .hbm, ⟨65, _⟩ => ⟨S8x128x1x1, .i32⟩
  | .hbm, ⟨66, _⟩ => ⟨S8x128x1x1, .i1⟩
  | .hbm, ⟨67, _⟩ => ⟨S1x1x1x1, .i32⟩
  | .hbm, ⟨68, _⟩ => ⟨S8x128x1x1, .i32⟩
  | .hbm, ⟨69, _⟩ => ⟨S8x128x1x1, .i1⟩
  | .hbm, ⟨70, _⟩ => ⟨S8x128x1x1, .i1⟩
  | .hbm, ⟨71, _⟩ => ⟨S_, .i1⟩
  | .hbm, ⟨72, _⟩ => ⟨S8x128x1, .i1⟩
  | .hbm, ⟨73, _⟩ => ⟨S8x128x1, .f32⟩
  | .hbm, ⟨74, _⟩ => ⟨S_, .f32⟩
  | .hbm, ⟨75, _⟩ => ⟨S8x128x1, .f32⟩
  | .hbm, ⟨76, _⟩ => ⟨S8x128x1, .f32⟩
  | .hbm, ⟨77, _⟩ => ⟨S8x128, .f32⟩
  | .hbm, ⟨78, _⟩ => ⟨S8x128, .f32⟩
  | .hbm, ⟨79, _⟩ => ⟨S8x128, .f32⟩
  | .hbm, ⟨80, _⟩ => ⟨S8x128, .f32⟩
  | .hbm, ⟨81, _⟩ => ⟨S_, .f32⟩
  | .hbm, ⟨82, _⟩ => ⟨S8, .f32⟩
  | .hbm, ⟨83, _⟩ => ⟨S8x128, .f32⟩
  | .hbm, ⟨84, _⟩ => ⟨S_, .f32⟩
  | .hbm, ⟨85, _⟩ => ⟨S8, .f32⟩
  | .hbm, ⟨86, _⟩ => ⟨S8, .f32⟩
  | .hbm, ⟨87, _⟩ => ⟨S8x128, .f32⟩
  | .hbm, ⟨88, _⟩ => ⟨S_, .f32⟩
  | .hbm, ⟨89, _⟩ => ⟨S8, .f32⟩
  | .hbm, ⟨90, _⟩ => ⟨S8x128, .f32⟩
  | .hbm, ⟨91, _⟩ => ⟨S_, .f32⟩
  | .hbm, ⟨92, _⟩ => ⟨S8, .f32⟩
  | .hbm, ⟨93, _⟩ => ⟨S8, .f32⟩
  | .hbm, ⟨94, _⟩ => ⟨S8, .f32⟩
  | .hbm, ⟨95, _⟩ => ⟨S8, .f32⟩
  | .hbm, ⟨96, _⟩ => ⟨S8, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8, .i1⟩
  | .hbm, ⟨110, _⟩ => ⟨S8, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .local _ .vmem, ⟨0, _⟩ => ⟨S1x128x8448, .f32⟩
  | .local _ .vmem, ⟨1, _⟩ => ⟨S1x128x8448, .f32⟩
  | .local _ .vmem, ⟨2, _⟩ => ⟨S1x128x8448, .f32⟩
  | .local _ .vmem, ⟨3, _⟩ => ⟨S1x128x8448, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S8x128x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_call2_v0 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_call3_v0 : Ref sig .tc := ⟨.hbm, 23, rfl⟩
abbrev main_call3_v1 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call4_c : Ref sig .tc := ⟨.hbm, 31, rfl⟩
abbrev main_call4_v0 : Ref sig .tc := ⟨.hbm, 32, rfl⟩
abbrev main_call4_v1 : Ref sig .tc := ⟨.hbm, 33, rfl⟩
abbrev main_call4_c_0 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_call4_v5 : Ref sig .tc := ⟨.hbm, 38, rfl⟩
abbrev main_call4_c_1 : Ref sig .tc := ⟨.hbm, 39, rfl⟩
abbrev main_call4_c_2 : Ref sig .tc := ⟨.hbm, 40, rfl⟩
abbrev main_call4_v6 : Ref sig .tc := ⟨.hbm, 41, rfl⟩
abbrev main_call4_v7 : Ref sig .tc := ⟨.hbm, 42, rfl⟩
abbrev main_call4_v8 : Ref sig .tc := ⟨.hbm, 43, rfl⟩
abbrev main_call4_v9 : Ref sig .tc := ⟨.hbm, 44, rfl⟩
abbrev main_call4_v10 : Ref sig .tc := ⟨.hbm, 45, rfl⟩
abbrev main_call4_v11 : Ref sig .tc := ⟨.hbm, 46, rfl⟩
abbrev main_call4_c_3 : Ref sig .tc := ⟨.hbm, 47, rfl⟩
abbrev main_call4_v12 : Ref sig .tc := ⟨.hbm, 48, rfl⟩
abbrev main_call4_v13 : Ref sig .tc := ⟨.hbm, 49, rfl⟩
abbrev main_call4_cst : Ref sig .tc := ⟨.hbm, 50, rfl⟩
abbrev main_call4_v14 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_call5_c : Ref sig .tc := ⟨.hbm, 55, rfl⟩
abbrev main_call5_v0 : Ref sig .tc := ⟨.hbm, 56, rfl⟩
abbrev main_call5_v1 : Ref sig .tc := ⟨.hbm, 57, rfl⟩
abbrev main_call5_c_0 : Ref sig .tc := ⟨.hbm, 58, rfl⟩
abbrev main_call5_v2 : Ref sig .tc := ⟨.hbm, 59, rfl⟩
abbrev main_call5_v3 : Ref sig .tc := ⟨.hbm, 60, rfl⟩
abbrev main_call5_v4 : Ref sig .tc := ⟨.hbm, 61, rfl⟩
abbrev main_call5_v5 : Ref sig .tc := ⟨.hbm, 62, rfl⟩
abbrev main_call5_c_1 : Ref sig .tc := ⟨.hbm, 63, rfl⟩
abbrev main_call5_c_2 : Ref sig .tc := ⟨.hbm, 64, rfl⟩
abbrev main_call5_v6 : Ref sig .tc := ⟨.hbm, 65, rfl⟩
abbrev main_call5_v7 : Ref sig .tc := ⟨.hbm, 66, rfl⟩
abbrev main_call5_v8 : Ref sig .tc := ⟨.hbm, 67, rfl⟩
abbrev main_call5_v9 : Ref sig .tc := ⟨.hbm, 68, rfl⟩
abbrev main_call5_v10 : Ref sig .tc := ⟨.hbm, 69, rfl⟩
abbrev main_call5_v11 : Ref sig .tc := ⟨.hbm, 70, rfl⟩
abbrev main_call5_c_3 : Ref sig .tc := ⟨.hbm, 71, rfl⟩
abbrev main_call5_v12 : Ref sig .tc := ⟨.hbm, 72, rfl⟩
abbrev main_call5_v13 : Ref sig .tc := ⟨.hbm, 73, rfl⟩
abbrev main_call5_cst : Ref sig .tc := ⟨.hbm, 74, rfl⟩
abbrev main_call5_v14 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_cst : Ref sig .tc := ⟨.hbm, 81, rfl⟩
abbrev main_v22 : Ref sig .tc := ⟨.hbm, 82, rfl⟩
abbrev main_v23 : Ref sig .tc := ⟨.hbm, 83, rfl⟩
abbrev main_cst_5 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_cst_6 : Ref sig .tc := ⟨.hbm, 88, rfl⟩
abbrev main_v27 : Ref sig .tc := ⟨.hbm, 89, rfl⟩
abbrev main_v28 : Ref sig .tc := ⟨.hbm, 90, rfl⟩
abbrev main_cst_7 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_8 : Ref sig .tc := ⟨.hbm, 97, rfl⟩
abbrev main_v34 : Ref sig .tc := ⟨.hbm, 98, rfl⟩
abbrev main_cst_9 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_10 : Ref sig .tc := ⟨.hbm, 104, rfl⟩
abbrev main_v39 : Ref sig .tc := ⟨.hbm, 105, rfl⟩
abbrev main_cst_11 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_cst_12 : Ref sig .tc := ⟨.hbm, 111, rfl⟩
abbrev main_v44 : Ref sig .tc := ⟨.hbm, 112, rfl⟩
abbrev main_cst_13 : Ref sig .tc := ⟨.hbm, 113, rfl⟩
abbrev main_v45 : Ref sig .tc := ⟨.hbm, 114, rfl⟩
abbrev main_cst_14 : Ref sig .tc := ⟨.hbm, 115, rfl⟩
abbrev main_v46 : Ref sig .tc := ⟨.hbm, 116, rfl⟩
abbrev main_cst_15 : Ref sig .tc := ⟨.hbm, 117, rfl⟩
abbrev main_v47 : Ref sig .tc := ⟨.hbm, 118, rfl⟩
abbrev main_cst_16 : Ref sig .tc := ⟨.hbm, 119, rfl⟩
abbrev main_v48 : Ref sig .tc := ⟨.hbm, 120, rfl⟩
abbrev main_cst_17 : Ref sig .tc := ⟨.hbm, 121, rfl⟩
abbrev main_v49 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def k0_cond6 (i : grid0.Coords) : BitVec 1 :=
  let arg1 : BitVec 32 := BitVec.ofNat 32 (i 1).val
  let c5_i32 : BitVec 32 := 5#32
  let v0 : BitVec 1 := Scalar.cmpi .eq arg1 c5_i32
  let v18 : BitVec 32 := Scalar.extui v0
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S8x128_S8x127_0_1 : S8x128.Slices ![0, 1] S8x127
  pads_S8x127_S8x128_000_010 : S8x127.Pads (![0, 0] : Fin 2 → Nat) ![0, 1] ![0, 0] S8x128
  h_S_ : 0 < S_.numel
  bcast_S_S8x128 : S_.BroadcastsInDim S8x128 (![] : Fin 0 → Fin S8x128.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x8448_S1x128x8448_0_0_0 : ∀ a, (![0, 0, 0] : Fin 3 → Nat) a + S1x128x8448.size a ≤ S1x128x8448.size a
  h_S1x128x8448 : 0 < S1x128x8448.numel
  shapeCasts_S1x128x8448_S128x8448 : S1x128x8448.ShapeCasts S128x8448
  iota_S128x8448_d1_w32 : S128x8448.Iotas .tc 32 [1]
  reduces_S128x8448_S128 : S128x8448.Reduces [1] S128
  shapeCasts_S128_S128x1 : S128.ShapeCasts S128x1
  broadcasts_S128x1_S128x8448 : S128x1.Broadcasts S128x8448
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S8x128x1_S8x128 : S8x128x1.ShapeCasts S8x128
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  shapeCasts_S8x128x1_S8x128x1x1 : S8x128x1.ShapeCasts S8x128x1x1
  bcast_S_S8x128x1x1 : S_.BroadcastsInDim S8x128x1x1 (![] : Fin 0 → Fin S8x128x1x1.rank)
  bcast_S1_S1x1x1x1_3 : S1.BroadcastsInDim S1x1x1x1 (![3] : Fin 1 → Fin S1x1x1x1.rank)
  bcast_S1x1x1x1_S8x128x1x1_0_1_2_3 : S1x1x1x1.BroadcastsInDim S8x128x1x1 (![0, 1, 2, 3] : Fin 4 → Fin S8x128x1x1.rank)
  reducesTo_S8x128x1x1_S8x128x1_d3 : S8x128x1x1.ReducesTo [3] S8x128x1
  reducesTo_S8x128_S8_d1 : S8x128.ReducesTo [1] S8
  reducesTo_S8_S_d0 : S8.ReducesTo [0] S_
  gather_S8x128x50257_S8x128x1x1_S8x128x1_n_2_01_01_2_3_111_wf : GatherDims.WF S8x128x50257 S8x128x1x1 S8x128x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x8448.size a < S8x128x50257.size a
  hwx0_0 : ∀ i : grid0.Coords, EltTy.bits .f32 = 32 ∨ (Rect.unit (s := S8x128x50257) (fun a => cc0_transform_0 i a * S1x128x8448.size a) (fun a => (Pipeline.Clip.of (cc0_transform_0 i a) (S1x128x8448.size a) (S8x128x50257.size a)).extent (S1x128x8448.size a)) fun a => Pipeline.Clip.inb (Pipeline.Clip.ok_of (hstart0_0 i a))).WholeWords (EltTy.packing .f32)
  hwxs0_0 : ∀ i : grid0.Coords, EltTy.bits .f32 = 32 ∨ (Rect.unit (s := S1x128x8448) (fun _ => 0) (fun a => (Pipeline.Clip.of (cc0_transform_0 i a) (S1x128x8448.size a) (S8x128x50257.size a)).extent (S1x128x8448.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x128x8448.size a < S8x128x50257.size a
  hwx0_1 : ∀ i : grid0.Coords, EltTy.bits .f32 = 32 ∨ (Rect.unit (s := S8x128x50257) (fun a => cc0_transform_1 i a * S1x128x8448.size a) (fun a => (Pipeline.Clip.of (cc0_transform_1 i a) (S1x128x8448.size a) (S8x128x50257.size a)).extent (S1x128x8448.size a)) fun a => Pipeline.Clip.inb (Pipeline.Clip.ok_of (hstart0_1 i a))).WholeWords (EltTy.packing .f32)
  hwxs0_1 : ∀ i : grid0.Coords, EltTy.bits .f32 = 32 ∨ (Rect.unit (s := S1x128x8448) (fun _ => 0) (fun a => (Pipeline.Clip.of (cc0_transform_1 i a) (S1x128x8448.size a) (S8x128x50257.size a)).extent (S1x128x8448.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x128x1.size a
  hwx0_2 : ∀ i : grid0.Coords, EltTy.bits .f32 = 32 ∨ (Rect.block (s := S8x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S8x128x1.size a
  hwx0_3 : ∀ i : grid0.Coords, EltTy.bits .f32 = 32 ∨ (Rect.block (s := S8x128x1) S1x128x1.size (cc0_transform_3 i) (hinb0_3 i)).WholeWords (EltTy.packing .f32)

variable [Facts₀]

def gather_S8x128x50257_S8x128x1x1_S8x128x1_n_2_01_01_2_3_111 : GatherDims S8x128x50257 S8x128x1x1 S8x128x1 where
  offsetDims := []
  collapsedSliceDims := [2]
  operandBatchingDims := [0, 1]
  startIndicesBatchingDims := [0, 1]
  startIndexMap := [2]
  indexVectorDim := 3
  sliceSizes := ![1, 1, 1]
  wf := gather_S8x128x50257_S8x128x1x1_S8x128x1_n_2_01_01_2_3_111_wf

abbrev win0_0 : Pipeline.Window sig grid0 :=
  Pipeline.Window.ofSpecClip (Memref.whole main_arg0) S1x128x8448.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S1x128x8448.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond6 i == 1#1) | 3 => fun i => !(k0_cond6 i == 1#1) | ⟨_ + 4, h⟩ => absurd h (Nat.not_lt.2 (Nat.le_add_left _ _))

class Facts : Prop extends Facts₀ where

variable [Facts]
-- ==== ReferenceIdeal.lean ====
abbrev S8x128x50257 : Shape := ⟨3, ![8, 128, 50257]⟩
abbrev S8x128 : Shape := ⟨2, ![8, 128]⟩
abbrev S8x127x50257 : Shape := ⟨3, ![8, 127, 50257]⟩
abbrev S8x127 : Shape := ⟨2, ![8, 127]⟩
abbrev S_ : Shape := ⟨0, ![]⟩
abbrev S8x127x1 : Shape := ⟨3, ![8, 127, 1]⟩
abbrev S8x127x1x1 : Shape := ⟨4, ![8, 127, 1, 1]⟩
abbrev S1 : Shape := ⟨1, ![1]⟩
abbrev S1x1x1x1 : Shape := ⟨4, ![1, 1, 1, 1]⟩
abbrev S8 : Shape := ⟨1, ![8]⟩

abbrev nBuf : Space → Nat
  | .hbm => 147
  | .vmem => 0
  | .smem => 0
  | _ => 0

abbrev hbmTy0_0 (i : Nat) : BufTy := match i % 128 with
  | 0 => ⟨S8x128x50257, .f32⟩
  | 1 => ⟨S8x128, .i32⟩
  | 2 => ⟨S8x128x50257, .f32⟩
  | 3 => ⟨S8x128, .i32⟩
  | 4 => ⟨S8x127x50257, .f32⟩
  | 5 => ⟨S8x127, .i32⟩
  | 6 => ⟨S_, .i32⟩
  | 7 => ⟨S8x127, .i32⟩
  | 8 => ⟨S8x127, .i1⟩
  | 9 => ⟨S_, .i32⟩
  | 10 => ⟨S_, .i32⟩
  | 11 => ⟨S8x127, .i32⟩
  | 12 => ⟨S8x127, .i32⟩
  | 13 => ⟨S_, .f32⟩
  | 14 => ⟨S8x127, .f32⟩
  | 15 => ⟨S_, .f32⟩
  | 16 => ⟨S8x127, .f32⟩
  | 17 => ⟨S8x127, .f32⟩
  | 18 => ⟨S8x127x1, .f32⟩
  | 19 => ⟨S8x127x50257, .f32⟩
  | 20 => ⟨S8x127x50257, .f32⟩
  | 21 => ⟨S8x127x50257, .f32⟩
  | 22 => ⟨S_, .f32⟩
  | 23 => ⟨S8x127, .f32⟩
  | 24 => ⟨S8x127x1, .f32⟩
  | 25 => ⟨S8x127x1, .f32⟩
  | 26 => ⟨S8x127x50257, .f32⟩
  | 27 => ⟨S8x127x50257, .f32⟩
  | 28 => ⟨S8x127x1, .i32⟩
  | 29 => ⟨S_, .i32⟩
  | 30 => ⟨S8x127x1, .i32⟩
  | 31 => ⟨S8x127x1, .i1⟩
  | 32 => ⟨S_, .i32⟩
  | 33 => ⟨S8x127x1, .i32⟩
  | 34 => ⟨S8x127x1, .i32⟩
  | 35 => ⟨S8x127x1, .i32⟩
  | 36 => ⟨S8x127x1x1, .i32⟩
  | 37 => ⟨S1, .i32⟩
  | 38 => ⟨S_, .i32⟩
  | 39 => ⟨S8x127x1x1, .i32⟩
  | 40 => ⟨S8x127x1x1, .i1⟩
  | 41 => ⟨S1x1x1x1, .i32⟩
  | 42 => ⟨S8x127x1x1, .i32⟩
  | 43 => ⟨S8x127x1x1, .i1⟩
  | 44 => ⟨S8x127x1x1, .i1⟩
  | 45 => ⟨S_, .i1⟩
  | 46 => ⟨S8x127x1, .i1⟩
  | 47 => ⟨S8x127x1, .f32⟩
  | 48 => ⟨S_, .f32⟩
  | 49 => ⟨S8x127x1, .f32⟩
  | 50 => ⟨S8x127x1, .f32⟩
  | 51 => ⟨S8x127, .f32⟩
  | 52 => ⟨S8x127, .i32⟩
  | 53 => ⟨S_, .i32⟩
  | 54 => ⟨S8, .i32⟩
  | 55 => ⟨S8, .f32⟩
  | 56 => ⟨S8x127, .f32⟩
  | 57 => ⟨S8x127, .f32⟩
  | 58 => ⟨S_, .f32⟩
  | 59 => ⟨S8, .f32⟩
  | 60 => ⟨S8, .f32⟩
  | 61 => ⟨S8x127x50257, .f32⟩
  | 62 => ⟨S8x127, .i32⟩
  | 63 => ⟨S_, .i32⟩
  | 64 => ⟨S8x127, .i32⟩
  | 65 => ⟨S8x127, .i1⟩
  | 66 => ⟨S_, .i32⟩
  | 67 => ⟨S_, .i32⟩
  | 68 => ⟨S8x127, .i32⟩
  | 69 => ⟨S8x127, .i32⟩
  | 70 => ⟨S_, .f32⟩
  | 71 => ⟨S8x127, .f32⟩
  | 72 => ⟨S_, .f32⟩
  | 73 => ⟨S8x127, .f32⟩
  | 74 => ⟨S8x127, .f32⟩
  | 75 => ⟨S8x127x1, .f32⟩
  | 76 => ⟨S8x127x50257, .f32⟩
  | 77 => ⟨S8x127x50257, .f32⟩
  | 78 => ⟨S8x127x50257, .f32⟩
  | 79 => ⟨S_, .f32⟩
  | 80 => ⟨S8x127, .f32⟩
  | 81 => ⟨S8x127x1, .f32⟩
  | 82 => ⟨S8x127x1, .f32⟩
  | 83 => ⟨S8x127x50257, .f32⟩
  | 84 => ⟨S8x127x50257, .f32⟩
  | 85 => ⟨S8x127x1, .i32⟩
  | 86 => ⟨S_, .i32⟩
  | 87 => ⟨S8x127x1, .i32⟩
  | 88 => ⟨S8x127x1, .i1⟩
  | 89 => ⟨S_, .i32⟩
  | 90 => ⟨S8x127x1, .i32⟩
  | 91 => ⟨S8x127x1, .i32⟩
  | 92 => ⟨S8x127x1, .i32⟩
  | 93 => ⟨S8x127x1x1, .i32⟩
  | 94 => ⟨S1, .i32⟩
  | 95 => ⟨S_, .i32⟩
  | 96 => ⟨S8x127x1x1, .i32⟩
  | 97 => ⟨S8x127x1x1, .i1⟩
  | 98 => ⟨S1x1x1x1, .i32⟩
  | 99 => ⟨S8x127x1x1, .i32⟩
  | 100 => ⟨S8x127x1x1, .i1⟩
  | 101 => ⟨S8x127x1x1, .i1⟩
  | 102 => ⟨S_, .i1⟩
  | 103 => ⟨S8x127x1, .i1⟩
  | 104 => ⟨S8x127x1, .f32⟩
  | 105 => ⟨S_, .f32⟩
  | 106 => ⟨S8x127x1, .f32⟩
  | 107 => ⟨S8x127x1, .f32⟩
  | 108 => ⟨S8x127, .f32⟩
  | 109 => ⟨S8x127, .i32⟩
  | 110 => ⟨S_, .i32⟩
  | 111 => ⟨S8, .i32⟩
  | 112 => ⟨S8, .f32⟩
  | 113 => ⟨S8x127, .f32⟩
  | 114 => ⟨S8x127, .f32⟩
  | 115 => ⟨S_, .f32⟩
  | 116 => ⟨S8, .f32⟩
  | 117 => ⟨S8, .f32⟩
  | 118 => ⟨S8, .f32⟩
  | 119 => ⟨S8, .f32⟩
  | 120 => ⟨S8, .f32⟩
  | 121 => ⟨S_, .f32⟩
  | 122 => ⟨S_, .f32⟩
  | 123 => ⟨S_, .f32⟩
  | 124 => ⟨S_, .f32⟩
  | 125 => ⟨S8, .f32⟩
  | 126 => ⟨S8, .f32⟩
  | 127 => ⟨S8, .f32⟩
  | _ => ⟨S8x128x50257, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S8, .i1⟩
  | 6 => ⟨S8, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S8x128x50257, .f32⟩

abbrev hbmTy (i : Nat) : BufTy := match i / 128 with
  | 0 => hbmTy0_0 i
  | 1 => hbmTy0_1 i
  | _ => ⟨S8x128x50257, .f32⟩

abbrev bufTy : (tb : Table) → Fin (tcTables nBuf tb) → BufTy
  | .hbm, ⟨i, _⟩ => hbmTy i
  | _, _ => ⟨S8x128x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v5 : Ref sig .tc := ⟨.hbm, 27, rfl⟩
abbrev main_v6 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c_2 : Ref sig .tc := ⟨.hbm, 63, rfl⟩
abbrev main_v18 : Ref sig .tc := ⟨.hbm, 64, rfl⟩
abbrev main_v19 : Ref sig .tc := ⟨.hbm, 65, rfl⟩
abbrev main_c_3 : Ref sig .tc := ⟨.hbm, 66, rfl⟩
abbrev main_call3_v0 : Ref sig .tc := ⟨.hbm, 67, rfl⟩
abbrev main_call3_v1 : Ref sig .tc := ⟨.hbm, 68, rfl⟩
abbrev main_v20 : Ref sig .tc := ⟨.hbm, 69, rfl⟩
abbrev main_call4_cst : Ref sig .tc := ⟨.hbm, 70, rfl⟩
abbrev main_call4_v0 : Ref sig .tc := ⟨.hbm, 71, rfl⟩
abbrev main_call4_cst_0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_cst_1 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_v21 : Ref sig .tc := ⟨.hbm, 84, rfl⟩
abbrev main_v22 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_cst : Ref sig .tc := ⟨.hbm, 105, rfl⟩
abbrev main_call5_v14 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_c_4 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_cst_5 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_cst_6 : Ref sig .tc := ⟨.hbm, 121, rfl⟩
abbrev main_v35 : Ref sig .tc := ⟨.hbm, 122, rfl⟩
abbrev main_cst_7 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_cst_8 : Ref sig .tc := ⟨.hbm, 128, rfl⟩
abbrev main_v40 : Ref sig .tc := ⟨.hbm, 129, rfl⟩
abbrev main_cst_9 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_cst_10 : Ref sig .tc := ⟨.hbm, 135, rfl⟩
abbrev main_v45 : Ref sig .tc := ⟨.hbm, 136, rfl⟩
abbrev main_cst_11 : Ref sig .tc := ⟨.hbm, 137, rfl⟩
abbrev main_v46 : Ref sig .tc := ⟨.hbm, 138, rfl⟩
abbrev main_cst_12 : Ref sig .tc := ⟨.hbm, 139, rfl⟩
abbrev main_v47 : Ref sig .tc := ⟨.hbm, 140, rfl⟩
abbrev main_cst_13 : Ref sig .tc := ⟨.hbm, 141, rfl⟩
abbrev main_v48 : Ref sig .tc := ⟨.hbm, 142, rfl⟩
abbrev main_cst_14 : Ref sig .tc := ⟨.hbm, 143, rfl⟩
abbrev main_v49 : Ref sig .tc := ⟨.hbm, 144, rfl⟩
abbrev main_cst_15 : Ref sig .tc := ⟨.hbm, 145, rfl⟩
abbrev main_v50 : Ref sig .tc := ⟨.hbm, 146, rfl⟩

abbrev nD : Nat := 1
abbrev τ : Topo := Topo.v7x

variable {F : FTy → Type} [FloatOps F]

class Facts₀ : Prop where
  slices_S8x128x50257_S8x127x50257_0_0_0 : S8x128x50257.Slices ![0, 0, 0] S8x127x50257
  slices_S8x128_S8x127_0_1 : S8x128.Slices ![0, 1] S8x127
  bcast_S_S8x127 : S_.BroadcastsInDim S8x127 (![] : Fin 0 → Fin S8x127.rank)
  reducesTo_S8x127x50257_S8x127_d2 : S8x127x50257.ReducesTo [2] S8x127
  h_S_ : 0 < S_.numel
  bcast_S8x127_S8x127x1_0_1 : S8x127.BroadcastsInDim S8x127x1 (![0, 1] : Fin 2 → Fin S8x127x1.rank)
  bcast_S8x127x1_S8x127x50257_0_1_2 : S8x127x1.BroadcastsInDim S8x127x50257 (![0, 1, 2] : Fin 3 → Fin S8x127x50257.rank)
  bcast_S_S8x127x1 : S_.BroadcastsInDim S8x127x1 (![] : Fin 0 → Fin S8x127x1.rank)
  shapeCasts_S8x127x1_S8x127x1x1 : S8x127x1.ShapeCasts S8x127x1x1
  bcast_S_S8x127x1x1 : S_.BroadcastsInDim S8x127x1x1 (![] : Fin 0 → Fin S8x127x1x1.rank)
  bcast_S1_S1x1x1x1_3 : S1.BroadcastsInDim S1x1x1x1 (![3] : Fin 1 → Fin S1x1x1x1.rank)
  bcast_S1x1x1x1_S8x127x1x1_0_1_2_3 : S1x1x1x1.BroadcastsInDim S8x127x1x1 (![0, 1, 2, 3] : Fin 4 → Fin S8x127x1x1.rank)
  reducesTo_S8x127x1x1_S8x127x1_d3 : S8x127x1x1.ReducesTo [3] S8x127x1
  shapeCasts_S8x127x1_S8x127 : S8x127x1.ShapeCasts S8x127
  natLt_1_32 : 1 < 32
  reducesTo_S8x127_S8_d1 : S8x127.ReducesTo [1] S8
  reducesTo_S8_S_d0 : S8.ReducesTo [0] S_
  gather_S8x127x50257_S8x127x1x1_S8x127x1_n_2_01_01_2_3_111_wf : GatherDims.WF S8x127x50257 S8x127x1x1 S8x127x1 [] [2] [0, 1] [2] [0, 1] 3 ![1, 1, 1]

variable [Facts₀]

def gather_S8x127x50257_S8x127x1x1_S8x127x1_n_2_01_01_2_3_111 : GatherDims S8x127x50257 S8x127x1x1 S8x127x1 where
  offsetDims := []
  collapsedSliceDims := [2]
  operandBatchingDims := [0, 1]
  startIndicesBatchingDims := [0, 1]
  startIndexMap := [2]
  indexVectorDim := 3
  sliceSizes := ![1, 1, 1]
  wf := gather_S8x127x50257_S8x127x1x1_S8x127x1_n_2_01_01_2_3_111_wf

class Facts : Prop extends Facts₀ where

variable [Facts]
-- ==== Proof.KernelBase.lean ====
import proofs.«403453_j14791867368156_3_alg».proof.Proof.Gen.Kernel.Launch
import proofs.«403453_j14791867368156_3_alg».proof.Proof.Gen.Kernel.Skeleton
import proofs.«403453_j14791867368156_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# What the three runs of the kernel body are stated over

The grid is 8 × 6: point `t` is example `t / 6`, vocabulary tile `t % 6`. The body branches on the tile alone:
the first tile resets the four running buffers, the last tile masks the columns past the row's end and stores the
two results, every other tile only updates. So a point is in one of three cases, by `t % 6`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

/-- "This is the first vocabulary tile": the reset branch is taken. -/
abbrev cFirst (i : grid0.Coords) : Prop :=
  (Scalar.cmpi .ne (Scalar.extui (Scalar.cmpi .eq (BitVec.ofNat 32 (i 1).val) 0#32)) 0#32) = 1#1
/-- "This is the last vocabulary tile": the masked update and the final store are taken. -/
abbrev cLast (i : grid0.Coords) : Prop :=
  (Scalar.cmpi .ne (Scalar.extui (Scalar.cmpi .eq (BitVec.ofNat 32 (i 1).val) 5#32)) 0#32) = 1#1
/-- "This is not the last vocabulary tile": the plain update is taken. -/
abbrev cRest (i : grid0.Coords) : Prop :=
  (Scalar.cmpi .ne (Scalar.extui (Scalar.xori (Scalar.cmpi .eq (BitVec.ofNat 32 (i 1).val) 5#32) 1#1)) 0#32) = 1#1

/-- The first tile is at the points ≡ 0 (mod 6). -/
theorem hcFirst : ∀ t : Fin cfg0.N, cFirst (grid0.coords t) ↔ t.val % 6 = 0 :=
  (by decide +kernel : ∀ t : Fin grid0.N, cFirst (grid0.coords t) ↔ t.val % 6 = 0)
/-- The last tile is at the points ≡ 5 (mod 6). -/
theorem hcLast : ∀ t : Fin cfg0.N, cLast (grid0.coords t) ↔ t.val % 6 = 5 :=
  (by decide +kernel : ∀ t : Fin grid0.N, cLast (grid0.coords t) ↔ t.val % 6 = 5)
/-- Every other point is not the last tile. -/
theorem hcRest : ∀ t : Fin cfg0.N, cRest (grid0.coords t) ↔ ¬ t.val % 6 = 5 :=
  (by decide +kernel : ∀ t : Fin grid0.N, cRest (grid0.coords t) ↔ ¬ t.val % 6 = 5)
/-- The printed condition of the final store is "last tile". -/
theorem hcStore : ∀ t : Fin cfg0.N, k0_cond6 (grid0.coords t) = 1#1 ↔ t.val % 6 = 5 :=
  (by decide +kernel : ∀ t : Fin grid0.N, k0_cond6 (grid0.coords t) = 1#1 ↔ t.val % 6 = 5)

/-! ## The memrefs the body is called with -/

/-- Each window's current staging memref at point `t`, and its wholeness. -/
abbrev ms0_0 (t : Fin cfg0.N) : Memref sig .tc .vmem S1x128x8448 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x8448 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1 .f32 := win0_3.stage (cfg0.slots t 3)
abbrev hs0_3 (t : Fin cfg0.N) : (ms0_3 t).IsWhole := hstage0_3 ((cfg0.slots t 3).cast nbuf0_3)

/-- The four running buffers (maximum and rescaled sum, for each of the two logit arrays): whole scoped buffers. -/
abbrev scM0_0 : Memref sig .tc .vmem S128x1 .f32 := Memref.whole cc0_scratch0
abbrev scM0_1 : Memref sig .tc .vmem S128x1 .f32 := Memref.whole cc0_scratch1
abbrev scM0_2 : Memref sig .tc .vmem S128x1 .f32 := Memref.whole cc0_scratch2
abbrev scM0_3 : Memref sig .tc .vmem S128x1 .f32 := Memref.whole cc0_scratch3

/-- The region's invariant with the four running buffers named: each owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelRunB.lean ====
import proofs.«403453_j14791867368156_3_alg».proof.Proof.KernelBase

/-!
# The body at a middle tile (neither first nor last)

Only the two plain updates run: each logit block's row maxima are folded into the running maximum, the running sum
is rescaled and the block's shifted exponentials added. The two result windows are not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle tile, on whole memrefs — the two logit blocks at `x0`, `x1`, the two result buffers at contents
    handed back untouched, the four running buffers at what the tile before left (`xs0 … xs3`) — the body runs to its
    end holding the logit blocks and result buffers as they were and each running buffer with its pieces written
    (`LS0 … LS3`: the pieces the run's stores leave, last first). -/
noncomputable def kernelRun0_B (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    Σ' (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (xi2 xi3 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  refine ⟨?_, ?_, ?_, ?_, fun xi2 xi3 E K => ?run⟩
  case run =>
    simp only [cc0__fused_lse_kernel_eq_skeleton]; unfold cc0__fused_lse_kernel_skel
    unfold owns
    iintro ⟨⟨%f0, %hf0, H0⟩, ⟨%f1, %hf1, H1⟩, ⟨%f2, %hf2, H2⟩, ⟨%f3, %hf3, H3⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    obtain rfl := harg8.eq_unread hfs2; obtain rfl := harg9.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.KernelRunA.lean ====
import proofs.«403453_j14791867368156_3_alg».proof.Proof.KernelRunB

/-!
# The body at the first tile

The reset runs first: the two running maxima are set to the large negative constant and the two running sums to
zero, whatever the four buffers held. Then the two plain updates run on the freshly reset buffers, so each running
buffer ends with two pieces: the reset, then the update. The two result windows are not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile, on whole memrefs — the two logit blocks at `x0`, `x1`, the two result buffers at contents
    handed back untouched, the four running buffers at anything — the body runs to its end holding the logit blocks
    and result buffers as they were and each running buffer with its pieces written (`LS0 … LS3`: the reset's piece
    and the update's, last first). -/
noncomputable def kernelRun0_A (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    Σ' (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (xi2 xi3 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  refine ⟨?_, ?_, ?_, ?_, fun xi2 xi3 E K => ?run⟩
  case run =>
    simp only [cc0__fused_lse_kernel_eq_skeleton]; unfold cc0__fused_lse_kernel_skel
    unfold owns
    iintro ⟨⟨%f0, %hf0, H0⟩, ⟨%f1, %hf1, H1⟩, ⟨%f2, %hf2, H2⟩, ⟨%f3, %hf3, H3⟩,
      ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1
    obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.KernelRunC.lean ====
import proofs.«403453_j14791867368156_3_alg».proof.Proof.KernelRunA

/-!
# The body at the last tile

The two masked updates run: the columns past the row's true end are replaced by the large negative constant before
the row maxima and the shifted exponentials are taken. Then the final branch reads each running maximum and running
sum back — the values this same run has just stored — and stores maximum + log(sum) into each of the two result
buffers, whatever they held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last tile, on whole memrefs — the two logit blocks at `x0`, `x1`, the two result buffers at anything, the
    four running buffers at what the tile before left (`xs0 … xs3`) — the body runs to its end holding the logit
    blocks as they were, each result buffer with its piece written (`L2`, `L3`) and each running buffer with its
    pieces written (`LS0 … LS3`, last first). -/
noncomputable def kernelRun0_C (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    Σ' (L2 : List (View.Piece (Elt F) S1x128x1 .f32)) (L3 : List (View.Piece (Elt F) S1x128x1 .f32))
      (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  have hc6 : k0_cond6 i = 1#1 := hc1
  refine ⟨?_, ?_, ?_, ?_, ?_, ?_, fun E K => ?run⟩
  case run =>
    simp only [cc0__fused_lse_kernel_eq_skeleton]; unfold cc0__fused_lse_kernel_skel
    unfold owns
    iintro ⟨⟨%f0, %hf0, H0⟩, ⟨%f1, %hf1, H1⟩, ⟨%d2, %f2, -, H2⟩, ⟨%d3, %f3, -, H3⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg6.eq_unread hfs0; obtain rfl := harg7.eq_unread hfs1
    obtain rfl := harg8.eq_unread hfs2; obtain rfl := harg9.eq_unread hfs3
    sl_exec (disch := first | sl_exact hc0 | sl_exact hc1 | sl_exact hc2 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.Kernel.Hand

end
-- ==== Proof.KernelTailFacts.lean ====
import proofs.«403453_j14791867368156_3_alg».proof.Proof.Gen.Kernel.Launch
import Idealize.ShloMosaic.Lib.Pipeline.FrameSuffix

/-!
# The host operations after the region: they allocate nothing and leave the region's four arrays alone

Each operation after the region writes only its own result buffer, and none of those is one of the four arrays
the region reads or writes (the two logit arrays and the two log-sum-exp arrays).
-/

set_option maxRecDepth 4096

noncomputable section

namespace Cert.Kernel.Hand

open Idealize.ShloMosaic Idealize.ShloMosaic.TcCoe
open Cert.Kernel Cert.Kernel.Gen

variable {F : FTy → Type} [FloatOps F]

/-! ## Nothing is allocated -/

theorem tail_fresh_0 : (hostOps1 : List (HloOp τ sig (Elt F))).Forall fun op => op.fresh = ∅ := by
  simp only [List.Forall]; repeat' constructor

theorem tail_fresh_1 : (hostOps1_1 : List (HloOp τ sig (Elt F))).Forall fun op => op.fresh = ∅ := by
  simp only [List.Forall]; repeat' constructor

theorem tail_fresh_2 : (hostOps1_2 : List (HloOp τ sig (Elt F))).Forall fun op => op.fresh = ∅ := by
  simp only [List.Forall]; repeat' constructor

theorem tail_fresh_3 : (hostOps1_3 : List (HloOp τ sig (Elt F))).Forall fun op => op.fresh = ∅ := by
  simp only [List.Forall]; repeat' constructor

theorem tail_fresh_4 : (hostOps1_4 : List (HloOp τ sig (Elt F))).Forall fun op => op.fresh = ∅ := by
  simp only [List.Forall]; repeat' constructor

/-! ## No array of the region is written -/

theorem tail_keeps_0 : (hostOps1 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_1 : (hostOps1_1 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_2 : (hostOps1_2 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_3 : (hostOps1_3 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_4 : (hostOps1_4 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Cert.Kernel.Hand

end
-- ==== Proof.KernelAround.lean ====
import proofs.«403453_j14791867368156_3_alg».proof.Proof.KernelTailFacts

/-!
# @main around its one region

@main is eight stretches of host operations (the targets' shift, pad, mask and clamp), the region, and five more
stretches (the gathers, the subtraction of the log-sum-exps, the masked means and the scalar tail). No host operation
allocates; none writes one of @main's four arguments; none after the region writes one of the region's four arrays.
-/

set_option maxRecDepth 4096

noncomputable section

namespace Cert.Kernel.Hand

open Idealize.ShloMosaic Idealize.ShloMosaic.TcCoe
open Idealize.SL Idealize.SL.Sem
open Idealize.ShloMosaic.Rounds
open Cert.Kernel Cert.Kernel.Gen

variable {F : FTy → Type} [FloatOps F]

/-- The stretches of host operations before the region, in order, -/
abbrev prefixOps : List (List (HloOp τ sig (Elt F))) := [hostOps0, hostOps0_1, hostOps0_2, hostOps0_3, hostOps0_4, hostOps0_5, hostOps0_6, hostOps0_7]
/-- and after it. -/
abbrev tailOps : List (List (HloOp τ sig (Elt F))) := [hostOps1, hostOps1_1, hostOps1_2, hostOps1_3, hostOps1_4]

variable (m : (ℓ : Loc nD τ sig) → Buf (Elt F) ℓ) (ρ : Dev nD → PrngReg)

/-- Core `c`'s buffer contents when the region is entered: the launch contents after the operations before it. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-! ## Nothing before the region allocates -/

theorem pre_fresh_0 : (hostOps0 : List (HloOp τ sig (Elt F))).Forall fun op => op.fresh = ∅ := by
  simp only [List.Forall]; repeat' constructor
theorem pre_fresh_1 : (hostOps0_1 : List (HloOp τ sig (Elt F))).Forall fun op => op.fresh = ∅ := by
  simp only [List.Forall]; repeat' constructor
theorem pre_fresh_2 : (hostOps0_2 : List (HloOp τ sig (Elt F))).Forall fun op => op.fresh = ∅ := by
  simp only [List.Forall]; repeat' constructor
theorem pre_fresh_3 : (hostOps0_3 : List (HloOp τ sig (Elt F))).Forall fun op => op.fresh = ∅ := by
  simp only [List.Forall]; repeat' constructor
theorem pre_fresh_4 : (hostOps0_4 : List (HloOp τ sig (Elt F))).Forall fun op => op.fresh = ∅ := by
  simp only [List.Forall]; repeat' constructor
theorem pre_fresh_5 : (hostOps0_5 : List (HloOp τ sig (Elt F))).Forall fun op => op.fresh = ∅ := by
  simp only [List.Forall]; repeat' constructor
theorem pre_fresh_6 : (hostOps0_6 : List (HloOp τ sig (Elt F))).Forall fun op => op.fresh = ∅ := by
  simp only [List.Forall]; repeat' constructor
theorem pre_fresh_7 : (hostOps0_7 : List (HloOp τ sig (Elt F))).Forall fun op => op.fresh = ∅ := by
  simp only [List.Forall]; repeat' constructor

/-! ## No host operation writes an argument of @main -/

/-- An operation leaves the four arguments alone. -/
def ArgsKept (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

theorem pre_args_0 : (hostOps0 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_1 : (hostOps0_1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_2 : (hostOps0_2 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_3 : (hostOps0_3 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_4 : (hostOps0_4 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_5 : (hostOps0_5 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_6 : (hostOps0_6 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_7 : (hostOps0_7 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_0 : (hostOps1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_1 : (hostOps1_1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_2 : (hostOps1_2 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_3 : (hostOps1_3 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_4 : (hostOps1_4 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Every operation before the region leaves the arguments alone. -/
theorem prefix_args : ∀ op ∈ (List.flatten prefixOps : List (HloOp τ sig (Elt F))), ArgsKept op := by
  intro op hop
  obtain ⟨ops, hops, hop⟩ := List.mem_flatten.mp hop
  simp only [List.mem_cons, List.mem_nil_iff, or_false] at hops
  rcases hops with rfl | rfl | rfl | rfl | rfl | rfl | rfl | rfl
  · exact (List.forall_iff_forall_mem.mp pre_args_0) op hop
  · exact (List.forall_iff_forall_mem.mp pre_args_1) op hop
  · exact (List.forall_iff_forall_mem.mp pre_args_2) op hop
  · exact (List.forall_iff_forall_mem.mp pre_args_3) op hop
  · exact (List.forall_iff_forall_mem.mp pre_args_4) op hop
  · exact (List.forall_iff_forall_mem.mp pre_args_5) op hop
  · exact (List.forall_iff_forall_mem.mp pre_args_6) op hop
  · exact (List.forall_iff_forall_mem.mp pre_args_7) op hop

/-- Every operation after the region leaves the arguments alone. -/
theorem tail_args : ∀ op ∈ (List.flatten tailOps : List (HloOp τ sig (Elt F))), ArgsKept op := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp tail_args_0) op hop
  · exact (List.forall_iff_forall_mem.mp tail_args_1) op hop
  · exact (List.forall_iff_forall_mem.mp tail_args_2) op hop
  · exact (List.forall_iff_forall_mem.mp tail_args_3) op hop
  · exact (List.forall_iff_forall_mem.mp tail_args_4) op hop

/-- The arguments reach the region as they were launched. -/
theorem V_main_arg0 (c : Dev nD) : V m c main_arg0 = m ((c : Thread nD τ).loc main_arg0) :=
  StableHlo.after_of_forall_not_mem _ _ fun op hop => (prefix_args op hop).1
theorem V_main_arg1 (c : Dev nD) : V m c main_arg1 = m ((c : Thread nD τ).loc main_arg1) :=
  StableHlo.after_of_forall_not_mem _ _ fun op hop => (prefix_args op hop).2.1
theorem V_main_arg2 (c : Dev nD) : V m c main_arg2 = m ((c : Thread nD τ).loc main_arg2) :=
  StableHlo.after_of_forall_not_mem _ _ fun op hop => (prefix_args op hop).2.2.1
theorem V_main_arg3 (c : Dev nD) : V m c main_arg3 = m ((c : Thread nD τ).loc main_arg3) :=
  StableHlo.after_of_forall_not_mem _ _ fun op hop => (prefix_args op hop).2.2.2

/-! ## @main reduces to the region continued by the later operations -/

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main prefixOps tailOps
    ⟨hostOps0_sub, hostOps0_1_sub, hostOps0_2_sub, hostOps0_3_sub, hostOps0_4_sub, hostOps0_5_sub, hostOps0_6_sub, hostOps0_7_sub⟩
    ⟨pre_fresh_0, pre_fresh_1, pre_fresh_2, pre_fresh_3, pre_fresh_4, pre_fresh_5, pre_fresh_6, pre_fresh_7⟩ main_chain

/-! ## The operations after the region: where they reach, that they allocate nothing, that they keep the arrays -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp tail_fresh_0) op hop
  · exact (List.forall_iff_forall_mem.mp tail_fresh_1) op hop
  · exact (List.forall_iff_forall_mem.mp tail_fresh_2) op hop
  · exact (List.forall_iff_forall_mem.mp tail_fresh_3) op hop
  · exact (List.forall_iff_forall_mem.mp tail_fresh_4) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp tail_keeps_0) op hop
  · exact (List.forall_iff_forall_mem.mp tail_keeps_1) op hop
  · exact (List.forall_iff_forall_mem.mp tail_keeps_2) op hop
  · exact (List.forall_iff_forall_mem.mp tail_keeps_3) op hop
  · exact (List.forall_iff_forall_mem.mp tail_keeps_4) op hop

end Cert.Kernel.Hand

end
-- ==== Proof.KernelForget.lean ====
import proofs.«403453_j14791867368156_3_alg».proof.Proof.KernelRunC
import proofs.«403453_j14791867368156_3_alg».proof.Proof.KernelAround

/-!
# The program runs to its end and leaves its four arguments as they were (at any float instance)

Nothing here names what the kernel computes. The two result windows are forgotten: handed to the body at any
contents and taken back at any contents. The four running buffers stay inside the region's invariant, each owned at
some contents before and after every point. The two logit windows overhang their arrays at the last tile, so a
staging buffer holds the array's block on the part inside the array and words nothing names elsewhere; the body only
reads them, and hands them back as it found them.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two result windows are forgotten. -/
def forgets0 : Fin 4 → Bool := fun w => w.val == 2 || w.val == 3

/-- The arrays as the region finds them; after the body each logit window's buffer at its block (filled out past the
    array's end by the zero word, which nothing reads), the result windows unnamed; the class's invariant throughout. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) :
    (dats m 0 c).after 1 t = win0_1.fill (grid0.coords t) (fun _ => Scalar.ofBits .f32 0#32) (iblk m c 1 t) := by dsimp only [dats]

/-- A logit window is fetched at every point: its buffer holds the block where the fetch filled it, `d` elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl

/-- Handed back as found, a logit buffer is what the obligation asks on the part inside the array. -/
theorem in0_back (c : Dev nD) (t : Fin cfg0.N) (d) :
    win0_0.fill (grid0.coords t) ((dats m 0 c).before 0 t d) (win0_0.cut (grid0.coords t) ((dats m 0 c).after 0 t))
      = (dats m 0 c).before 0 t d := by
  rw [before0_0, after0_0]
  exact win0_0.fill_congr_cut _ (by rw [Pipeline.Window.cut_fill, Pipeline.Window.cut_fill])
theorem in1_back (c : Dev nD) (t : Fin cfg0.N) (d) :
    win0_1.fill (grid0.coords t) ((dats m 0 c).before 1 t d) (win0_1.cut (grid0.coords t) ((dats m 0 c).after 1 t))
      = (dats m 0 c).before 1 t d := by
  rw [before0_1, after0_1]
  exact win0_1.fill_congr_cut _ (by rw [Pipeline.Window.cut_fill, Pipeline.Window.cut_fill])

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ X, owns (c : Thread nD τ) (ms0_2 t) fullShare X)
    ∗ (∃ X, owns (c : Thread nD τ) (ms0_3 t) fullShare X))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ X, owns (c : Thread nD τ) (ms0_2 t) fullShare X)
    ∗ (∃ X, owns (c : Thread nD τ) (ms0_3 t) fullShare X))

/-- Elements held at any contents are owned at what they read as. -/
theorem owns_some_of_pts (c : Dev nD) {s : Shape} (M : Memref sig .tc .vmem s .f32) (g : M.view.ty.Contents (Elt F)) :
    (M.view.loc (c : Thread nD τ) ↦[M.view.set]{fullShare} g : sProp 𝕄) ⊢ ∃ X, owns (c : Thread nD τ) M fullShare X := by
  iintro H; iexists (M.view.read (Elt F) g); unfold owns; iexists g
  isplitr; · ipureintro; rfl
  iexact H

set_option maxHeartbeats 2000000 in
/-- The body at any point: by the tile, one of the three runs; the running buffers go in and come back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  by_cases h5 : t.val % 6 = 5
  · have h0 : ¬ t.val % 6 = 0 := by omega
    iintro ⟨⟨⟨⟨%e0, HS0⟩, ⟨%e1, HS1⟩, ⟨%e2, HS2⟩, ⟨%e3, HS3⟩⟩, Hg⟩, Ho, ⟨%d0, H0⟩, ⟨%d1, H1⟩, H2, H3⟩
    iapply ((kernelRun0_C c (grid0.coords t) _ _ _ _ _ _ _ _ _ _ _ _ _ _ _ _ (fun h => h0 ((hcFirst t).mp h)) ((hcLast t).mpr h5) (fun h => ((hcRest t).mp h) h5) ((dats m 0 c).before 0 t d0) ((dats m 0 c).before 1 t d1) e0 e1 e2 e3).2.2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%g2, H2⟩, ⟨%g3, H3⟩, ⟨%f0, HS0⟩, ⟨%f1, HS1⟩, ⟨%f2, HS2⟩, ⟨%f3, HS3⟩⟩
    isplitl [HS0 HS1 HS2 HS3 Hg]
    · isplitl [HS0 HS1 HS2 HS3]
      · isplitl [HS0]; · iapply (owns_some_of_pts c scM0_0 _); iexact HS0
        isplitl [HS1]; · iapply (owns_some_of_pts c scM0_1 _); iexact HS1
        isplitl [HS2]; · iapply (owns_some_of_pts c scM0_2 _); iexact HS2
        iapply (owns_some_of_pts c scM0_3 _); iexact HS3
      iexact Hg
    isplitl [Ho]; · iexact Ho
    isplitl [H0]; · iexists ((dats m 0 c).before 0 t d0); rw [in0_back m c t d0]; iexact H0
    isplitl [H1]; · iexists ((dats m 0 c).before 1 t d1); rw [in1_back m c t d1]; iexact H1
    isplitl [H2]; · iapply (owns_some_of_pts c (ms0_2 t) _); iexact H2
    iapply (owns_some_of_pts c (ms0_3 t) _); iexact H3
  · by_cases h0 : t.val % 6 = 0
    · iintro ⟨⟨⟨HS0, HS1, HS2, HS3⟩, Hg⟩, Ho, ⟨%d0, H0⟩, ⟨%d1, H1⟩, ⟨%X2, H2⟩, ⟨%X3, H3⟩⟩
      iapply ((kernelRun0_A c (grid0.coords t) _ _ _ _ _ _ _ _ _ _ _ _ _ _ _ _ ((hcFirst t).mpr h0) (fun h => h5 ((hcLast t).mp h)) ((hcRest t).mpr h5) ((dats m 0 c).before 0 t d0) ((dats m 0 c).before 1 t d1)).2.2.2.2 X2 X3 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]; · iapply (owns_some_of_pts c scM0_0 _); iexact HS0
          isplitl [HS1]; · iapply (owns_some_of_pts c scM0_1 _); iexact HS1
          isplitl [HS2]; · iapply (owns_some_of_pts c scM0_2 _); iexact HS2
          iapply (owns_some_of_pts c scM0_3 _); iexact HS3
        iexact Hg
      isplitl [Ho]; · iexact Ho
      isplitl [H0]; · iexists ((dats m 0 c).before 0 t d0); rw [in0_back m c t d0]; iexact H0
      isplitl [H1]; · iexists ((dats m 0 c).before 1 t d1); rw [in1_back m c t d1]; iexact H1
      isplitl [H2]; · iexists _; iexact H2
      iexists _; iexact H3
    · iintro ⟨⟨⟨⟨%e0, HS0⟩, ⟨%e1, HS1⟩, ⟨%e2, HS2⟩, ⟨%e3, HS3⟩⟩, Hg⟩, Ho, ⟨%d0, H0⟩, ⟨%d1, H1⟩, ⟨%X2, H2⟩, ⟨%X3, H3⟩⟩
      iapply ((kernelRun0_B c (grid0.coords t) _ _ _ _ _ _ _ _ _ _ _ _ _ _ _ _ (fun h => h0 ((hcFirst t).mp h)) (fun h => h5 ((hcLast t).mp h)) ((hcRest t).mpr h5) ((dats m 0 c).before 0 t d0) ((dats m 0 c).before 1 t d1) e0 e1 e2 e3).2.2.2.2 X2 X3 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]; · iapply (owns_some_of_pts c scM0_0 _); iexact HS0
          isplitl [HS1]; · iapply (owns_some_of_pts c scM0_1 _); iexact HS1
          isplitl [HS2]; · iapply (owns_some_of_pts c scM0_2 _); iexact HS2
          iapply (owns_some_of_pts c scM0_3 _); iexact HS3
        iexact Hg
      isplitl [Ho]; · iexact Ho
      isplitl [H0]; · iexists ((dats m 0 c).before 0 t d0); rw [in0_back m c t d0]; iexact H0
      isplitl [H1]; · iexists ((dats m 0 c).before 1 t d1); rw [in1_back m c t d1]; iexact H1
      isplitl [H2]; · iexists _; iexact H2
      iexists _; iexact H3

set_option maxHeartbeats 4000000 in
/-- The library's (loose) body obligation with the result windows forgotten. -/
theorem body_obligation (c : Dev nD) :
    Pipeline.BodyObligationLoose (dats (F := F) m 0 c) (defs₀ (F := F)) Variants.none () Set.univ forgets0 := fun t => by
  rw [bigSep_W0, bigSep_W0]
  exact sound_body m c t

/-! ## The run and the frame -/

/-- The buffers the later operations may write: everything but the two target arrays. -/
def written : Finset (Ref sig .tc) := Finset.univ.filter fun b => b ≠ main_arg1 ∧ b ≠ main_arg3

theorem sfx_written : ∀ ops ∈ (tailOps : List (List (HloOp τ sig (Elt F)))), ∀ op ∈ ops,
    ∀ b : Ref sig .tc, Proc.devRef .tc b ∈ op.writes → b ∈ written := by
  intro ops hops op hop b hb
  have hk := tail_args (F := F) op (List.mem_flatten.mpr ⟨ops, hops, hop⟩)
  refine Finset.mem_filter.mpr ⟨Finset.mem_univ _, ?_, ?_⟩
  · rintro rfl; exact hk.2.1 hb
  · rintro rfl; exact hk.2.2.2 hb

set_option backward.isDefEq.respectTransparency.types false in
/-- Every weakly fair execution of @main terminates; the region's arrays end at contents the proof data allows
    (the logit arrays: as the region found them) and every buffer the later operations do not write at its contents
    when the region was entered. -/
theorem run_main : θ_run defs (onTc (τ := τ) (main (F := F))) (s₀ m ρ)
    (Pipeline.RDat.FramePostR (cfgs 0) (fun c => (dats m 0 c).toRForget forgets0) written (V m)) :=
  Pipeline.RDat.θ_run_frame_around_T cfgs (0 : Fin 1) launch0 defs₀ Variants.none (fun c => (dats m 0 c).toRForget forgets0) written m ρ main
    (hbody := fun c => (body_obligation m c).toRForget) (hshare := fun c => ((dats m 0 c).toRForget forgets0).share_full fun _ => rfl)
    (howed := fun _ _ => rfl) (V₀ := V0 m) (opss := tailOps) (hsub := sfx_sub) (hfresh := sfx_fresh) (hkeep := sfx_keeps)
    (hT := sfx_written) (hmain := hmain m Variants.none) (hA := A_eq m) (hΦ := fun _ _ => rfl)

/-- The two target arrays bypass the region and are not written after it. -/
theorem arg1_kept : main_arg1 ∈ Pipeline.restRefs sig spec0 \ written :=
  Finset.mem_sdiff.mpr ⟨Pipeline.mem_restRefs_of main_arg1 rfl (by intro w; fin_cases w <;> decide),
    fun h => (Finset.mem_filter.mp h).2.1 rfl⟩
theorem arg3_kept : main_arg3 ∈ Pipeline.restRefs sig spec0 \ written :=
  Finset.mem_sdiff.mpr ⟨Pipeline.mem_restRefs_of main_arg3 rfl (by intro w; fin_cases w <;> decide),
    fun h => (Finset.mem_filter.mp h).2.2 rfl⟩

/-- The frame from a frame run, for any proof data whose arrays are the region-entry contents: a staged logit array
    ends at its entry contents because its window is an input; a target array because it bypasses the region and no
    later operation writes it; and the entry contents of all four are the launch contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat written (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePostR.arr_in h c 0 rfl).trans ((hA c 0).trans (V_main_arg0 m c)),
     ((h c).2 main_arg1 arg1_kept).trans (V_main_arg1 m c),
     (Pipeline.RDat.FramePostR.arr_in h c 1 rfl).trans ((hA c 1).trans (V_main_arg2 m c)),
     ((h c).2 main_arg3 arg3_kept).trans (V_main_arg3 m c)⟩) h

/-- THE FRAME, at any float instance: the program runs to its end and its four arguments end as they were — the logit
    arrays because the region only reads them, the target arrays because nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

end Cert.Kernel.Hand

end
-- ==== Proof.KernelIdealBase.lean ====
import proofs.«403453_j14791867368156_3_alg».proof.Proof.Gen.KernelIdeal.Launch
import proofs.«403453_j14791867368156_3_alg».proof.Proof.Gen.KernelIdeal.Skeleton
import proofs.«403453_j14791867368156_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# What the three runs of the kernel body are stated over

The grid is 8 × 6: point `t` is example `t / 6`, vocabulary tile `t % 6`. The body branches on the tile alone:
the first tile resets the four running buffers, the last tile masks the columns past the row's end and stores the
two results, every other tile only updates. So a point is in one of three cases, by `t % 6`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions, from the grid coordinates -/

/-- "This is the first vocabulary tile": the reset branch is taken. -/
abbrev cFirst (i : grid0.Coords) : Prop :=
  (Scalar.cmpi .ne (Scalar.extui (Scalar.cmpi .eq (BitVec.ofNat 32 (i 1).val) 0#32)) 0#32) = 1#1
/-- "This is the last vocabulary tile": the masked update and the final store are taken. -/
abbrev cLast (i : grid0.Coords) : Prop :=
  (Scalar.cmpi .ne (Scalar.extui (Scalar.cmpi .eq (BitVec.ofNat 32 (i 1).val) 5#32)) 0#32) = 1#1
/-- "This is not the last vocabulary tile": the plain update is taken. -/
abbrev cRest (i : grid0.Coords) : Prop :=
  (Scalar.cmpi .ne (Scalar.extui (Scalar.xori (Scalar.cmpi .eq (BitVec.ofNat 32 (i 1).val) 5#32) 1#1)) 0#32) = 1#1

/-- The first tile is at the points ≡ 0 (mod 6). -/
theorem hcFirst : ∀ t : Fin cfg0.N, cFirst (grid0.coords t) ↔ t.val % 6 = 0 :=
  (by decide +kernel : ∀ t : Fin grid0.N, cFirst (grid0.coords t) ↔ t.val % 6 = 0)
/-- The last tile is at the points ≡ 5 (mod 6). -/
theorem hcLast : ∀ t : Fin cfg0.N, cLast (grid0.coords t) ↔ t.val % 6 = 5 :=
  (by decide +kernel : ∀ t : Fin grid0.N, cLast (grid0.coords t) ↔ t.val % 6 = 5)
/-- Every other point is not the last tile. -/
theorem hcRest : ∀ t : Fin cfg0.N, cRest (grid0.coords t) ↔ ¬ t.val % 6 = 5 :=
  (by decide +kernel : ∀ t : Fin grid0.N, cRest (grid0.coords t) ↔ ¬ t.val % 6 = 5)
/-- The printed condition of the final store is "last tile". -/
theorem hcStore : ∀ t : Fin cfg0.N, k0_cond6 (grid0.coords t) = 1#1 ↔ t.val % 6 = 5 :=
  (by decide +kernel : ∀ t : Fin grid0.N, k0_cond6 (grid0.coords t) = 1#1 ↔ t.val % 6 = 5)

/-! ## The memrefs the body is called with -/

/-- Each window's current staging memref at point `t`, and its wholeness. -/
abbrev ms0_0 (t : Fin cfg0.N) : Memref sig .tc .vmem S1x128x8448 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x8448 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1 .f32 := win0_3.stage (cfg0.slots t 3)
abbrev hs0_3 (t : Fin cfg0.N) : (ms0_3 t).IsWhole := hstage0_3 ((cfg0.slots t 3).cast nbuf0_3)

/-- The four running buffers (maximum and rescaled sum, for each of the two logit arrays): whole scoped buffers. -/
abbrev scM0_0 : Memref sig .tc .vmem S128x1 .f32 := Memref.whole cc0_scratch0
abbrev scM0_1 : Memref sig .tc .vmem S128x1 .f32 := Memref.whole cc0_scratch1
abbrev scM0_2 : Memref sig .tc .vmem S128x1 .f32 := Memref.whole cc0_scratch2
abbrev scM0_3 : Memref sig .tc .vmem S128x1 .f32 := Memref.whole cc0_scratch3

/-- The region's invariant with the four running buffers named: each owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KernelIdealRunB.lean ====
import proofs.«403453_j14791867368156_3_alg».proof.Proof.KernelIdealBase

/-!
# The body at a middle tile (neither first nor last)

Only the two plain updates run: each logit block's row maxima are folded into the running maximum, the running sum
is rescaled and the block's shifted exponentials added. The two result windows are not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At a middle tile, on whole memrefs — the two logit blocks at `x0`, `x1`, the two result buffers at contents
    handed back untouched, the four running buffers at what the tile before left (`xs0 … xs3`) — the body runs to its
    end holding the logit blocks and result buffers as they were and each running buffer with its pieces written
    (`LS0 … LS3`: the pieces the run's stores leave, last first). -/
noncomputable def kernelRun0_B (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    Σ' (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (xi2 xi3 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  refine ⟨?_, ?_, ?_, ?_, fun xi2 xi3 E K => ?run⟩
  case run =>
    simp only [cc0__fused_lse_kernel_eq_skeleton]; unfold cc0__fused_lse_kernel_skel
    unfold owns
    iintro ⟨⟨%f0, %hf0, H0⟩, ⟨%f1, %hf1, H1⟩, ⟨%f2, %hf2, H2⟩, ⟨%f3, %hf3, H3⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    obtain rfl := harg8.eq_unread hfs2; obtain rfl := harg9.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KernelIdealRunA.lean ====
import proofs.«403453_j14791867368156_3_alg».proof.Proof.KernelIdealRunB

/-!
# The body at the first tile

The reset runs first: the two running maxima are set to the large negative constant and the two running sums to
zero, whatever the four buffers held. Then the two plain updates run on the freshly reset buffers, so each running
buffer ends with two pieces: the reset, then the update. The two result windows are not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the first tile, on whole memrefs — the two logit blocks at `x0`, `x1`, the two result buffers at contents
    handed back untouched, the four running buffers at anything — the body runs to its end holding the logit blocks
    and result buffers as they were and each running buffer with its pieces written (`LS0 … LS3`: the reset's piece
    and the update's, last first). -/
noncomputable def kernelRun0_A (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    Σ' (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (xi2 xi3 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  refine ⟨?_, ?_, ?_, ?_, fun xi2 xi3 E K => ?run⟩
  case run =>
    simp only [cc0__fused_lse_kernel_eq_skeleton]; unfold cc0__fused_lse_kernel_skel
    unfold owns
    iintro ⟨⟨%f0, %hf0, H0⟩, ⟨%f1, %hf1, H1⟩, ⟨%f2, %hf2, H2⟩, ⟨%f3, %hf3, H3⟩,
      ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1
    obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KernelIdealRunC.lean ====
import proofs.«403453_j14791867368156_3_alg».proof.Proof.KernelIdealRunA

/-!
# The body at the last tile

The two masked updates run: the columns past the row's true end are replaced by the large negative constant before
the row maxima and the shifted exponentials are taken. Then the final branch reads each running maximum and running
sum back — the values this same run has just stored — and stores maximum + log(sum) into each of the two result
buffers, whatever they held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the last tile, on whole memrefs — the two logit blocks at `x0`, `x1`, the two result buffers at anything, the
    four running buffers at what the tile before left (`xs0 … xs3`) — the body runs to its end holding the logit
    blocks as they were, each result buffer with its piece written (`L2`, `L3`) and each running buffer with its
    pieces written (`LS0 … LS3`, last first). -/
noncomputable def kernelRun0_C (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    Σ' (L2 : List (View.Piece (Elt F) S1x128x1 .f32)) (L3 : List (View.Piece (Elt F) S1x128x1 .f32))
      (LS0 : List (View.Piece (Elt F) S128x1 .f32)) (LS1 : List (View.Piece (Elt F) S128x1 .f32)) (LS2 : List (View.Piece (Elt F) S128x1 .f32)),
      { LS3 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_lse_kernel i arg2 harg2 arg3 harg3 arg4 harg4 arg5 harg5 arg6 harg6 arg7 harg7 arg8 harg8 arg9 harg9) K } := by
  have hc6 : k0_cond6 i = 1#1 := hc1
  refine ⟨?_, ?_, ?_, ?_, ?_, ?_, fun E K => ?run⟩
  case run =>
    simp only [cc0__fused_lse_kernel_eq_skeleton]; unfold cc0__fused_lse_kernel_skel
    unfold owns
    iintro ⟨⟨%f0, %hf0, H0⟩, ⟨%f1, %hf1, H1⟩, ⟨%d2, %f2, -, H2⟩, ⟨%d3, %f3, -, H3⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg6.eq_unread hfs0; obtain rfl := harg7.eq_unread hfs1
    obtain rfl := harg8.eq_unread hfs2; obtain rfl := harg9.eq_unread hfs3
    sl_exec (disch := first | sl_exact hc0 | sl_exact hc1 | sl_exact hc2 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Hand

end
-- ==== Proof.KernelIdealTailFacts.lean ====
import proofs.«403453_j14791867368156_3_alg».proof.Proof.Gen.KernelIdeal.Launch
import Idealize.ShloMosaic.Lib.Pipeline.FrameSuffix

/-!
# The host operations after the region: they allocate nothing and leave the region's four arrays alone

Each operation after the region writes only its own result buffer, and none of those is one of the four arrays
the region reads or writes (the two logit arrays and the two log-sum-exp arrays).
-/

set_option maxRecDepth 4096

noncomputable section

namespace Cert.KernelIdeal.Hand

open Idealize.ShloMosaic Idealize.ShloMosaic.TcCoe
open Cert.KernelIdeal Cert.KernelIdeal.Gen

variable {F : FTy → Type} [FloatOps F] [Named F]

/-! ## Nothing is allocated -/

theorem tail_fresh_0 : (hostOps1 : List (HloOp τ sig (Elt F))).Forall fun op => op.fresh = ∅ := by
  simp only [List.Forall]; repeat' constructor

theorem tail_fresh_1 : (hostOps1_1 : List (HloOp τ sig (Elt F))).Forall fun op => op.fresh = ∅ := by
  simp only [List.Forall]; repeat' constructor

theorem tail_fresh_2 : (hostOps1_2 : List (HloOp τ sig (Elt F))).Forall fun op => op.fresh = ∅ := by
  simp only [List.Forall]; repeat' constructor

theorem tail_fresh_3 : (hostOps1_3 : List (HloOp τ sig (Elt F))).Forall fun op => op.fresh = ∅ := by
  simp only [List.Forall]; repeat' constructor

theorem tail_fresh_4 : (hostOps1_4 : List (HloOp τ sig (Elt F))).Forall fun op => op.fresh = ∅ := by
  simp only [List.Forall]; repeat' constructor

/-! ## No array of the region is written -/

theorem tail_keeps_0 : (hostOps1 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_1 : (hostOps1_1 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_2 : (hostOps1_2 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_3 : (hostOps1_3 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps_4 : (hostOps1_4 : List (HloOp τ sig (Elt F))).Forall fun op =>
    ∀ w : Fin 4, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Cert.KernelIdeal.Hand

end
-- ==== Proof.KernelIdealAround.lean ====
import proofs.«403453_j14791867368156_3_alg».proof.Proof.KernelIdealTailFacts

/-!
# @main around its one region

@main is eight stretches of host operations (the targets' shift, pad, mask and clamp), the region, and five more
stretches (the gathers, the subtraction of the log-sum-exps, the masked means and the scalar tail). No host operation
allocates; none writes one of @main's four arguments; none after the region writes one of the region's four arrays.
-/

set_option maxRecDepth 4096

noncomputable section

namespace Cert.KernelIdeal.Hand

open Idealize.ShloMosaic Idealize.ShloMosaic.TcCoe
open Idealize.SL Idealize.SL.Sem
open Idealize.ShloMosaic.Rounds
open Cert.KernelIdeal Cert.KernelIdeal.Gen

variable {F : FTy → Type} [FloatOps F] [Named F]

/-- The stretches of host operations before the region, in order, -/
abbrev prefixOps : List (List (HloOp τ sig (Elt F))) := [hostOps0, hostOps0_1, hostOps0_2, hostOps0_3, hostOps0_4, hostOps0_5, hostOps0_6, hostOps0_7]
/-- and after it. -/
abbrev tailOps : List (List (HloOp τ sig (Elt F))) := [hostOps1, hostOps1_1, hostOps1_2, hostOps1_3, hostOps1_4]

variable (m : (ℓ : Loc nD τ sig) → Buf (Elt F) ℓ) (ρ : Dev nD → PrngReg)

/-- Core `c`'s buffer contents when the region is entered: the launch contents after the operations before it. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-! ## Nothing before the region allocates -/

theorem pre_fresh_0 : (hostOps0 : List (HloOp τ sig (Elt F))).Forall fun op => op.fresh = ∅ := by
  simp only [List.Forall]; repeat' constructor
theorem pre_fresh_1 : (hostOps0_1 : List (HloOp τ sig (Elt F))).Forall fun op => op.fresh = ∅ := by
  simp only [List.Forall]; repeat' constructor
theorem pre_fresh_2 : (hostOps0_2 : List (HloOp τ sig (Elt F))).Forall fun op => op.fresh = ∅ := by
  simp only [List.Forall]; repeat' constructor
theorem pre_fresh_3 : (hostOps0_3 : List (HloOp τ sig (Elt F))).Forall fun op => op.fresh = ∅ := by
  simp only [List.Forall]; repeat' constructor
theorem pre_fresh_4 : (hostOps0_4 : List (HloOp τ sig (Elt F))).Forall fun op => op.fresh = ∅ := by
  simp only [List.Forall]; repeat' constructor
theorem pre_fresh_5 : (hostOps0_5 : List (HloOp τ sig (Elt F))).Forall fun op => op.fresh = ∅ := by
  simp only [List.Forall]; repeat' constructor
theorem pre_fresh_6 : (hostOps0_6 : List (HloOp τ sig (Elt F))).Forall fun op => op.fresh = ∅ := by
  simp only [List.Forall]; repeat' constructor
theorem pre_fresh_7 : (hostOps0_7 : List (HloOp τ sig (Elt F))).Forall fun op => op.fresh = ∅ := by
  simp only [List.Forall]; repeat' constructor

/-! ## No host operation writes an argument of @main -/

/-- An operation leaves the four arguments alone. -/
def ArgsKept (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

theorem pre_args_0 : (hostOps0 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_1 : (hostOps0_1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_2 : (hostOps0_2 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_3 : (hostOps0_3 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_4 : (hostOps0_4 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_5 : (hostOps0_5 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_6 : (hostOps0_6 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem pre_args_7 : (hostOps0_7 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_0 : (hostOps1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_1 : (hostOps1_1 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_2 : (hostOps1_2 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_3 : (hostOps1_3 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_args_4 : (hostOps1_4 : List (HloOp τ sig (Elt F))).Forall fun op => ArgsKept op := by
  simp only [List.Forall, ArgsKept]
  repeat' constructor
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Every operation before the region leaves the arguments alone. -/
theorem prefix_args : ∀ op ∈ (List.flatten prefixOps : List (HloOp τ sig (Elt F))), ArgsKept op := by
  intro op hop
  obtain ⟨ops, hops, hop⟩ := List.mem_flatten.mp hop
  simp only [List.mem_cons, List.mem_nil_iff, or_false] at hops
  rcases hops with rfl | rfl | rfl | rfl | rfl | rfl | rfl | rfl
  · exact (List.forall_iff_forall_mem.mp pre_args_0) op hop
  · exact (List.forall_iff_forall_mem.mp pre_args_1) op hop
  · exact (List.forall_iff_forall_mem.mp pre_args_2) op hop
  · exact (List.forall_iff_forall_mem.mp pre_args_3) op hop
  · exact (List.forall_iff_forall_mem.mp pre_args_4) op hop
  · exact (List.forall_iff_forall_mem.mp pre_args_5) op hop
  · exact (List.forall_iff_forall_mem.mp pre_args_6) op hop
  · exact (List.forall_iff_forall_mem.mp pre_args_7) op hop

/-- Every operation after the region leaves the arguments alone. -/
theorem tail_args : ∀ op ∈ (List.flatten tailOps : List (HloOp τ sig (Elt F))), ArgsKept op := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp tail_args_0) op hop
  · exact (List.forall_iff_forall_mem.mp tail_args_1) op hop
  · exact (List.forall_iff_forall_mem.mp tail_args_2) op hop
  · exact (List.forall_iff_forall_mem.mp tail_args_3) op hop
  · exact (List.forall_iff_forall_mem.mp tail_args_4) op hop

/-- The arguments reach the region as they were launched. -/
theorem V_main_arg0 (c : Dev nD) : V m c main_arg0 = m ((c : Thread nD τ).loc main_arg0) :=
  StableHlo.after_of_forall_not_mem _ _ fun op hop => (prefix_args op hop).1
theorem V_main_arg1 (c : Dev nD) : V m c main_arg1 = m ((c : Thread nD τ).loc main_arg1) :=
  StableHlo.after_of_forall_not_mem _ _ fun op hop => (prefix_args op hop).2.1
theorem V_main_arg2 (c : Dev nD) : V m c main_arg2 = m ((c : Thread nD τ).loc main_arg2) :=
  StableHlo.after_of_forall_not_mem _ _ fun op hop => (prefix_args op hop).2.2.1
theorem V_main_arg3 (c : Dev nD) : V m c main_arg3 = m ((c : Thread nD τ).loc main_arg3) :=
  StableHlo.after_of_forall_not_mem _ _ fun op hop => (prefix_args op hop).2.2.2

/-! ## @main reduces to the region continued by the later operations -/

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main prefixOps tailOps
    ⟨hostOps0_sub, hostOps0_1_sub, hostOps0_2_sub, hostOps0_3_sub, hostOps0_4_sub, hostOps0_5_sub, hostOps0_6_sub, hostOps0_7_sub⟩
    ⟨pre_fresh_0, pre_fresh_1, pre_fresh_2, pre_fresh_3, pre_fresh_4, pre_fresh_5, pre_fresh_6, pre_fresh_7⟩ main_chain

/-! ## The operations after the region: where they reach, that they allocate nothing, that they keep the arrays -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp tail_fresh_0) op hop
  · exact (List.forall_iff_forall_mem.mp tail_fresh_1) op hop
  · exact (List.forall_iff_forall_mem.mp tail_fresh_2) op hop
  · exact (List.forall_iff_forall_mem.mp tail_fresh_3) op hop
  · exact (List.forall_iff_forall_mem.mp tail_fresh_4) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp tail_keeps_0) op hop
  · exact (List.forall_iff_forall_mem.mp tail_keeps_1) op hop
  · exact (List.forall_iff_forall_mem.mp tail_keeps_2) op hop
  · exact (List.forall_iff_forall_mem.mp tail_keeps_3) op hop
  · exact (List.forall_iff_forall_mem.mp tail_keeps_4) op hop

end Cert.KernelIdeal.Hand

end
-- ==== Proof.KernelIdealForget.lean ====
import proofs.«403453_j14791867368156_3_alg».proof.Proof.KernelIdealRunC
import proofs.«403453_j14791867368156_3_alg».proof.Proof.KernelIdealAround

/-!
# The program runs to its end and leaves its four arguments as they were (at any float instance)

Nothing here names what the kernel computes. The two result windows are forgotten: handed to the body at any
contents and taken back at any contents. The four running buffers stay inside the region's invariant, each owned at
some contents before and after every point. The two logit windows overhang their arrays at the last tile, so a
staging buffer holds the array's block on the part inside the array and words nothing names elsewhere; the body only
reads them, and hands them back as it found them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two result windows are forgotten. -/
def forgets0 : Fin 4 → Bool := fun w => w.val == 2 || w.val == 3

/-- The arrays as the region finds them; after the body each logit window's buffer at its block (filled out past the
    array's end by the zero word, which nothing reads), the result windows unnamed; the class's invariant throughout. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) :
    (dats m 0 c).after 1 t = win0_1.fill (grid0.coords t) (fun _ => Scalar.ofBits .f32 0#32) (iblk m c 1 t) := by dsimp only [dats]

/-- A logit window is fetched at every point: its buffer holds the block where the fetch filled it, `d` elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl

/-- Handed back as found, a logit buffer is what the obligation asks on the part inside the array. -/
theorem in0_back (c : Dev nD) (t : Fin cfg0.N) (d) :
    win0_0.fill (grid0.coords t) ((dats m 0 c).before 0 t d) (win0_0.cut (grid0.coords t) ((dats m 0 c).after 0 t))
      = (dats m 0 c).before 0 t d := by
  rw [before0_0, after0_0]
  exact win0_0.fill_congr_cut _ (by rw [Pipeline.Window.cut_fill, Pipeline.Window.cut_fill])
theorem in1_back (c : Dev nD) (t : Fin cfg0.N) (d) :
    win0_1.fill (grid0.coords t) ((dats m 0 c).before 1 t d) (win0_1.cut (grid0.coords t) ((dats m 0 c).after 1 t))
      = (dats m 0 c).before 1 t d := by
  rw [before0_1, after0_1]
  exact win0_1.fill_congr_cut _ (by rw [Pipeline.Window.cut_fill, Pipeline.Window.cut_fill])

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ X, owns (c : Thread nD τ) (ms0_2 t) fullShare X)
    ∗ (∃ X, owns (c : Thread nD τ) (ms0_3 t) fullShare X))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ X, owns (c : Thread nD τ) (ms0_2 t) fullShare X)
    ∗ (∃ X, owns (c : Thread nD τ) (ms0_3 t) fullShare X))

/-- Elements held at any contents are owned at what they read as. -/
theorem owns_some_of_pts (c : Dev nD) {s : Shape} (M : Memref sig .tc .vmem s .f32) (g : M.view.ty.Contents (Elt F)) :
    (M.view.loc (c : Thread nD τ) ↦[M.view.set]{fullShare} g : sProp 𝕄) ⊢ ∃ X, owns (c : Thread nD τ) M fullShare X := by
  iintro H; iexists (M.view.read (Elt F) g); unfold owns; iexists g
  isplitr; · ipureintro; rfl
  iexact H

set_option maxHeartbeats 2000000 in
/-- The body at any point: by the tile, one of the three runs; the running buffers go in and come back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  by_cases h5 : t.val % 6 = 5
  · have h0 : ¬ t.val % 6 = 0 := by omega
    iintro ⟨⟨⟨⟨%e0, HS0⟩, ⟨%e1, HS1⟩, ⟨%e2, HS2⟩, ⟨%e3, HS3⟩⟩, Hg⟩, Ho, ⟨%d0, H0⟩, ⟨%d1, H1⟩, H2, H3⟩
    iapply ((kernelRun0_C c (grid0.coords t) _ _ _ _ _ _ _ _ _ _ _ _ _ _ _ _ (fun h => h0 ((hcFirst t).mp h)) ((hcLast t).mpr h5) (fun h => ((hcRest t).mp h) h5) ((dats m 0 c).before 0 t d0) ((dats m 0 c).before 1 t d1) e0 e1 e2 e3).2.2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%g2, H2⟩, ⟨%g3, H3⟩, ⟨%f0, HS0⟩, ⟨%f1, HS1⟩, ⟨%f2, HS2⟩, ⟨%f3, HS3⟩⟩
    isplitl [HS0 HS1 HS2 HS3 Hg]
    · isplitl [HS0 HS1 HS2 HS3]
      · isplitl [HS0]; · iapply (owns_some_of_pts c scM0_0 _); iexact HS0
        isplitl [HS1]; · iapply (owns_some_of_pts c scM0_1 _); iexact HS1
        isplitl [HS2]; · iapply (owns_some_of_pts c scM0_2 _); iexact HS2
        iapply (owns_some_of_pts c scM0_3 _); iexact HS3
      iexact Hg
    isplitl [Ho]; · iexact Ho
    isplitl [H0]; · iexists ((dats m 0 c).before 0 t d0); rw [in0_back m c t d0]; iexact H0
    isplitl [H1]; · iexists ((dats m 0 c).before 1 t d1); rw [in1_back m c t d1]; iexact H1
    isplitl [H2]; · iapply (owns_some_of_pts c (ms0_2 t) _); iexact H2
    iapply (owns_some_of_pts c (ms0_3 t) _); iexact H3
  · by_cases h0 : t.val % 6 = 0
    · iintro ⟨⟨⟨HS0, HS1, HS2, HS3⟩, Hg⟩, Ho, ⟨%d0, H0⟩, ⟨%d1, H1⟩, ⟨%X2, H2⟩, ⟨%X3, H3⟩⟩
      iapply ((kernelRun0_A c (grid0.coords t) _ _ _ _ _ _ _ _ _ _ _ _ _ _ _ _ ((hcFirst t).mpr h0) (fun h => h5 ((hcLast t).mp h)) ((hcRest t).mpr h5) ((dats m 0 c).before 0 t d0) ((dats m 0 c).before 1 t d1)).2.2.2.2 X2 X3 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]; · iapply (owns_some_of_pts c scM0_0 _); iexact HS0
          isplitl [HS1]; · iapply (owns_some_of_pts c scM0_1 _); iexact HS1
          isplitl [HS2]; · iapply (owns_some_of_pts c scM0_2 _); iexact HS2
          iapply (owns_some_of_pts c scM0_3 _); iexact HS3
        iexact Hg
      isplitl [Ho]; · iexact Ho
      isplitl [H0]; · iexists ((dats m 0 c).before 0 t d0); rw [in0_back m c t d0]; iexact H0
      isplitl [H1]; · iexists ((dats m 0 c).before 1 t d1); rw [in1_back m c t d1]; iexact H1
      isplitl [H2]; · iexists _; iexact H2
      iexists _; iexact H3
    · iintro ⟨⟨⟨⟨%e0, HS0⟩, ⟨%e1, HS1⟩, ⟨%e2, HS2⟩, ⟨%e3, HS3⟩⟩, Hg⟩, Ho, ⟨%d0, H0⟩, ⟨%d1, H1⟩, ⟨%X2, H2⟩, ⟨%X3, H3⟩⟩
      iapply ((kernelRun0_B c (grid0.coords t) _ _ _ _ _ _ _ _ _ _ _ _ _ _ _ _ (fun h => h0 ((hcFirst t).mp h)) (fun h => h5 ((hcLast t).mp h)) ((hcRest t).mpr h5) ((dats m 0 c).before 0 t d0) ((dats m 0 c).before 1 t d1) e0 e1 e2 e3).2.2.2.2 X2 X3 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]; · iapply (owns_some_of_pts c scM0_0 _); iexact HS0
          isplitl [HS1]; · iapply (owns_some_of_pts c scM0_1 _); iexact HS1
          isplitl [HS2]; · iapply (owns_some_of_pts c scM0_2 _); iexact HS2
          iapply (owns_some_of_pts c scM0_3 _); iexact HS3
        iexact Hg
      isplitl [Ho]; · iexact Ho
      isplitl [H0]; · iexists ((dats m 0 c).before 0 t d0); rw [in0_back m c t d0]; iexact H0
      isplitl [H1]; · iexists ((dats m 0 c).before 1 t d1); rw [in1_back m c t d1]; iexact H1
      isplitl [H2]; · iexists _; iexact H2
      iexists _; iexact H3

set_option maxHeartbeats 4000000 in
/-- The library's (loose) body obligation with the result windows forgotten. -/
theorem body_obligation (c : Dev nD) :
    Pipeline.BodyObligationLoose (dats (F := F) m 0 c) (defs₀ (F := F)) Variants.none () Set.univ forgets0 := fun t => by
  rw [bigSep_W0, bigSep_W0]
  exact sound_body m c t

/-! ## The run and the frame -/

/-- The buffers the later operations may write: everything but the two target arrays. -/
def written : Finset (Ref sig .tc) := Finset.univ.filter fun b => b ≠ main_arg1 ∧ b ≠ main_arg3

theorem sfx_written : ∀ ops ∈ (tailOps : List (List (HloOp τ sig (Elt F)))), ∀ op ∈ ops,
    ∀ b : Ref sig .tc, Proc.devRef .tc b ∈ op.writes → b ∈ written := by
  intro ops hops op hop b hb
  have hk := tail_args (F := F) op (List.mem_flatten.mpr ⟨ops, hops, hop⟩)
  refine Finset.mem_filter.mpr ⟨Finset.mem_univ _, ?_, ?_⟩
  · rintro rfl; exact hk.2.1 hb
  · rintro rfl; exact hk.2.2.2 hb

set_option backward.isDefEq.respectTransparency.types false in
/-- Every weakly fair execution of @main terminates; the region's arrays end at contents the proof data allows
    (the logit arrays: as the region found them) and every buffer the later operations do not write at its contents
    when the region was entered. -/
theorem run_main : θ_run defs (onTc (τ := τ) (main (F := F))) (s₀ m ρ)
    (Pipeline.RDat.FramePostR (cfgs 0) (fun c => (dats m 0 c).toRForget forgets0) written (V m)) :=
  Pipeline.RDat.θ_run_frame_around_T cfgs (0 : Fin 1) launch0 defs₀ Variants.none (fun c => (dats m 0 c).toRForget forgets0) written m ρ main
    (hbody := fun c => (body_obligation m c).toRForget) (hshare := fun c => ((dats m 0 c).toRForget forgets0).share_full fun _ => rfl)
    (howed := fun _ _ => rfl) (V₀ := V0 m) (opss := tailOps) (hsub := sfx_sub) (hfresh := sfx_fresh) (hkeep := sfx_keeps)
    (hT := sfx_written) (hmain := hmain m Variants.none) (hA := A_eq m) (hΦ := fun _ _ => rfl)

/-- The two target arrays bypass the region and are not written after it. -/
theorem arg1_kept : main_arg1 ∈ Pipeline.restRefs sig spec0 \ written :=
  Finset.mem_sdiff.mpr ⟨Pipeline.mem_restRefs_of main_arg1 rfl (by intro w; fin_cases w <;> decide),
    fun h => (Finset.mem_filter.mp h).2.1 rfl⟩
theorem arg3_kept : main_arg3 ∈ Pipeline.restRefs sig spec0 \ written :=
  Finset.mem_sdiff.mpr ⟨Pipeline.mem_restRefs_of main_arg3 rfl (by intro w; fin_cases w <;> decide),
    fun h => (Finset.mem_filter.mp h).2.2 rfl⟩

/-- The frame from a frame run, for any proof data whose arrays are the region-entry contents: a staged logit array
    ends at its entry contents because its window is an input; a target array because it bypasses the region and no
    later operation writes it; and the entry contents of all four are the launch contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat written (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePostR.arr_in h c 0 rfl).trans ((hA c 0).trans (V_main_arg0 m c)),
     ((h c).2 main_arg1 arg1_kept).trans (V_main_arg1 m c),
     (Pipeline.RDat.FramePostR.arr_in h c 1 rfl).trans ((hA c 1).trans (V_main_arg2 m c)),
     ((h c).2 main_arg3 arg3_kept).trans (V_main_arg3 m c)⟩) h

/-- THE FRAME, at any float instance: the program runs to its end and its four arguments end as they were — the logit
    arrays because the region only reads them, the target arrays because nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

end Cert.KernelIdeal.Hand

end
-- ==== Proof.RefStages.lean ====
import proofs.«403453_j14791867368156_3_alg».proof.Proof.RefRun
import proofs.«403453_j14791867368156_3_alg».proof.Proof.RefRead
import Idealize.ShloMosaic.Lib.Pipeline.Frame

/-!
# The reference program's results, stage by stage

The reference's line of 143 host operations is cut into three stretches: the first score's chain, the second score's
chain (the same operations on the other pair of arguments), and the scalar tail. Each stretch is read back on its own,
from any contents of the buffers, and the three are composed: after the whole line each result buffer holds its stage's
value as a function of the four arguments, and the arguments hold what they held.
-/

set_option maxRecDepth 16384
set_option Elab.async false

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Transports along a reference's type

A module-local function's operation reads and writes its buffers through a transport along "the buffer's type is the
value's type". The transport there and back is the identity; and at a literal reference, whose type is the value's by
computation, so is each transport alone. -/

theorem ofBuf_toBuf {Val : EltTy → Type} {T : BufTy} (x : TRef sig T) (v : T.Contents Val) : x.ofBuf (x.toBuf v) = v := by
  obtain ⟨r, h, h2, h3⟩ := x
  subst h
  rfl

theorem ofBuf_main_v0 (v : main_v0.ty.Contents (Elt F)) : (TRef.of (T := ⟨S8x127x50257, .f32⟩) main_v0).ofBuf v = v := cast_eq _ v
theorem ofBuf_main_c_0 (v : main_c_0.ty.Contents (Elt F)) : (TRef.of (T := ⟨S_, .i32⟩) main_c_0).ofBuf v = v := cast_eq _ v
theorem ofBuf_main_v1 (v : main_v1.ty.Contents (Elt F)) : (TRef.of (T := ⟨S8x127, .i32⟩) main_v1).ofBuf v = v := cast_eq _ v
theorem ofBuf_main_v3 (v : main_v3.ty.Contents (Elt F)) : (TRef.of (T := ⟨S8x127, .i1⟩) main_v3).ofBuf v = v := cast_eq _ v
theorem toBuf_main_v4 (v : (⟨S8x127, .i32⟩ : BufTy).Contents (Elt F)) : (TRef.of (T := ⟨S8x127, .i32⟩) main_v4).toBuf v = v := cast_eq _ v
theorem ofBuf_main_v6 (v : main_v6.ty.Contents (Elt F)) : (TRef.of (T := ⟨S8x127x1, .i32⟩) main_v6).ofBuf v = v := cast_eq _ v
theorem toBuf_main_call2_v4 (v : (⟨S8x127x1, .i32⟩ : BufTy).Contents (Elt F)) : (TRef.of (T := ⟨S8x127x1, .i32⟩) main_call2_v4).toBuf v = v := cast_eq _ v
theorem ofBuf_main_call2_v5 (v : main_call2_v5.ty.Contents (Elt F)) : (TRef.of (T := ⟨S8x127x1x1, .i32⟩) main_call2_v5).ofBuf v = v := cast_eq _ v
theorem toBuf_main_v7 (v : (⟨S8x127x1, .f32⟩ : BufTy).Contents (Elt F)) : (TRef.of (T := ⟨S8x127x1, .f32⟩) main_v7).toBuf v = v := cast_eq _ v
theorem ofBuf_main_v16 (v : main_v16.ty.Contents (Elt F)) : (TRef.of (T := ⟨S8x127x50257, .f32⟩) main_v16).ofBuf v = v := cast_eq _ v
theorem ofBuf_main_c_3 (v : main_c_3.ty.Contents (Elt F)) : (TRef.of (T := ⟨S_, .i32⟩) main_c_3).ofBuf v = v := cast_eq _ v
theorem ofBuf_main_v17 (v : main_v17.ty.Contents (Elt F)) : (TRef.of (T := ⟨S8x127, .i32⟩) main_v17).ofBuf v = v := cast_eq _ v
theorem ofBuf_main_v19 (v : main_v19.ty.Contents (Elt F)) : (TRef.of (T := ⟨S8x127, .i1⟩) main_v19).ofBuf v = v := cast_eq _ v
theorem toBuf_main_v20 (v : (⟨S8x127, .i32⟩ : BufTy).Contents (Elt F)) : (TRef.of (T := ⟨S8x127, .i32⟩) main_v20).toBuf v = v := cast_eq _ v
theorem ofBuf_main_v22 (v : main_v22.ty.Contents (Elt F)) : (TRef.of (T := ⟨S8x127x1, .i32⟩) main_v22).ofBuf v = v := cast_eq _ v
theorem toBuf_main_call5_v4 (v : (⟨S8x127x1, .i32⟩ : BufTy).Contents (Elt F)) : (TRef.of (T := ⟨S8x127x1, .i32⟩) main_call5_v4).toBuf v = v := cast_eq _ v
theorem ofBuf_main_call5_v5 (v : main_call5_v5.ty.Contents (Elt F)) : (TRef.of (T := ⟨S8x127x1x1, .i32⟩) main_call5_v5).ofBuf v = v := cast_eq _ v
theorem toBuf_main_v23 (v : (⟨S8x127x1, .f32⟩ : BufTy).Contents (Elt F)) : (TRef.of (T := ⟨S8x127x1, .f32⟩) main_v23).toBuf v = v := cast_eq _ v

/-! ## The operations in three stretches -/

/-- The first score's chain: the operations up to the first score vector. -/
abbrev stgA : List (HloOp τ sig (Elt F)) :=
  [ unary main_arg0 main_v0 ((extractStridedSlice S8x127x50257 ![0, 0, 0] · slices_S8x128x50257_S8x127x50257_0_0_0) : (⟨S8x128x50257, .f32⟩ : BufTy).Contents (Elt F) → (⟨S8x127x50257, .f32⟩ : BufTy).Contents (Elt F)),
    unary main_arg1 main_v1 ((extractStridedSlice S8x127 ![0, 1] · slices_S8x128_S8x127_0_1) : (⟨S8x128, .i32⟩ : BufTy).Contents (Elt F) → (⟨S8x127, .i32⟩ : BufTy).Contents (Elt F)),
    nullary main_c (constantI S_ 32 4294967196#32),
    unary main_c main_v2 (broadcastInDim S8x127 ![] bcast_S_S8x127 : (⟨S_, .i32⟩ : BufTy).Contents (Elt F) → (⟨S8x127, .i32⟩ : BufTy).Contents (Elt F)),
    binary main_v1 main_v2 main_v3 (cmpi .ne : (⟨S8x127, .i32⟩ : BufTy).Contents (Elt F) → (⟨S8x127, .i32⟩ : BufTy).Contents (Elt F) → (⟨S8x127, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x127, .i32⟩) main_call0_v1) (broadcastInDim S8x127 ![] bcast_S_S8x127),
    TRef.ternary (TRef.of (T := ⟨S8x127, .i1⟩) main_v3) (TRef.of (T := ⟨S8x127, .i32⟩) main_v1) (TRef.of (T := ⟨S8x127, .i32⟩) main_call0_v1) (TRef.of (T := ⟨S8x127, .i32⟩) main_v4) select,
    TRef.nullary (TRef.of (T := ⟨S_, .f32⟩) main_call1_cst) (constant S_ .f32 0xFF800000#32),
    TRef.binary (TRef.of (T := ⟨S8x127x50257, .f32⟩) main_v0) (TRef.of (T := ⟨S_, .f32⟩) main_call1_cst) (TRef.of (T := ⟨S8x127, .f32⟩) main_call1_v0) (fun x v => Host.reduce FloatOps.maximumf x v reducesTo_S8x127x50257_S8x127_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S8x127, .f32⟩) main_call1_v1) (broadcastInDim S8x127 ![] bcast_S_S8x127),
    TRef.binary (TRef.of (T := ⟨S8x127, .f32⟩) main_call1_v1) (TRef.of (T := ⟨S8x127, .f32⟩) main_call1_v0) (TRef.of (T := ⟨S8x127, .f32⟩) main_call1_v2) maximumf,
    TRef.unary (TRef.of (T := ⟨S8x127, .f32⟩) main_call1_v2) (TRef.of (T := ⟨S8x127x1, .f32⟩) main_call1_v3) (broadcastInDim S8x127x1 ![0, 1] bcast_S8x127_S8x127x1_0_1),
    TRef.unary (TRef.of (T := ⟨S8x127x1, .f32⟩) main_call1_v3) (TRef.of (T := ⟨S8x127x50257, .f32⟩) main_call1_v4) (broadcastInDim S8x127x50257 ![0, 1, 2] bcast_S8x127x1_S8x127x50257_0_1_2),
    TRef.binary (TRef.of (T := ⟨S8x127x50257, .f32⟩) main_v0) (TRef.of (T := ⟨S8x127x50257, .f32⟩) main_call1_v4) (TRef.of (T := ⟨S8x127x50257, .f32⟩) main_call1_v5) subf,
    TRef.unary (TRef.of (T := ⟨S8x127x50257, .f32⟩) main_call1_v5) (TRef.of (T := ⟨S8x127x50257, .f32⟩) main_call1_v6) Host.exp,
    TRef.nullary (TRef.of (T := ⟨S_, .f32⟩) main_call1_cst_1) (constant S_ .f32 0x00000000#32),
    TRef.binary (TRef.of (T := ⟨S8x127x50257, .f32⟩) main_call1_v6) (TRef.of (T := ⟨S_, .f32⟩) main_call1_cst_1) (TRef.of (T := ⟨S8x127, .f32⟩) main_call1_v7) (fun x v => Host.reduceAdd x v reducesTo_S8x127x50257_S8x127_d2 h_S_),
    TRef.unary (TRef.of (T := ⟨S8x127, .f32⟩) main_call1_v7) (TRef.of (T := ⟨S8x127x1, .f32⟩) main_call1_v8) (broadcastInDim S8x127x1 ![0, 1] bcast_S8x127_S8x127x1_0_1),
    TRef.unary (TRef.of (T := ⟨S8x127x1, .f32⟩) main_call1_v8) (TRef.of (T := ⟨S8x127x1, .f32⟩) main_call1_v9) Host.log,
    TRef.unary (TRef.of (T := ⟨S8x127x1, .f32⟩) main_call1_v9) (TRef.of (T := ⟨S8x127x50257, .f32⟩) main_call1_v10) (broadcastInDim S8x127x50257 ![0, 1, 2] bcast_S8x127x1_S8x127x50257_0_1_2),
    TRef.binary (TRef.of (T := ⟨S8x127x50257, .f32⟩) main_call1_v5) (TRef.of (T := ⟨S8x127x50257, .f32⟩) main_call1_v10) (TRef.of (T := ⟨S8x127x50257, .f32⟩) main_v5) subf,
    unary main_v4 main_v6 (broadcastInDim S8x127x1 ![0, 1] bcast_S8x127_S8x127x1_0_1 : (⟨S8x127, .i32⟩ : BufTy).Contents (Elt F) → (⟨S8x127x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x127x1, .i32⟩) main_call2_v0) (broadcastInDim S8x127x1 ![] bcast_S_S8x127x1),
    TRef.binary (TRef.of (T := ⟨S8x127x1, .i32⟩) main_v6) (TRef.of (T := ⟨S8x127x1, .i32⟩) main_call2_v0) (TRef.of (T := ⟨S8x127x1, .i1⟩) main_call2_v1) (cmpi .slt),
    TRef.nullary (TRef.of (T := ⟨S_, .i32⟩) main_call2_c_0) (constantI S_ 32 50257#32),
    TRef.unary (TRef.of (T := ⟨S_, .i32⟩) main_call2_c_0) (TRef.of (T := ⟨S8x127x1, .i32⟩) main_call2_v2) (broadcastInDim S8x127x1 ![] bcast_S_S8x127x1),
    TRef.binary (TRef.of (T := ⟨S8x127x1, .i32⟩) main_v6) (TRef.of (T := ⟨S8x127x1, .i32⟩) main_call2_v2) (TRef.of (T := ⟨S8x127x1, .i32⟩) main_call2_v3) addi,
    TRef.ternary (TRef.of (T := ⟨S8x127x1, .i1⟩) main_call2_v1) (TRef.of (T := ⟨S8x127x1, .i32⟩) main_call2_v3) (TRef.of (T := ⟨S8x127x1, .i32⟩) main_v6) (TRef.of (T := ⟨S8x127x1, .i32⟩) main_call2_v4) select,
    TRef.reshape (TRef.of (T := ⟨S8x127x1, .i32⟩) main_call2_v4) (TRef.of (T := ⟨S8x127x1x1, .i32⟩) main_call2_v5) rfl shapeCasts_S8x127x1_S8x127x1x1,
    TRef.nullary (TRef.of (T := ⟨S1, .i32⟩) main_call2_c_1) (constantI S1 32 50256#32),
    TRef.nullary (TRef.of (T := ⟨S_, .i32⟩) main_call2_c_2) (constantI S_ 32 0#32),
    TRef.unary (TRef.of (T := ⟨S_, .i32⟩) main_call2_c_2) (TRef.of (T := ⟨S8x127x1x1, .i32⟩) main_call2_v6) (broadcastInDim S8x127x1x1 ![] bcast_S_S8x127x1x1),
    TRef.binary (TRef.of (T := ⟨S8x127x1x1, .i32⟩) main_call2_v5) (TRef.of (T := ⟨S8x127x1x1, .i32⟩) main_call2_v6) (TRef.of (T := ⟨S8x127x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S8x127x1x1, .i32⟩) main_call2_v9) (broadcastInDim S8x127x1x1 ![0, 1, 2, 3] bcast_S1x1x1x1_S8x127x1x1_0_1_2_3),
    TRef.binary (TRef.of (T := ⟨S8x127x1x1, .i32⟩) main_call2_v5) (TRef.of (T := ⟨S8x127x1x1, .i32⟩) main_call2_v9) (TRef.of (T := ⟨S8x127x1x1, .i1⟩) main_call2_v10) (cmpi .sle),
    TRef.binary (TRef.of (T := ⟨S8x127x1x1, .i1⟩) main_call2_v7) (TRef.of (T := ⟨S8x127x1x1, .i1⟩) main_call2_v10) (TRef.of (T := ⟨S8x127x1x1, .i1⟩) main_call2_v11) andi,
    TRef.nullary (TRef.of (T := ⟨S_, .i1⟩) main_call2_c_3) (constantI S_ 1 1#1),
    TRef.binary (TRef.of (T := ⟨S8x127x1x1, .i1⟩) main_call2_v11) (TRef.of (T := ⟨S_, .i1⟩) main_call2_c_3) (TRef.of (T := ⟨S8x127x1, .i1⟩) main_call2_v12) (fun x v => Host.reduce IntOp.andi x v reducesTo_S8x127x1x1_S8x127x1_d3 h_S_),
    TRef.binary (TRef.of (T := ⟨S8x127x50257, .f32⟩) main_v5) (TRef.of (T := ⟨S8x127x1x1, .i32⟩) main_call2_v5) (TRef.of (T := ⟨S8x127x1, .f32⟩) main_call2_v13) (fun x i => Host.gather gather_S8x127x50257_S8x127x1x1_S8x127x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S8x127x1, .f32⟩) main_call2_v14) (broadcastInDim S8x127x1 ![] bcast_S_S8x127x1),
    TRef.ternary (TRef.of (T := ⟨S8x127x1, .i1⟩) main_call2_v12) (TRef.of (T := ⟨S8x127x1, .f32⟩) main_call2_v13) (TRef.of (T := ⟨S8x127x1, .f32⟩) main_call2_v14) (TRef.of (T := ⟨S8x127x1, .f32⟩) main_v7) select,
    reshape main_v7 main_v8 rfl shapeCasts_S8x127x1_S8x127,
    unary main_v3 main_v9 ((extui 32 · natLt_1_32) : (⟨S8x127, .i1⟩ : BufTy).Contents (Elt F) → (⟨S8x127, .i32⟩ : BufTy).Contents (Elt F)),
    nullary main_c_1 (constantI S_ 32 0#32),
    binary main_v9 main_c_1 main_v10 ((fun x v => Host.reduce IntOp.addi x v reducesTo_S8x127_S8_d1 h_S_) : (⟨S8x127, .i32⟩ : BufTy).Contents (Elt F) → (⟨S_, .i32⟩ : BufTy).Contents (Elt F) → (⟨S8, .i32⟩ : BufTy).Contents (Elt F)),
    unary main_v10 main_v11 (sitofp .f32 : (⟨S8, .i32⟩ : BufTy).Contents (Elt F) → (⟨S8, .f32⟩ : BufTy).Contents (Elt F)),
    unary main_v3 main_v12 (uitofp .f32 : (⟨S8x127, .i1⟩ : BufTy).Contents (Elt F) → (⟨S8x127, .f32⟩ : BufTy).Contents (Elt F)),
    binary main_v8 main_v12 main_v13 (mulf : (⟨S8x127, .f32⟩ : BufTy).Contents (Elt F) → (⟨S8x127, .f32⟩ : BufTy).Contents (Elt F) → (⟨S8x127, .f32⟩ : BufTy).Contents (Elt F)),
    nullary main_cst (constant S_ .f32 0x00000000#32),
    binary main_v13 main_cst main_v14 ((fun x v => Host.reduceAdd x v reducesTo_S8x127_S8_d1 h_S_) : (⟨S8x127, .f32⟩ : BufTy).Contents (Elt F) → (⟨S_, .f32⟩ : BufTy).Contents (Elt F) → (⟨S8, .f32⟩ : BufTy).Contents (Elt F)),
    binary main_v14 main_v11 main_v15 (Host.divf : (⟨S8, .f32⟩ : BufTy).Contents (Elt F) → (⟨S8, .f32⟩ : BufTy).Contents (Elt F) → (⟨S8, .f32⟩ : BufTy).Contents (Elt F)) ]

/-- The second score's chain: the same operations on the second pair of arguments. -/
abbrev stgB : List (HloOp τ sig (Elt F)) :=
  [ unary main_arg2 main_v16 ((extractStridedSlice S8x127x50257 ![0, 0, 0] · slices_S8x128x50257_S8x127x50257_0_0_0) : (⟨S8x128x50257, .f32⟩ : BufTy).Contents (Elt F) → (⟨S8x127x50257, .f32⟩ : BufTy).Contents (Elt F)),
    unary main_arg3 main_v17 ((extractStridedSlice S8x127 ![0, 1] · slices_S8x128_S8x127_0_1) : (⟨S8x128, .i32⟩ : BufTy).Contents (Elt F) → (⟨S8x127, .i32⟩ : BufTy).Contents (Elt F)),
    nullary main_c_2 (constantI S_ 32 4294967196#32),
    unary main_c_2 main_v18 (broadcastInDim S8x127 ![] bcast_S_S8x127 : (⟨S_, .i32⟩ : BufTy).Contents (Elt F) → (⟨S8x127, .i32⟩ : BufTy).Contents (Elt F)),
    binary main_v17 main_v18 main_v19 (cmpi .ne : (⟨S8x127, .i32⟩ : BufTy).Contents (Elt F) → (⟨S8x127, .i32⟩ : BufTy).Contents (Elt F) → (⟨S8x127, .i1⟩ : BufTy).Contents (Elt F)),
    nullary main_c_3 (constantI S_ 32 0#32),
    TRef.unary (TRef.of (T := ⟨S_, .i32⟩) main_c_3) (TRef.of (T := ⟨S_, .i32⟩) main_call3_v0) id,
    TRef.unary (TRef.of (T := ⟨S_, .i32⟩) main_call3_v0) (TRef.of (T := ⟨S8x127, .i32⟩) main_call3_v1) (broadcastInDim S8x127 ![] bcast_S_S8x127),
    TRef.ternary (TRef.of (T := ⟨S8x127, .i1⟩) main_v19) (TRef.of (T := ⟨S8x127, .i32⟩) main_v17) (TRef.of (T := ⟨S8x127, .i32⟩) main_call3_v1) (TRef.of (T := ⟨S8x127, .i32⟩) main_v20) select,
    TRef.nullary (TRef.of (T := ⟨S_, .f32⟩) main_call4_cst) (constant S_ .f32 0xFF800000#32),
    TRef.binary (TRef.of (T := ⟨S8x127x50257, .f32⟩) main_v16) (TRef.of (T := ⟨S_, .f32⟩) main_call4_cst) (TRef.of (T := ⟨S8x127, .f32⟩) main_call4_v0) (fun x v => Host.reduce FloatOps.maximumf x v reducesTo_S8x127x50257_S8x127_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S8x127, .f32⟩) main_call4_v1) (broadcastInDim S8x127 ![] bcast_S_S8x127),
    TRef.binary (TRef.of (T := ⟨S8x127, .f32⟩) main_call4_v1) (TRef.of (T := ⟨S8x127, .f32⟩) main_call4_v0) (TRef.of (T := ⟨S8x127, .f32⟩) main_call4_v2) maximumf,
    TRef.unary (TRef.of (T := ⟨S8x127, .f32⟩) main_call4_v2) (TRef.of (T := ⟨S8x127x1, .f32⟩) main_call4_v3) (broadcastInDim S8x127x1 ![0, 1] bcast_S8x127_S8x127x1_0_1),
    TRef.unary (TRef.of (T := ⟨S8x127x1, .f32⟩) main_call4_v3) (TRef.of (T := ⟨S8x127x50257, .f32⟩) main_call4_v4) (broadcastInDim S8x127x50257 ![0, 1, 2] bcast_S8x127x1_S8x127x50257_0_1_2),
    TRef.binary (TRef.of (T := ⟨S8x127x50257, .f32⟩) main_v16) (TRef.of (T := ⟨S8x127x50257, .f32⟩) main_call4_v4) (TRef.of (T := ⟨S8x127x50257, .f32⟩) main_call4_v5) subf,
    TRef.unary (TRef.of (T := ⟨S8x127x50257, .f32⟩) main_call4_v5) (TRef.of (T := ⟨S8x127x50257, .f32⟩) main_call4_v6) Host.exp,
    TRef.nullary (TRef.of (T := ⟨S_, .f32⟩) main_call4_cst_1) (constant S_ .f32 0x00000000#32),
    TRef.binary (TRef.of (T := ⟨S8x127x50257, .f32⟩) main_call4_v6) (TRef.of (T := ⟨S_, .f32⟩) main_call4_cst_1) (TRef.of (T := ⟨S8x127, .f32⟩) main_call4_v7) (fun x v => Host.reduceAdd x v reducesTo_S8x127x50257_S8x127_d2 h_S_),
    TRef.unary (TRef.of (T := ⟨S8x127, .f32⟩) main_call4_v7) (TRef.of (T := ⟨S8x127x1, .f32⟩) main_call4_v8) (broadcastInDim S8x127x1 ![0, 1] bcast_S8x127_S8x127x1_0_1),
    TRef.unary (TRef.of (T := ⟨S8x127x1, .f32⟩) main_call4_v8) (TRef.of (T := ⟨S8x127x1, .f32⟩) main_call4_v9) Host.log,
    TRef.unary (TRef.of (T := ⟨S8x127x1, .f32⟩) main_call4_v9) (TRef.of (T := ⟨S8x127x50257, .f32⟩) main_call4_v10) (broadcastInDim S8x127x50257 ![0, 1, 2] bcast_S8x127x1_S8x127x50257_0_1_2),
    TRef.binary (TRef.of (T := ⟨S8x127x50257, .f32⟩) main_call4_v5) (TRef.of (T := ⟨S8x127x50257, .f32⟩) main_call4_v10) (TRef.of (T := ⟨S8x127x50257, .f32⟩) main_v21) subf,
    unary main_v20 main_v22 (broadcastInDim S8x127x1 ![0, 1] bcast_S8x127_S8x127x1_0_1 : (⟨S8x127, .i32⟩ : BufTy).Contents (Elt F) → (⟨S8x127x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S8x127x1, .i32⟩) main_call5_v0) (broadcastInDim S8x127x1 ![] bcast_S_S8x127x1),
    TRef.binary (TRef.of (T := ⟨S8x127x1, .i32⟩) main_v22) (TRef.of (T := ⟨S8x127x1, .i32⟩) main_call5_v0) (TRef.of (T := ⟨S8x127x1, .i1⟩) main_call5_v1) (cmpi .slt),
    TRef.nullary (TRef.of (T := ⟨S_, .i32⟩) main_call5_c_0) (constantI S_ 32 50257#32),
    TRef.unary (TRef.of (T := ⟨S_, .i32⟩) main_call5_c_0) (TRef.of (T := ⟨S8x127x1, .i32⟩) main_call5_v2) (broadcastInDim S8x127x1 ![] bcast_S_S8x127x1),
    TRef.binary (TRef.of (T := ⟨S8x127x1, .i32⟩) main_v22) (TRef.of (T := ⟨S8x127x1, .i32⟩) main_call5_v2) (TRef.of (T := ⟨S8x127x1, .i32⟩) main_call5_v3) addi,
    TRef.ternary (TRef.of (T := ⟨S8x127x1, .i1⟩) main_call5_v1) (TRef.of (T := ⟨S8x127x1, .i32⟩) main_call5_v3) (TRef.of (T := ⟨S8x127x1, .i32⟩) main_v22) (TRef.of (T := ⟨S8x127x1, .i32⟩) main_call5_v4) select,
    TRef.reshape (TRef.of (T := ⟨S8x127x1, .i32⟩) main_call5_v4) (TRef.of (T := ⟨S8x127x1x1, .i32⟩) main_call5_v5) rfl shapeCasts_S8x127x1_S8x127x1x1,
    TRef.nullary (TRef.of (T := ⟨S1, .i32⟩) main_call5_c_1) (constantI S1 32 50256#32),
    TRef.nullary (TRef.of (T := ⟨S_, .i32⟩) main_call5_c_2) (constantI S_ 32 0#32),
    TRef.unary (TRef.of (T := ⟨S_, .i32⟩) main_call5_c_2) (TRef.of (T := ⟨S8x127x1x1, .i32⟩) main_call5_v6) (broadcastInDim S8x127x1x1 ![] bcast_S_S8x127x1x1),
    TRef.binary (TRef.of (T := ⟨S8x127x1x1, .i32⟩) main_call5_v5) (TRef.of (T := ⟨S8x127x1x1, .i32⟩) main_call5_v6) (TRef.of (T := ⟨S8x127x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S8x127x1x1, .i32⟩) main_call5_v9) (broadcastInDim S8x127x1x1 ![0, 1, 2, 3] bcast_S1x1x1x1_S8x127x1x1_0_1_2_3),
    TRef.binary (TRef.of (T := ⟨S8x127x1x1, .i32⟩) main_call5_v5) (TRef.of (T := ⟨S8x127x1x1, .i32⟩) main_call5_v9) (TRef.of (T := ⟨S8x127x1x1, .i1⟩) main_call5_v10) (cmpi .sle),
    TRef.binary (TRef.of (T := ⟨S8x127x1x1, .i1⟩) main_call5_v7) (TRef.of (T := ⟨S8x127x1x1, .i1⟩) main_call5_v10) (TRef.of (T := ⟨S8x127x1x1, .i1⟩) main_call5_v11) andi,
    TRef.nullary (TRef.of (T := ⟨S_, .i1⟩) main_call5_c_3) (constantI S_ 1 1#1),
    TRef.binary (TRef.of (T := ⟨S8x127x1x1, .i1⟩) main_call5_v11) (TRef.of (T := ⟨S_, .i1⟩) main_call5_c_3) (TRef.of (T := ⟨S8x127x1, .i1⟩) main_call5_v12) (fun x v => Host.reduce IntOp.andi x v reducesTo_S8x127x1x1_S8x127x1_d3 h_S_),
    TRef.binary (TRef.of (T := ⟨S8x127x50257, .f32⟩) main_v21) (TRef.of (T := ⟨S8x127x1x1, .i32⟩) main_call5_v5) (TRef.of (T := ⟨S8x127x1, .f32⟩) main_call5_v13) (fun x i => Host.gather gather_S8x127x50257_S8x127x1x1_S8x127x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S8x127x1, .f32⟩) main_call5_v14) (broadcastInDim S8x127x1 ![] bcast_S_S8x127x1),
    TRef.ternary (TRef.of (T := ⟨S8x127x1, .i1⟩) main_call5_v12) (TRef.of (T := ⟨S8x127x1, .f32⟩) main_call5_v13) (TRef.of (T := ⟨S8x127x1, .f32⟩) main_call5_v14) (TRef.of (T := ⟨S8x127x1, .f32⟩) main_v23) select,
    reshape main_v23 main_v24 rfl shapeCasts_S8x127x1_S8x127,
    unary main_v19 main_v25 ((extui 32 · natLt_1_32) : (⟨S8x127, .i1⟩ : BufTy).Contents (Elt F) → (⟨S8x127, .i32⟩ : BufTy).Contents (Elt F)),
    nullary main_c_4 (constantI S_ 32 0#32),
    binary main_v25 main_c_4 main_v26 ((fun x v => Host.reduce IntOp.addi x v reducesTo_S8x127_S8_d1 h_S_) : (⟨S8x127, .i32⟩ : BufTy).Contents (Elt F) → (⟨S_, .i32⟩ : BufTy).Contents (Elt F) → (⟨S8, .i32⟩ : BufTy).Contents (Elt F)),
    unary main_v26 main_v27 (sitofp .f32 : (⟨S8, .i32⟩ : BufTy).Contents (Elt F) → (⟨S8, .f32⟩ : BufTy).Contents (Elt F)),
    unary main_v19 main_v28 (uitofp .f32 : (⟨S8x127, .i1⟩ : BufTy).Contents (Elt F) → (⟨S8x127, .f32⟩ : BufTy).Contents (Elt F)),
    binary main_v24 main_v28 main_v29 (mulf : (⟨S8x127, .f32⟩ : BufTy).Contents (Elt F) → (⟨S8x127, .f32⟩ : BufTy).Contents (Elt F) → (⟨S8x127, .f32⟩ : BufTy).Contents (Elt F)),
    nullary main_cst_5 (constant S_ .f32 0x00000000#32),
    binary main_v29 main_cst_5 main_v30 ((fun x v => Host.reduceAdd x v reducesTo_S8x127_S8_d1 h_S_) : (⟨S8x127, .f32⟩ : BufTy).Contents (Elt F) → (⟨S_, .f32⟩ : BufTy).Contents (Elt F) → (⟨S8, .f32⟩ : BufTy).Contents (Elt F)),
    binary main_v30 main_v27 main_v31 (Host.divf : (⟨S8, .f32⟩ : BufTy).Contents (Elt F) → (⟨S8, .f32⟩ : BufTy).Contents (Elt F) → (⟨S8, .f32⟩ : BufTy).Contents (Elt F)) ]

/-- The tail: from the two score vectors to the four scalars. -/
abbrev stgC : List (HloOp τ sig (Elt F)) :=
  [ unary main_v31 main_v32 (Host.exp : (⟨S8, .f32⟩ : BufTy).Contents (Elt F) → (⟨S8, .f32⟩ : BufTy).Contents (Elt F)),
    binary main_v31 main_v15 main_v33 (subf : (⟨S8, .f32⟩ : BufTy).Contents (Elt F) → (⟨S8, .f32⟩ : BufTy).Contents (Elt F) → (⟨S8, .f32⟩ : BufTy).Contents (Elt F)),
    binary main_v32 main_v33 main_v34 (mulf : (⟨S8, .f32⟩ : BufTy).Contents (Elt F) → (⟨S8, .f32⟩ : BufTy).Contents (Elt F) → (⟨S8, .f32⟩ : BufTy).Contents (Elt F)),
    nullary main_cst_6 (constant S_ .f32 0x00000000#32),
    binary main_v34 main_cst_6 main_v35 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_7 (constant S_ .f32 0x41000000#32),
    binary main_v35 main_cst_7 main_v36 (Host.divf : (⟨S_, .f32⟩ : BufTy).Contents (Elt F) → (⟨S_, .f32⟩ : BufTy).Contents (Elt F) → (⟨S_, .f32⟩ : BufTy).Contents (Elt F)),
    unary main_v15 main_v37 (Host.exp : (⟨S8, .f32⟩ : BufTy).Contents (Elt F) → (⟨S8, .f32⟩ : BufTy).Contents (Elt F)),
    binary main_v15 main_v31 main_v38 (subf : (⟨S8, .f32⟩ : BufTy).Contents (Elt F) → (⟨S8, .f32⟩ : BufTy).Contents (Elt F) → (⟨S8, .f32⟩ : BufTy).Contents (Elt F)),
    binary main_v37 main_v38 main_v39 (mulf : (⟨S8, .f32⟩ : BufTy).Contents (Elt F) → (⟨S8, .f32⟩ : BufTy).Contents (Elt F) → (⟨S8, .f32⟩ : BufTy).Contents (Elt F)),
    nullary main_cst_8 (constant S_ .f32 0x00000000#32),
    binary main_v39 main_cst_8 main_v40 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_9 (constant S_ .f32 0x41000000#32),
    binary main_v40 main_cst_9 main_v41 (Host.divf : (⟨S_, .f32⟩ : BufTy).Contents (Elt F) → (⟨S_, .f32⟩ : BufTy).Contents (Elt F) → (⟨S_, .f32⟩ : BufTy).Contents (Elt F)),
    binary main_v36 main_v41 main_v42 (addf : (⟨S_, .f32⟩ : BufTy).Contents (Elt F) → (⟨S_, .f32⟩ : BufTy).Contents (Elt F) → (⟨S_, .f32⟩ : BufTy).Contents (Elt F)),
    binary main_v31 main_v15 main_v43 (cmpf .ogt : (⟨S8, .f32⟩ : BufTy).Contents (Elt F) → (⟨S8, .f32⟩ : BufTy).Contents (Elt F) → (⟨S8, .i1⟩ : BufTy).Contents (Elt F)),
    unary main_v43 main_v44 (uitofp .f32 : (⟨S8, .i1⟩ : BufTy).Contents (Elt F) → (⟨S8, .f32⟩ : BufTy).Contents (Elt F)),
    nullary main_cst_10 (constant S_ .f32 0x00000000#32),
    binary main_v44 main_cst_10 main_v45 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_11 (constant S_ .f32 0x41000000#32),
    binary main_v45 main_cst_11 main_v46 (Host.divf : (⟨S_, .f32⟩ : BufTy).Contents (Elt F) → (⟨S_, .f32⟩ : BufTy).Contents (Elt F) → (⟨S_, .f32⟩ : BufTy).Contents (Elt F)),
    nullary main_cst_12 (constant S_ .f32 0x00000000#32),
    binary main_v15 main_cst_12 main_v47 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_13 (constant S_ .f32 0x41000000#32),
    binary main_v47 main_cst_13 main_v48 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    binary main_v31 main_cst_14 main_v49 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_15 (constant S_ .f32 0x41000000#32),
    binary main_v49 main_cst_15 main_v50 (Host.divf : (⟨S_, .f32⟩ : BufTy).Contents (Elt F) → (⟨S_, .f32⟩ : BufTy).Contents (Elt F) → (⟨S_, .f32⟩ : BufTy).Contents (Elt F)) ]

/-- The whole line is the three stretches one after the other. -/
theorem ops_split : (ops : List (HloOp τ sig (Elt F))) = stgA ++ (stgB ++ stgC) := rfl

/-! ## Each stretch read back -/

theorem A_v15 (V : Valuation τ sig (Elt F)) : after (stgA (F := F)) V (Proc.devRef .tc main_v15)
    = val_main_v15 (F := F) (V (Proc.devRef .tc main_arg0)) (V (Proc.devRef .tc main_arg1)) := by
  simp only [stgA]
  after_results_simp
  simp only [ofBuf_toBuf, ofBuf_main_v0, ofBuf_main_c_0, ofBuf_main_v1, ofBuf_main_v3, toBuf_main_v4, ofBuf_main_v6, toBuf_main_call2_v4, ofBuf_main_call2_v5, toBuf_main_v7]
  rfl

theorem A_arg0 (V : Valuation τ sig (Elt F)) :
    after (stgA (F := F)) V (Proc.devRef .tc main_arg0) = V (Proc.devRef .tc main_arg0) := by
  simp only [stgA]
  after_results_simp

theorem A_arg1 (V : Valuation τ sig (Elt F)) :
    after (stgA (F := F)) V (Proc.devRef .tc main_arg1) = V (Proc.devRef .tc main_arg1) := by
  simp only [stgA]
  after_results_simp

theorem A_arg2 (V : Valuation τ sig (Elt F)) :
    after (stgA (F := F)) V (Proc.devRef .tc main_arg2) = V (Proc.devRef .tc main_arg2) := by
  simp only [stgA]
  after_results_simp

theorem A_arg3 (V : Valuation τ sig (Elt F)) :
    after (stgA (F := F)) V (Proc.devRef .tc main_arg3) = V (Proc.devRef .tc main_arg3) := by
  simp only [stgA]
  after_results_simp

theorem B_v31 (V : Valuation τ sig (Elt F)) : after (stgB (F := F)) V (Proc.devRef .tc main_v31)
    = val_main_v31 (F := F) (V (Proc.devRef .tc main_arg2)) (V (Proc.devRef .tc main_arg3)) := by
  simp only [stgB]
  after_results_simp
  simp only [ofBuf_toBuf, ofBuf_main_v16, ofBuf_main_c_3, ofBuf_main_v17, ofBuf_main_v19, toBuf_main_v20, ofBuf_main_v22, toBuf_main_call5_v4, ofBuf_main_call5_v5, toBuf_main_v23]
  rfl

theorem B_arg0 (V : Valuation τ sig (Elt F)) :
    after (stgB (F := F)) V (Proc.devRef .tc main_arg0) = V (Proc.devRef .tc main_arg0) := by
  simp only [stgB]
  after_results_simp

theorem B_arg1 (V : Valuation τ sig (Elt F)) :
    after (stgB (F := F)) V (Proc.devRef .tc main_arg1) = V (Proc.devRef .tc main_arg1) := by
  simp only [stgB]
  after_results_simp

theorem B_arg2 (V : Valuation τ sig (Elt F)) :
    after (stgB (F := F)) V (Proc.devRef .tc main_arg2) = V (Proc.devRef .tc main_arg2) := by
  simp only [stgB]
  after_results_simp

theorem B_arg3 (V : Valuation τ sig (Elt F)) :
    after (stgB (F := F)) V (Proc.devRef .tc main_arg3) = V (Proc.devRef .tc main_arg3) := by
  simp only [stgB]
  after_results_simp

theorem B_v15 (V : Valuation τ sig (Elt F)) :
    after (stgB (F := F)) V (Proc.devRef .tc main_v15) = V (Proc.devRef .tc main_v15) := by
  simp only [stgB]
  after_results_simp

/-- The divergence term of the tail: the mean over the eight examples of `exp s · (s − a)`. -/
def stgKl (a s : (⟨S8, .f32⟩ : BufTy).Contents (Elt F)) : (⟨S_, .f32⟩ : BufTy).Contents (Elt F) :=
  Host.divf (Host.reduceAdd (mulf (Host.exp s) (subf s a)) (constant S_ .f32 0x00000000#32) reducesTo_S8_S_d0 h_S_)
    (constant S_ .f32 0x41000000#32)
/-- The mean of a score vector over the eight examples. -/
def stgMean (a : (⟨S8, .f32⟩ : BufTy).Contents (Elt F)) : (⟨S_, .f32⟩ : BufTy).Contents (Elt F) :=
  Host.divf (Host.reduceAdd a (constant S_ .f32 0x00000000#32) reducesTo_S8_S_d0 h_S_) (constant S_ .f32 0x41000000#32)
/-- The fraction of the eight examples whose second score exceeds the first. -/
def stgFrac (a s : (⟨S8, .f32⟩ : BufTy).Contents (Elt F)) : (⟨S_, .f32⟩ : BufTy).Contents (Elt F) :=
  Host.divf (Host.reduceAdd (uitofp .f32 (cmpf .ogt s a)) (constant S_ .f32 0x00000000#32) reducesTo_S8_S_d0 h_S_)
    (constant S_ .f32 0x41000000#32)

theorem C_v42 (V : Valuation τ sig (Elt F)) : after (stgC (F := F)) V (Proc.devRef .tc main_v42)
    = addf (stgKl (V (Proc.devRef .tc main_v15)) (V (Proc.devRef .tc main_v31)))
        (stgKl (V (Proc.devRef .tc main_v31)) (V (Proc.devRef .tc main_v15))) := by
  simp only [stgC]
  after_results_simp
  rfl

theorem C_v48 (V : Valuation τ sig (Elt F)) : after (stgC (F := F)) V (Proc.devRef .tc main_v48)
    = stgMean (V (Proc.devRef .tc main_v15)) := by
  simp only [stgC]
  after_results_simp
  rfl

theorem C_v50 (V : Valuation τ sig (Elt F)) : after (stgC (F := F)) V (Proc.devRef .tc main_v50)
    = stgMean (V (Proc.devRef .tc main_v31)) := by
  simp only [stgC]
  after_results_simp
  rfl

theorem C_v46 (V : Valuation τ sig (Elt F)) : after (stgC (F := F)) V (Proc.devRef .tc main_v46)
    = stgFrac (V (Proc.devRef .tc main_v15)) (V (Proc.devRef .tc main_v31)) := by
  simp only [stgC]
  after_results_simp
  rfl

theorem C_arg0 (V : Valuation τ sig (Elt F)) :
    after (stgC (F := F)) V (Proc.devRef .tc main_arg0) = V (Proc.devRef .tc main_arg0) := by
  simp only [stgC]
  after_results_simp

theorem C_arg1 (V : Valuation τ sig (Elt F)) :
    after (stgC (F := F)) V (Proc.devRef .tc main_arg1) = V (Proc.devRef .tc main_arg1) := by
  simp only [stgC]
  after_results_simp

theorem C_arg2 (V : Valuation τ sig (Elt F)) :
    after (stgC (F := F)) V (Proc.devRef .tc main_arg2) = V (Proc.devRef .tc main_arg2) := by
  simp only [stgC]
  after_results_simp

theorem C_arg3 (V : Valuation τ sig (Elt F)) :
    after (stgC (F := F)) V (Proc.devRef .tc main_arg3) = V (Proc.devRef .tc main_arg3) := by
  simp only [stgC]
  after_results_simp

theorem C_v15 (V : Valuation τ sig (Elt F)) :
    after (stgC (F := F)) V (Proc.devRef .tc main_v15) = V (Proc.devRef .tc main_v15) := by
  simp only [stgC]
  after_results_simp

theorem C_v31 (V : Valuation τ sig (Elt F)) :
    after (stgC (F := F)) V (Proc.devRef .tc main_v31) = V (Proc.devRef .tc main_v31) := by
  simp only [stgC]
  after_results_simp

/-! ## The stages' definitions over the two score vectors -/

theorem val_v42_eq (x0 : (⟨S8x128x50257, .f32⟩ : BufTy).Contents (Elt F)) (x1 : (⟨S8x128, .i32⟩ : BufTy).Contents (Elt F)) (x2 : (⟨S8x128x50257, .f32⟩ : BufTy).Contents (Elt F)) (x3 : (⟨S8x128, .i32⟩ : BufTy).Contents (Elt F)) :
    val_main_v42 (F := F) x0 x1 x2 x3
      = addf (stgKl (val_main_v15 (F := F) x0 x1) (val_main_v31 (F := F) x2 x3))
          (stgKl (val_main_v31 (F := F) x2 x3) (val_main_v15 (F := F) x0 x1)) := rfl
theorem val_v48_eq (x0 : (⟨S8x128x50257, .f32⟩ : BufTy).Contents (Elt F)) (x1 : (⟨S8x128, .i32⟩ : BufTy).Contents (Elt F)) : val_main_v48 (F := F) x0 x1 = stgMean (val_main_v15 (F := F) x0 x1) := rfl
theorem val_v50_eq (x2 : (⟨S8x128x50257, .f32⟩ : BufTy).Contents (Elt F)) (x3 : (⟨S8x128, .i32⟩ : BufTy).Contents (Elt F)) : val_main_v50 (F := F) x2 x3 = stgMean (val_main_v31 (F := F) x2 x3) := rfl
theorem val_v46_eq (x0 : (⟨S8x128x50257, .f32⟩ : BufTy).Contents (Elt F)) (x1 : (⟨S8x128, .i32⟩ : BufTy).Contents (Elt F)) (x2 : (⟨S8x128x50257, .f32⟩ : BufTy).Contents (Elt F)) (x3 : (⟨S8x128, .i32⟩ : BufTy).Contents (Elt F)) :
    val_main_v46 (F := F) x0 x1 x2 x3 = stgFrac (val_main_v15 (F := F) x0 x1) (val_main_v31 (F := F) x2 x3) := rfl

/-! ## The six results and the four arguments after the whole line -/

variable (m : (ℓ : Loc nD τ sig) → Buf (Elt F) ℓ) (c : Dev nD)

theorem stage_v15 : after (ops (F := F)) (launchContents m c) (Proc.devRef .tc main_v15)
    = val_main_v15 (F := F) (m ((c.tc : Thread nD τ).loc main_arg0)) (m ((c.tc : Thread nD τ).loc main_arg1)) := by
  rw [ops_split, after_append, after_append, C_v15, B_v15, A_v15]

theorem stage_v31 : after (ops (F := F)) (launchContents m c) (Proc.devRef .tc main_v31)
    = val_main_v31 (F := F) (m ((c.tc : Thread nD τ).loc main_arg2)) (m ((c.tc : Thread nD τ).loc main_arg3)) := by
  rw [ops_split, after_append, after_append, C_v31, B_v31, A_arg2, A_arg3]

theorem stage_v42 : after (ops (F := F)) (launchContents m c) (Proc.devRef .tc main_v42)
    = val_main_v42 (F := F) (m ((c.tc : Thread nD τ).loc main_arg0)) (m ((c.tc : Thread nD τ).loc main_arg1))
        (m ((c.tc : Thread nD τ).loc main_arg2)) (m ((c.tc : Thread nD τ).loc main_arg3)) := by
  rw [ops_split, after_append, after_append, C_v42, B_v15, B_v31, A_v15, A_arg2, A_arg3, val_v42_eq]

theorem stage_v48 : after (ops (F := F)) (launchContents m c) (Proc.devRef .tc main_v48)
    = val_main_v48 (F := F) (m ((c.tc : Thread nD τ).loc main_arg0)) (m ((c.tc : Thread nD τ).loc main_arg1)) := by
  rw [ops_split, after_append, after_append, C_v48, B_v15, A_v15, val_v48_eq]

theorem stage_v50 : after (ops (F := F)) (launchContents m c) (Proc.devRef .tc main_v50)
    = val_main_v50 (F := F) (m ((c.tc : Thread nD τ).loc main_arg2)) (m ((c.tc : Thread nD τ).loc main_arg3)) := by
  rw [ops_split, after_append, after_append, C_v50, B_v31, A_arg2, A_arg3, val_v50_eq]

theorem stage_v46 : after (ops (F := F)) (launchContents m c) (Proc.devRef .tc main_v46)
    = val_main_v46 (F := F) (m ((c.tc : Thread nD τ).loc main_arg0)) (m ((c.tc : Thread nD τ).loc main_arg1))
        (m ((c.tc : Thread nD τ).loc main_arg2)) (m ((c.tc : Thread nD τ).loc main_arg3)) := by
  rw [ops_split, after_append, after_append, C_v46, B_v15, B_v31, A_v15, A_arg2, A_arg3, val_v46_eq]

theorem stage_arg0 : after (ops (F := F)) (launchContents m c) (Proc.devRef .tc main_arg0)
    = m ((c.tc : Thread nD τ).loc main_arg0) := by
  rw [ops_split, after_append, after_append, C_arg0, B_arg0, A_arg0]

theorem stage_arg1 : after (ops (F := F)) (launchContents m c) (Proc.devRef .tc main_arg1)
    = m ((c.tc : Thread nD τ).loc main_arg1) := by
  rw [ops_split, after_append, after_append, C_arg1, B_arg1, A_arg1]

theorem stage_arg2 : after (ops (F := F)) (launchContents m c) (Proc.devRef .tc main_arg2)
    = m ((c.tc : Thread nD τ).loc main_arg2) := by
  rw [ops_split, after_append, after_append, C_arg2, B_arg2, A_arg2]

theorem stage_arg3 : after (ops (F := F)) (launchContents m c) (Proc.devRef .tc main_arg3)
    = m ((c.tc : Thread nD τ).loc main_arg3) := by
  rw [ops_split, after_append, after_append, C_arg3, B_arg3, A_arg3]

end Cert.ReferenceIdeal.Hand

end
-- ==== Proof.HostSpec.lean ====
import Idealize.ShloMosaic.PureOps.Ideal
import Mathlib.Algebra.BigOperators.Fin

/-!
# What one example's score is, as a formula

A target word `t` (a signed 32-bit integer) equal to `-100` is ignored; otherwise it names a column of a row of
50257 entries: a negative word is first wrapped by the row's length, and a word that is then outside `[0, 50256]`
reads the fill value, which at the extended reals is `⊥`. An example's score is the sum over its positions of the
taken entry times the indicator of "not ignored", divided by the number of positions not ignored.
-/

noncomputable section

namespace Cert.Host

open Idealize.ShloMosaic

/-- The word of the ignored target, `-100`. -/
abbrev ignoreW : BitVec 32 := 4294967196#32

/-- A target is kept when it is not the ignored word. -/
def keep (t : BitVec 32) : Bool := decide (t ≠ ignoreW)

/-- The target with the ignored word replaced by `0`. -/
def safe (t : BitVec 32) : BitVec 32 := if keep t then t else 0#32

/-- A negative target counted from the row's end. -/
def wrapW (t : BitVec 32) : BitVec 32 := if t.toInt < 0 then t + 50257#32 else t

/-- The column a target reads, when it reads one. -/
def col? (t : BitVec 32) : Option (Fin 50257) :=
  if h : 0 ≤ (wrapW t).toInt ∧ (wrapW t).toInt ≤ 50256 then some ⟨(wrapW t).toInt.toNat, by omega⟩ else none

/-- The row's entry a target reads, or `⊥` when the target is out of range. -/
def takeFill (y : Fin 50257 → EReal) (t : BitVec 32) : EReal :=
  match col? t with
  | some k => y k
  | none => ⊥

/-- The indicator of a kept target as an extended real. -/
def keepE (t : BitVec 32) : EReal := if keep t then 1 else 0

/-- The quotient the host forms: the weighted sum over `n` positions, started from `0`, over a denominator. -/
def scoreOf (n : ℕ) (tok : Fin n → EReal) (t : Fin n → BitVec 32) (den : EReal) : EReal :=
  Ideal.div (0 + ∑ r : Fin n, tok r * keepE (t r)) den

end Cert.Host

end
-- ==== Proof.LseSpec.lean ====
import Idealize.ShloMosaic.PureOps.Ideal
import Mathlib.Algebra.BigOperators.Fin
import Mathlib.Data.EReal.Basic

/-!
# Streaming log-sum-exp of one row of 50257 logits, read 8448 columns at a time

A row `x : Fin 50257 → EReal` is scanned in six tiles of 8448 columns; the last tile runs past the
row's end and its missing columns are read as `⊥` (the identity of `max`, and `exp ⊥ = 0` the identity of
the sum). A running maximum `m` and a running rescaled sum `l` are kept:
`m' = max m (tile's max)`, `l' = exp (m - m') * l + Σ_j exp (tile j - m')`, started from `m = ⊥`, `l = 0`.
For a row of real numbers the final `m + log l` is `max x + log Σ_k exp (x k - max x)`.
-/

noncomputable section

namespace Cert.Lse

open Idealize.ShloMosaic

/-- Column `j` of tile `kv` of the row; `⊥` past the row's end. -/
def tile (x : Fin 50257 → EReal) (kv : ℕ) (j : Fin 8448) : EReal :=
  if h : kv * 8448 + j.val < 50257 then x ⟨kv * 8448 + j.val, h⟩ else ⊥

/-- The running maximum after one more tile `y`. -/
def stepM (m : EReal) (y : Fin 8448 → EReal) : EReal :=
  max m ((Finset.univ : Finset (Fin 8448)).fold max ⊥ y)

/-- The running rescaled sum after one more tile `y`, from the maximum `m` and the sum `l` before it. -/
def stepL (m l : EReal) (y : Fin 8448 → EReal) : EReal :=
  Ideal.exp (m - stepM m y) * l + ∑ j : Fin 8448, Ideal.exp (y j - stepM m y)

/-- The running maximum after tiles `0 … kv`. -/
def stM (x : Fin 50257 → EReal) : ℕ → EReal
  | 0 => stepM ⊥ (tile x 0)
  | kv + 1 => stepM (stM x kv) (tile x (kv + 1))

/-- The running sum after tiles `0 … kv`. -/
def stL (x : Fin 50257 → EReal) : ℕ → EReal
  | 0 => stepL ⊥ 0 (tile x 0)
  | kv + 1 => stepL (stM x kv) (stL x kv) (tile x (kv + 1))

/-- The row's maximum, as a fold of `max` from `⊥`. -/
def rowMax (x : Fin 50257 → EReal) : EReal := (Finset.univ : Finset (Fin 50257)).fold max ⊥ x

/-- The row's sum of exponentials shifted by its maximum. -/
def rowSum (x : Fin 50257 → EReal) : EReal := ∑ k : Fin 50257, Ideal.exp (x k - rowMax x)

/-- The row's log-sum-exp. -/
def rowLse (x : Fin 50257 → EReal) : EReal := rowMax x + Ideal.log (rowSum x)

/-- Every entry of the row is a real number. -/
def RealRow (x : Fin 50257 → EReal) : Prop := ∀ k, ∃ r : ℝ, x k = (r : EReal)

open Finset

/-! ### The exponential and the order on the extended reals -/

private theorem exp_bot : Ideal.exp ⊥ = 0 := rfl

private theorem exp_coe (r : ℝ) : Ideal.exp (r : EReal) = ((Real.exp r : ℝ) : EReal) := rfl

private theorem exp_nonneg (z : EReal) : 0 ≤ Ideal.exp z := by
  induction z using EReal.rec with
  | bot => exact le_of_eq exp_bot.symm
  | coe r => rw [exp_coe]; exact EReal.coe_nonneg.mpr (Real.exp_nonneg r)
  | top => exact le_top

/-- Changing the shift of an exponential from `m` to a larger real `a'` is a multiplication by
`exp (m - a')`; when `m = ⊥` every term below it is `0` on both sides. -/
private theorem rescale (z m : EReal) (a' : ℝ) (hz : z ≤ m) (hm : m ≤ (a' : EReal)) :
    Ideal.exp (m - a') * Ideal.exp (z - m) = Ideal.exp (z - a') := by
  induction m using EReal.rec with
  | bot =>
    have hzb : z = ⊥ := le_bot_iff.mp hz
    subst hzb
    rw [EReal.bot_sub, EReal.bot_sub, exp_bot, mul_zero]
  | top => exact absurd hm (not_le.mpr (EReal.coe_lt_top a'))
  | coe a =>
    induction z using EReal.rec with
    | bot => rw [EReal.bot_sub, EReal.bot_sub, exp_bot, mul_zero]
    | top => exact absurd hz (not_le.mpr (EReal.coe_lt_top a))
    | coe r =>
      rw [← EReal.coe_sub, ← EReal.coe_sub, ← EReal.coe_sub, exp_coe, exp_coe, exp_coe,
        ← EReal.coe_mul, ← Real.exp_add]
      congr 2
      ring

/-- A product distributes over a finite sum of nonnegative extended reals. -/
private theorem mul_sum_nonneg {ι : Type*} (s : Finset ι) (c : EReal) (g : ι → EReal)
    (hg : ∀ i ∈ s, 0 ≤ g i) : c * ∑ i ∈ s, g i = ∑ i ∈ s, c * g i := by
  classical
  induction s using Finset.induction_on with
  | empty => simp
  | insert i s hi ih =>
    rw [Finset.sum_insert hi, Finset.sum_insert hi,
      EReal.left_distrib_of_nonneg (hg i (mem_insert_self i s))
        (Finset.sum_nonneg fun j hj => hg j (mem_insert_of_mem hj)),
      ih (fun j hj => hg j (mem_insert_of_mem hj))]

/-- The coercion of a finite real sum is the sum of the coercions. -/
private theorem coe_sum {ι : Type*} (s : Finset ι) (g : ι → ℝ) :
    ((∑ i ∈ s, g i : ℝ) : EReal) = ∑ i ∈ s, ((g i : ℝ) : EReal) := by
  classical
  induction s using Finset.induction_on with
  | empty => simp
  | insert i s hi ih => rw [Finset.sum_insert hi, Finset.sum_insert hi, EReal.coe_add, ih]

/-! ### Folds of `max` are suprema -/

private theorem fold_max_eq_sup {ι : Type*} (s : Finset ι) (g : ι → EReal) :
    s.fold max ⊥ g = s.sup g := rfl

private theorem sup_fin_eq_sup_range (n : ℕ) (F : ℕ → EReal) :
    (univ : Finset (Fin n)).sup (fun j => F j.val) = (range n).sup F :=
  le_antisymm
    (Finset.sup_le fun j _ => Finset.le_sup (f := F) (mem_range.2 j.isLt))
    (Finset.sup_le fun i hi =>
      Finset.le_sup (f := fun j : Fin n => F j.val) (mem_univ (⟨i, mem_range.1 hi⟩ : Fin n)))

private theorem sup_range_add (F : ℕ → EReal) (n d : ℕ) :
    (range (n + d)).sup F = max ((range n).sup F) ((range d).sup fun j => F (n + j)) := by
  apply le_antisymm
  · apply Finset.sup_le
    intro i hi
    rcases lt_or_ge i n with h | h
    · exact le_max_of_le_left (Finset.le_sup (mem_range.2 h))
    · refine le_max_of_le_right ?_
      have hmem : i - n ∈ range d := by
        rw [mem_range] at hi ⊢
        omega
      have h2 := Finset.le_sup (f := fun j => F (n + j)) hmem
      have e : n + (i - n) = i := by omega
      simpa only [e] using h2
  · apply max_le
    · exact Finset.sup_mono (range_mono (Nat.le_add_right n d))
    · apply Finset.sup_le
      intro j hj
      exact Finset.le_sup (f := F) (mem_range.2 (by have := mem_range.1 hj; omega))

/-! ### One step of the scan, over the row continued by `⊥` -/

/-- One tile `y` holding the entries `n … n + 8447` of a sequence `X`, appended to the state for the entries
before `n`, gives the state for the entries before `n + 8448`, when the new maximum is a real number. -/
private theorem step (X : ℕ → EReal) (n : ℕ) (y : Fin 8448 → EReal)
    (hy : ∀ j : Fin 8448, y j = X (n + j.val))
    (a' : ℝ) (ha' : (range (n + 8448)).sup X = (a' : EReal)) :
    stepM ((range n).sup X) y = (range (n + 8448)).sup X ∧
    stepL ((range n).sup X) (∑ i ∈ range n, Ideal.exp (X i - (range n).sup X)) y
      = ∑ i ∈ range (n + 8448), Ideal.exp (X i - (range (n + 8448)).sup X) := by
  have hM : stepM ((range n).sup X) y = (range (n + 8448)).sup X := by
    have hy' : y = fun j : Fin 8448 => X (n + j.val) := funext hy
    rw [stepM, fold_max_eq_sup, hy', sup_fin_eq_sup_range 8448 (fun j => X (n + j)), sup_range_add]
  refine ⟨hM, ?_⟩
  rw [stepL, hM, ha', Finset.sum_range_add, mul_sum_nonneg _ _ _ (fun i _ => exp_nonneg _)]
  refine congrArg₂ (· + ·) ?_ ?_
  · apply Finset.sum_congr rfl
    intro i hi
    apply rescale
    · exact Finset.le_sup hi
    · rw [← ha']
      exact Finset.sup_mono (range_mono (Nat.le_add_right _ _))
  · rw [← Fin.sum_univ_eq_sum_range (fun j => Ideal.exp (X (n + j) - a')) 8448]
    apply Finset.sum_congr rfl
    intro j _
    rw [hy]

/-- The row continued by `⊥` past its end. -/
private def ext (x : Fin 50257 → EReal) (i : ℕ) : EReal :=
  if h : i < 50257 then x ⟨i, h⟩ else ⊥

private theorem tile_eq (x : Fin 50257 → EReal) (kv : ℕ) (j : Fin 8448) :
    tile x kv j = ext x (kv * 8448 + j.val) := rfl

private theorem ext_val (x : Fin 50257 → EReal) (k : Fin 50257) : ext x k.val = x k := by
  simp [ext, k.isLt]

private theorem ext_past (x : Fin 50257 → EReal) (j : ℕ) : ext x (50257 + j) = ⊥ := by
  simp [ext]

/-- The supremum of a nonempty initial segment of a real row is a real number. -/
private theorem sup_ext_real (x : Fin 50257 → EReal) (hx : RealRow x) (N : ℕ) (hN : 0 < N) :
    ∃ a : ℝ, (range N).sup (ext x) = (a : EReal) := by
  have hne_top : (range N).sup (ext x) ≠ ⊤ := by
    apply ne_of_lt
    rw [Finset.sup_lt_iff bot_lt_top]
    intro i _
    unfold ext
    split
    · rename_i h
      obtain ⟨r, hr⟩ := hx ⟨i, h⟩
      rw [hr]
      exact EReal.coe_lt_top r
    · exact bot_lt_top
  have hne_bot : (range N).sup (ext x) ≠ ⊥ := by
    apply ne_of_gt
    have h0 : ext x ((0 : Fin 50257)).val ≤ (range N).sup (ext x) :=
      Finset.le_sup (f := ext x) (mem_range.2 hN)
    refine lt_of_lt_of_le ?_ h0
    obtain ⟨r, hr⟩ := hx 0
    rw [ext_val, hr]
    exact EReal.bot_lt_coe r
  exact ⟨_, (EReal.coe_toReal hne_top hne_bot).symm⟩

/-- The state after tiles `0 … kv` is the maximum and the shifted sum of exponentials over the first
`(kv + 1) * 8448` entries of the continued row. -/
private theorem scan_inv (x : Fin 50257 → EReal) (hx : RealRow x) (kv : ℕ) :
    stM x kv = (range ((kv + 1) * 8448)).sup (ext x) ∧
    stL x kv = ∑ i ∈ range ((kv + 1) * 8448), Ideal.exp (ext x i - stM x kv) := by
  induction kv with
  | zero =>
    have e0 : (0 + 1) * 8448 = 0 + 8448 := by norm_num
    obtain ⟨a', ha'⟩ := sup_ext_real x hx (0 + 8448) (by norm_num)
    have h := step (ext x) 0 (tile x 0) (fun j => by rw [tile_eq]) a' ha'
    rw [range_zero, sup_empty, sum_empty] at h
    have hM : stM x 0 = (range (0 + 8448)).sup (ext x) := h.1
    have hL : stL x 0 = ∑ i ∈ range (0 + 8448), Ideal.exp (ext x i - (range (0 + 8448)).sup (ext x)) :=
      h.2
    rw [e0]
    exact ⟨hM, by rw [hL, hM]⟩
  | succ kv ih =>
    have e : (kv + 1 + 1) * 8448 = (kv + 1) * 8448 + 8448 := by ring
    obtain ⟨a', ha'⟩ := sup_ext_real x hx ((kv + 1) * 8448 + 8448) (by omega)
    have h := step (ext x) ((kv + 1) * 8448) (tile x (kv + 1)) (fun j => by rw [tile_eq]) a' ha'
    rw [← ih.1] at h
    rw [← ih.2] at h
    have hM : stM x (kv + 1) = (range ((kv + 1) * 8448 + 8448)).sup (ext x) := h.1
    have hL : stL x (kv + 1) = ∑ i ∈ range ((kv + 1) * 8448 + 8448),
        Ideal.exp (ext x i - (range ((kv + 1) * 8448 + 8448)).sup (ext x)) := h.2
    rw [e]
    exact ⟨hM, by rw [hL, hM]⟩

/-- An initial segment of the continued row that covers the row has the row's maximum. -/
private theorem sup_ext_full (x : Fin 50257 → EReal) (N : ℕ) (hN : 50257 ≤ N) :
    (range N).sup (ext x) = rowMax x := by
  rw [rowMax, fold_max_eq_sup]
  apply le_antisymm
  · apply Finset.sup_le
    intro i _
    unfold ext
    split
    · exact Finset.le_sup (f := x) (mem_univ _)
    · exact bot_le
  · apply Finset.sup_le
    intro k _
    rw [← ext_val x k]
    exact Finset.le_sup (f := ext x) (mem_range.2 (lt_of_lt_of_le k.isLt hN))

/-- The entries past the row's end add `exp ⊥ = 0` to the shifted sum. -/
private theorem sum_ext_full (x : Fin 50257 → EReal) (m : EReal) (d : ℕ) :
    ∑ i ∈ range (50257 + d), Ideal.exp (ext x i - m) = ∑ k : Fin 50257, Ideal.exp (x k - m) := by
  rw [Finset.sum_range_add, ← Fin.sum_univ_eq_sum_range (fun i => Ideal.exp (ext x i - m)) 50257]
  have h2 : ∑ j ∈ range d, Ideal.exp (ext x (50257 + j) - m) = 0 := by
    apply Finset.sum_eq_zero
    intro j _
    rw [ext_past, EReal.bot_sub, exp_bot]
  rw [h2, add_zero]
  apply Finset.sum_congr rfl
  intro k _
  rw [ext_val]

private theorem rowMax_real (x : Fin 50257 → EReal) (hx : RealRow x) :
    ∃ a : ℝ, rowMax x = (a : EReal) := by
  obtain ⟨a, ha⟩ := sup_ext_real x hx 50257 (by norm_num)
  exact ⟨a, by rw [← sup_ext_full x 50257 le_rfl, ha]⟩

/-- The shifted sum of a real row is a positive real number, so its logarithm is real. -/
private theorem log_rowSum_real (x : Fin 50257 → EReal) (hx : RealRow x) :
    ∃ b : ℝ, Ideal.log (rowSum x) = (b : EReal) := by
  obtain ⟨a, ha⟩ := rowMax_real x hx
  choose f hf using hx
  have hS : rowSum x = ((∑ k : Fin 50257, Real.exp (f k - a) : ℝ) : EReal) := by
    rw [rowSum, ha, coe_sum]
    apply Finset.sum_congr rfl
    intro k _
    rw [hf k, ← EReal.coe_sub, exp_coe]
  have hpos : 0 < ∑ k : Fin 50257, Real.exp (f k - a) :=
    Finset.sum_pos (fun k _ => Real.exp_pos _) ⟨0, mem_univ _⟩
  refine ⟨Real.log (∑ k : Fin 50257, Real.exp (f k - a)), ?_⟩
  rw [hS]
  show (if (∑ k : Fin 50257, Real.exp (f k - a)) ≤ 0 then (⊥ : EReal) else _) = _
  rw [if_neg (not_le.2 hpos)]

/-- The six-tile scan of a real row ends at the row's log-sum-exp. -/
theorem stream_final (x : Fin 50257 → EReal) (hx : RealRow x) :
    stM x 5 + Ideal.log (stL x 5) = rowLse x := by
  obtain ⟨hM, hL⟩ := scan_inv x hx 5
  have hM' : stM x 5 = rowMax x := by
    rw [hM]
    exact sup_ext_full x _ (by norm_num)
  have hL' : stL x 5 = rowSum x := by
    have e : (5 + 1) * 8448 = 50257 + 431 := by norm_num
    rw [hL, hM', rowSum, e]
    exact sum_ext_full x _ 431
  rw [hM', hL', rowLse]

/-- The log-sum-exp of a real row is a real number. -/
theorem rowLse_real (x : Fin 50257 → EReal) (hx : RealRow x) : ∃ r : ℝ, rowLse x = (r : EReal) := by
  obtain ⟨a, ha⟩ := rowMax_real x hx
  obtain ⟨b, hb⟩ := log_rowSum_real x hx
  exact ⟨a + b, by rw [rowLse, ha, hb, EReal.coe_add]⟩

/-- Subtracting the log-sum-exp is subtracting the maximum and then the logarithm of the shifted sum. -/
theorem sub_rowLse (x : Fin 50257 → EReal) (hx : RealRow x) (k : Fin 50257) :
    x k - rowLse x = (x k - rowMax x) - Ideal.log (rowSum x) := by
  obtain ⟨a, ha⟩ := rowMax_real x hx
  obtain ⟨b, hb⟩ := log_rowSum_real x hx
  obtain ⟨r, hr⟩ := hx k
  have e : r - (a + b) = r - a - b := by ring
  rw [rowLse, ha, hb, hr, ← EReal.coe_add, ← EReal.coe_sub, ← EReal.coe_sub, ← EReal.coe_sub, e]

/-- `⊥` minus anything is `⊥`. -/
theorem bot_sub (y : EReal) : (⊥ : EReal) - y = ⊥ :=
  EReal.bot_sub y

end Cert.Lse

end
-- ==== Proof.RefSide.lean ====
import proofs.«403453_j14791867368156_3_alg».proof.Proof.RefRun
import proofs.«403453_j14791867368156_3_alg».proof.Proof.RefRead
import proofs.«403453_j14791867368156_3_alg».proof.Proof.RefStages
import proofs.«403453_j14791867368156_3_alg».proof.Proof.HostSpec
import proofs.«403453_j14791867368156_3_alg».proof.Proof.LseSpec
import Idealize.ShloMosaic.Lib.ValueIdx
import Idealize.ShloMosaic.Lib.IdealHost
import Idealize.ShloMosaic.Lib.StableHlo.Predicate
import Idealize.ShloMosaic.PureOps.Ideal.Laws

/-! The reference program's results as functions of its four arguments.

Per example `b` and position `r` the reference takes the log-probability row of position `r` at the target of
position `r + 1`, weighs it by the indicator "target not ignored", sums over the positions and divides by the number
of positions not ignored; a tail of scalar operations turns the two score vectors into the six results. -/

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Host

/-- An [8, 128, 50257] array of extended reals. -/
abbrev XTy : Type := (⟨S8x128x50257, .f32⟩ : BufTy).Contents (Elt Ideal)
/-- An [8, 128] array of 32-bit words. -/
abbrev TTy : Type := (⟨S8x128, .i32⟩ : BufTy).Contents (Elt Ideal)
/-- An [8] array of extended reals. -/
abbrev VTy : Type := (⟨S8, .f32⟩ : BufTy).Contents (Elt Ideal)
/-- A scalar extended real, as a rank-0 array. -/
abbrev STy : Type := (⟨S_, .f32⟩ : BufTy).Contents (Elt Ideal)

/-- Row `(b, r)` of the logits. -/
def rowOf (X : XTy) (b : Fin 8) (r : Fin 128) : Fin 50257 → EReal := fun k => X (ix3 b r k)

/-- The row's log-probabilities: each entry less the row's maximum, less the logarithm of the shifted sum. -/
def logpRow (X : XTy) (b : Fin 8) (r : Fin 128) : Fin 50257 → EReal := fun k =>
  (rowOf X b r k - Cert.Lse.rowMax (rowOf X b r)) - Ideal.log (Cert.Lse.rowSum (rowOf X b r))

/-- Position `r`'s target: the token one position later. -/
def tgtR (T : TTy) (b : Fin 8) (r : Fin 127) : BitVec 32 := T (ix2 b (⟨r.val + 1, by omega⟩ : Fin 128))

/-- The log-probability position `r` reads: its row at its target, the ignored word read as `0`. -/
def tokR (X : XTy) (T : TTy) (b : Fin 8) (r : Fin 127) : EReal :=
  takeFill (logpRow X b (⟨r.val, by omega⟩ : Fin 128)) (safe (tgtR T b r))

/-- The number of kept positions of example `b` as the host forms it: an integer sum, then made a real. -/
def denR (T : TTy) (b : Fin 8) : EReal :=
  (((∑ r : Fin 127, if keep (tgtR T b r) then (1 : ℤ) else 0 : ℤ) : ℝ) : EReal)

/-- Example `b`'s score. -/
def scoreB (X : XTy) (T : TTy) (b : Fin 8) : EReal :=
  scoreOf 127 (tokR X T b) (tgtR T b) (denR T b)

/-- The score vector. -/
def scoreR (X : XTy) (T : TTy) : VTy := fun j => scoreB X T (j 0)

/-- The score vector at example `b`. -/
theorem scoreR_ix1 (X : XTy) (T : TTy) (b : Fin 8) : scoreR X T (ix1 b) = scoreB X T b := rfl

/-! ### Bit patterns -/

/-- The pattern `0xFF800000` is `-∞`. -/
theorem ofBits_neg_inf : Ideal.ofBits .f32 0xFF800000#32 = ⊥ := by simp [Ideal.ofBits, Ideal.ieee]
/-- A quiet-NaN pattern denotes `⊥`. -/
theorem ofBits_nan : Ideal.ofBits .f32 0x7FC00000#32 = ⊥ := by simp [Ideal.ofBits, Ideal.ieee]

/-! ### Target words -/

/-- Replacing the ignored word by zero, as the select on the "not ignored" bit does. -/
theorem select_safe (t : BitVec 32) :
    Scalar.select (IntOp.cmpi .ne t 4294967196#32) t 0#32 = safe t := by
  unfold Scalar.select IntOp.cmpi safe keep
  by_cases h : t = 4294967196#32
  · subst h; decide
  · have hb : (t != 4294967196#32) = true := bne_iff_ne.mpr h
    simp [h, hb]

/-- Counting a negative word from the row's end, as the select on the sign does. -/
theorem select_wrap (s : BitVec 32) :
    Scalar.select (IntOp.cmpi .slt s 0#32) (IntOp.addi s 50257#32) s = wrapW s := by
  unfold Scalar.select IntOp.cmpi IntOp.addi wrapW
  by_cases h : s.toInt < 0
  · simp [BitVec.slt, h]
  · simp [BitVec.slt, h]

/-- The two range tests, and-ed and folded from the bit one, say the word is a column. -/
theorem inb_bit (w : BitVec 32) :
    IntOp.andi (IntOp.andi (IntOp.cmpi .sge w 0#32) (IntOp.cmpi .sle w 50256#32)) 1#1
      = BitVec.ofBool (decide (0 ≤ w.toInt ∧ w.toInt ≤ 50256)) := by
  have e : (50256#32 : BitVec 32).toInt = 50256 := by decide
  unfold IntOp.andi IntOp.cmpi
  by_cases h1 : 0 ≤ w.toInt <;> by_cases h2 : w.toInt ≤ 50256 <;> simp [BitVec.sle, e, h1, h2]

/-- The "not ignored" bit converted to a float is the indicator. -/
theorem uitofp_keep (t : BitVec 32) :
    (((IntOp.cmpi .ne t 4294967196#32).toNat : ℝ) : EReal) = keepE t := by
  unfold IntOp.cmpi keepE keep
  by_cases h : t = 4294967196#32
  · subst h; simp
  · simp [h]

/-- The "not ignored" bit is set exactly at a kept target. -/
theorem ne_bit_iff (t : BitVec 32) : IntOp.cmpi .ne t 4294967196#32 = 1#1 ↔ keep t = true := by
  unfold IntOp.cmpi keep
  by_cases h : t = 4294967196#32
  · subst h; decide
  · have hb : (t != 4294967196#32) = true := bne_iff_ne.mpr h
    simp [h, hb]

/-- The select on the range bit between the clamped read and the fill is the row's entry or `⊥`. -/
theorem take_eq (y : Fin 50257 → EReal) (t : BitVec 32) :
    Scalar.select (BitVec.ofBool (decide (0 ≤ (wrapW t).toInt ∧ (wrapW t).toInt ≤ 50256)))
      (y ⟨min (wrapW t).toInt.toNat 50256, by omega⟩) ⊥ = takeFill y t := by
  unfold takeFill col?
  by_cases h : 0 ≤ (wrapW t).toInt ∧ (wrapW t).toInt ≤ 50256
  · rw [dif_pos h, decide_eq_true h]
    show Scalar.select 1#1 _ _ = _
    rw [select_one]
    exact congrArg y (Fin.ext (Nat.min_eq_left (by omega)))
  · rw [dif_neg h, decide_eq_false h]
    show Scalar.select 0#1 _ _ = _
    rw [select_zero]

/-! ### The gather along a row

The operand's first two axes are batching axes, its last is collapsed and indexed: result element `(b, r, 0)` reads
the operand at `(b, r, c)`, `c` the start index at `(b, r, 0, 0)` read signed and clamped into `[0, 50256]`. -/

/-- The program's gather dimension numbers. -/
abbrev gd := gather_S8x127x50257_S8x127x1x1_S8x127x1_n_2_01_01_2_3_111

theorem gather_at {α : Type} (x : S8x127x50257.Idx → α) (idx : IVec S8x127x1x1 32) (b : Fin 8) (r : Fin 127) :
    Host.gather gd x idx (ix3 b r (0 : Fin 1))
      = x (ix3 b r (⟨min (idx (ix4 b r (0 : Fin 1) (0 : Fin 1))).toInt.toNat 50256, by omega⟩ : Fin 50257)) := by
  have h0 : gd.start (ix3 b r (0 : Fin 1)) idx (0 : Fin 3) + gd.batchCoord (ix3 b r (0 : Fin 1)) (0 : Fin 3)
      + gd.offCoord (ix3 b r (0 : Fin 1)) (0 : Fin 3) = b.val := by
    rw [gd.start_batching _ _ _ (by decide), gd.offCoord_eq_zero _ _ (by decide), Nat.zero_add, Nat.add_zero]
    rfl
  have h1 : gd.start (ix3 b r (0 : Fin 1)) idx (1 : Fin 3) + gd.batchCoord (ix3 b r (0 : Fin 1)) (1 : Fin 3)
      + gd.offCoord (ix3 b r (0 : Fin 1)) (1 : Fin 3) = r.val := by
    rw [gd.start_batching _ _ _ (by decide), gd.offCoord_eq_zero _ _ (by decide), Nat.zero_add, Nat.add_zero]
    rfl
  have h2 : gd.start (ix3 b r (0 : Fin 1)) idx (2 : Fin 3) + gd.batchCoord (ix3 b r (0 : Fin 1)) (2 : Fin 3)
      + gd.offCoord (ix3 b r (0 : Fin 1)) (2 : Fin 3) = min (idx (ix4 b r (0 : Fin 1) (0 : Fin 1))).toInt.toNat 50256 := by
    rw [gd.batchCoord_eq_zero _ _ (by decide), gd.offCoord_eq_zero _ _ (by decide), Nat.add_zero]
    unfold GatherDims.start
    rw [dif_pos (by decide)]
    have hsi : gd.siIdx (ix3 b r (0 : Fin 1)) ⟨List.idxOf (2 : Fin 3) gd.startIndexMap, by decide⟩
        = ix4 b r (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl
  unfold Host.gather
  congr 1
  funext a
  refine Fin.ext ?_
  show gd.start (ix3 b r (0 : Fin 1)) idx a + gd.batchCoord (ix3 b r (0 : Fin 1)) a + gd.offCoord (ix3 b r (0 : Fin 1)) a = _
  match a with
  | ⟨0, _⟩ => exact h0
  | ⟨1, _⟩ => exact h1
  | ⟨2, _⟩ => exact h2

/-! ### The log-probabilities at an index -/

/-- The logits' last axis reduces away. -/
theorem red3 : S8x127x50257.Reduces [2] S8x127 := by decide

/-- Result index `(b, r)` with column `k` put back. -/
theorem lift3 (b : Fin 8) (r : Fin 127) (k : Fin 50257) : red3.lift (ix2 b r) k = ix3 b r k := by
  funext c; apply Fin.ext; fin_cases c <;> rfl

/-- The slice keeps the first 127 positions. -/
theorem v0_at (X : XTy) (b : Fin 8) (r : Fin 127) (k : Fin 50257) :
    val_main_v0 (F := Ideal) X (ix3 b r k) = rowOf X b ⟨r.val, by omega⟩ k := by
  rw [val_main_v0_apply]
  show X _ = X _
  exact congrArg X (funext fun a => by match a with | ⟨0, _⟩ => rfl | ⟨1, _⟩ => rfl | ⟨2, _⟩ => rfl)

/-- The maximum-reduce, joined with `-∞`, is the row's maximum. -/
theorem max_at (X : XTy) (b : Fin 8) (r : Fin 127) :
    val_main_call1_v2 (F := Ideal) X (ix2 b r) = Cert.Lse.rowMax (rowOf X b ⟨r.val, by omega⟩) := by
  have hf : (fun k : Fin 50257 => val_main_v0 (F := Ideal) X (red3.lift (ix2 b r) k)) = rowOf X b ⟨r.val, by omega⟩ :=
    funext fun k => by rw [lift3, v0_at]
  rw [val_main_call1_v2_apply, val_main_call1_v1_apply, val_main_call1_cst_0_apply, Ideal.maximumf_def,
    Ideal.ofBits_def, ofBits_neg_inf, max_eq_right bot_le]
  unfold val_main_call1_v0
  rw [Host.reduce_eq_fold_single (α := EReal) (FloatOps.maximumf (F := Ideal) (φ := .f32)) (val_main_v0 (F := Ideal) X) _
    reducesTo_S8x127x50257_S8x127_d2 red3 h_S_, val_main_call1_cst_apply, Ideal.ofBits_def, ofBits_neg_inf]
  exact congrArg (fun f => Finset.fold max (⊥ : EReal) f (Finset.univ : Finset (Fin 50257))) hf

/-- The shifted logits. -/
theorem sub_at (X : XTy) (b : Fin 8) (r : Fin 127) (k : Fin 50257) :
    val_main_call1_v5 (F := Ideal) X (ix3 b r k)
      = rowOf X b ⟨r.val, by omega⟩ k - Cert.Lse.rowMax (rowOf X b ⟨r.val, by omega⟩) := by
  have e : idx_main_call1_v3 (idx_main_call1_v4 (ix3 b r k)) = ix2 b r := by
    funext a; match a with | ⟨0, _⟩ => rfl | ⟨1, _⟩ => rfl
  rw [val_main_call1_v5_apply, Ideal.subf_def, v0_at, val_main_call1_v4_apply, val_main_call1_v3_apply, e, max_at]

/-- The sum of the shifted exponentials. -/
theorem sum_at (X : XTy) (b : Fin 8) (r : Fin 127) :
    val_main_call1_v7 (F := Ideal) X (ix2 b r) = Cert.Lse.rowSum (rowOf X b ⟨r.val, by omega⟩) := by
  rw [val_main_call1_v7_apply, val_main_call1_cst_1_apply, Ideal.ofBits_def, Ideal.ofBits_zero_f32, zero_add]
  unfold Cert.Lse.rowSum
  refine Finset.sum_congr rfl fun k _ => ?_
  have e : idx_main_call1_v7 (ix2 b r) k = ix3 b r k := by
    funext a; match a with | ⟨0, _⟩ => rfl | ⟨1, _⟩ => rfl | ⟨2, _⟩ => rfl
  rw [e, val_main_call1_v6_apply, Ideal.hostUnary_exp_def, sub_at]

/-- The log-softmax at `(b, r, k)`. -/
theorem logp_at (X : XTy) (b : Fin 8) (r : Fin 127) (k : Fin 50257) :
    val_main_v5 (F := Ideal) X (ix3 b r k) = logpRow X b ⟨r.val, by omega⟩ k := by
  have e : idx_main_call1_v8 (idx_main_call1_v10 (ix3 b r k)) = ix2 b r := by
    funext a; match a with | ⟨0, _⟩ => rfl | ⟨1, _⟩ => rfl
  rw [val_main_v5_apply, Ideal.subf_def, sub_at, val_main_call1_v10_apply, val_main_call1_v9_apply,
    Ideal.hostUnary_log_def, val_main_call1_v8_apply, e, sum_at]
  rfl

/-! ### The targets at an index -/

/-- The shifted targets. -/
theorem v1_at (T : TTy) (b : Fin 8) (r : Fin 127) : val_main_v1 (F := Ideal) T (ix2 b r) = tgtR T b r := by
  rw [val_main_v1_apply]
  show T _ = T _
  exact congrArg T (funext fun a => by
    match a with
    | ⟨0, _⟩ => rfl
    | ⟨1, _⟩ => exact Fin.ext (Nat.add_comm 1 r.val))

/-- The "not ignored" bit. -/
theorem v3_at (T : TTy) (b : Fin 8) (r : Fin 127) :
    val_main_v3 (F := Ideal) T (ix2 b r) = IntOp.cmpi .ne (tgtR T b r) 4294967196#32 := by
  rw [val_main_v3_apply, v1_at, val_main_v2_apply, val_main_c_apply]

/-- The target with the ignored word replaced. -/
theorem v4_at (T : TTy) (b : Fin 8) (r : Fin 127) : val_main_v4 (F := Ideal) T (ix2 b r) = safe (tgtR T b r) := by
  rw [val_main_v4_apply, v3_at, v1_at, val_main_call0_v1_apply, val_main_call0_v0_apply, val_main_c_0_apply]
  exact select_safe _

/-- The start index: the replaced target, a negative one counted from the row's end. -/
theorem w_at (T : TTy) (b : Fin 8) (r : Fin 127) :
    val_main_call2_v5 (F := Ideal) T (ix4 b r (0 : Fin 1) (0 : Fin 1)) = wrapW (safe (tgtR T b r)) := by
  have e5 : idx_main_call2_v5 (ix4 b r (0 : Fin 1) (0 : Fin 1)) = ix3 b r (0 : Fin 1) := by
    funext a
    match a with
    | ⟨0, _⟩ => exact Fin.ext (by show (((b.val * 127 + r.val) * 1 + 0) * 1 + 0) / 127 = b.val; omega)
    | ⟨1, _⟩ => exact Fin.ext (by show (((b.val * 127 + r.val) * 1 + 0) * 1 + 0) / 1 % 127 = r.val; omega)
    | ⟨2, _⟩ => rfl
  have e6 : idx_main_v6 (ix3 b r (0 : Fin 1)) = ix2 b r := by
    funext a; match a with | ⟨0, _⟩ => rfl | ⟨1, _⟩ => rfl
  rw [val_main_call2_v5_apply, e5, val_main_call2_v4_apply, val_main_call2_v1_apply, val_main_call2_v3_apply,
    val_main_v6_apply, e6, v4_at, val_main_call2_v0_apply, val_main_call2_c_apply, val_main_call2_v2_apply,
    val_main_call2_c_0_apply]
  exact select_wrap _

/-- The start indices' last axis reduces away. -/
theorem red4 : S8x127x1x1.Reduces [3] S8x127x1 := by decide

theorem lift4 (b : Fin 8) (r : Fin 127) (k : Fin 1) :
    red4.lift (ix3 b r (0 : Fin 1)) k = ix4 b r (0 : Fin 1) (0 : Fin 1) := by
  funext c; apply Fin.ext; fin_cases c <;> first | rfl | (show k.val = 0; omega)

/-- The range bit. -/
theorem inb_at (T : TTy) (b : Fin 8) (r : Fin 127) :
    val_main_call2_v12 (F := Ideal) T (ix3 b r (0 : Fin 1))
      = BitVec.ofBool (decide (0 ≤ (wrapW (safe (tgtR T b r))).toInt ∧ (wrapW (safe (tgtR T b r))).toInt ≤ 50256)) := by
  unfold val_main_call2_v12
  rw [Host.reduce_eq_fold_single (α := BitVec 1) IntOp.andi (val_main_call2_v11 (F := Ideal) T) _
    reducesTo_S8x127x1x1_S8x127x1_d3 red4 h_S_]
  show Finset.fold IntOp.andi (val_main_call2_c_3 (F := Ideal) (Shape.Idx.first h_S_))
    (fun k : Fin 1 => val_main_call2_v11 (F := Ideal) T (red4.lift (ix3 b r (0 : Fin 1)) k)) (Finset.univ : Finset (Fin 1)) = _
  rw [Finset.univ_unique, Finset.fold_singleton]
  beta_reduce
  rw [lift4, val_main_call2_c_3_apply, val_main_call2_v11_apply, val_main_call2_v7_apply, val_main_call2_v10_apply, w_at,
    val_main_call2_v6_apply, val_main_call2_c_2_apply, val_main_call2_v9_apply, val_main_call2_v8_apply,
    val_main_call2_c_1_apply]
  exact inb_bit _

/-- The gathered entry: the log-probability row at the clamped start index. -/
theorem gath_at (X : XTy) (T : TTy) (b : Fin 8) (r : Fin 127) (w : BitVec 32)
    (hw : val_main_call2_v5 (F := Ideal) T (ix4 b r (0 : Fin 1) (0 : Fin 1)) = w) :
    val_main_call2_v13 (F := Ideal) X T (ix3 b r (0 : Fin 1))
      = logpRow X b ⟨r.val, by omega⟩ (⟨min w.toInt.toNat 50256, by omega⟩ : Fin 50257) := by
  subst hw
  unfold val_main_call2_v13
  rw [gather_at, logp_at]

/-- The taken log-probability. -/
theorem tok_at (X : XTy) (T : TTy) (b : Fin 8) (r : Fin 127) :
    val_main_v7 (F := Ideal) X T (ix3 b r (0 : Fin 1)) = tokR X T b r := by
  rw [val_main_v7_apply, inb_at, gath_at X T b r _ (w_at T b r), val_main_call2_v14_apply, val_main_call2_cst_apply,
    Ideal.ofBits_def, ofBits_nan]
  exact take_eq _ _

theorem v8_at (X : XTy) (T : TTy) (b : Fin 8) (r : Fin 127) :
    val_main_v8 (F := Ideal) X T (ix2 b r) = tokR X T b r := by
  have e8 : idx_main_v8 (ix2 b r) = ix3 b r (0 : Fin 1) := by
    funext a
    match a with
    | ⟨0, _⟩ => exact Fin.ext (by show (b.val * 127 + r.val) / 127 = b.val; omega)
    | ⟨1, _⟩ => exact Fin.ext (by show (b.val * 127 + r.val) / 1 % 127 = r.val; omega)
    | ⟨2, _⟩ => rfl
  rw [val_main_v8_apply, e8, tok_at]

/-- The weighted log-probability. -/
theorem v13_at (X : XTy) (T : TTy) (b : Fin 8) (r : Fin 127) :
    val_main_v13 (F := Ideal) X T (ix2 b r) = tokR X T b r * keepE (tgtR T b r) := by
  rw [val_main_v13_apply, Ideal.mulf_def, v8_at, val_main_v12_apply, v3_at]
  show _ * (((IntOp.cmpi .ne (tgtR T b r) 4294967196#32).toNat : ℝ) : EReal) = _
  rw [uitofp_keep]

/-- The numerator. -/
theorem num_at (X : XTy) (T : TTy) (b : Fin 8) :
    val_main_v14 (F := Ideal) X T (ix1 b) = 0 + ∑ r : Fin 127, tokR X T b r * keepE (tgtR T b r) := by
  rw [val_main_v14_apply, val_main_cst_apply, Ideal.ofBits_def, Ideal.ofBits_zero_f32]
  refine congrArg (0 + ·) (Finset.sum_congr rfl fun k _ => ?_)
  have e : idx_main_v14 (ix1 b) k = ix2 b k := by
    funext a; match a with | ⟨0, _⟩ => rfl | ⟨1, _⟩ => rfl
  rw [e, v13_at]

theorem ij_eq (b : Fin 8) (q : Fin 127) : Predicate.ij b q = ix2 b q := by
  funext a; match a with | ⟨0, _⟩ => rfl | ⟨1, _⟩ => rfl

/-- The denominator: the integer count of kept positions, converted. -/
theorem den_at (T : TTy) (b : Fin 8) : val_main_v11 (F := Ideal) T (ix1 b) = denR T b := by
  have hc : (val_main_v10 (F := Ideal) T (ix1 b)).toNat
      = (Finset.univ.filter fun q : Fin 127 => val_main_v3 (F := Ideal) T (Predicate.ij b q) = 1#1).card := by
    unfold val_main_v10 val_main_v9 val_main_c_1
    exact Predicate.toNat_reduce_count_cols (by norm_num) (val_main_v3 (F := Ideal) T) natLt_1_32
      reducesTo_S8x127_S8_d1 h_S_ (ix1 b)
  have hlt : (val_main_v10 (F := Ideal) T (ix1 b)).toNat < 2 ^ 31 := by
    rw [hc]
    exact lt_of_le_of_lt (Finset.card_le_univ _) (by simp)
  rw [val_main_v11_apply]
  show (((val_main_v10 (F := Ideal) T (ix1 b)).toInt : ℝ) : EReal) = _
  rw [Predicate.toInt_eq_toNat_of_lt hlt, hc]
  unfold denR
  congr 2
  rw [Finset.card_filter]
  push_cast
  refine Finset.sum_congr rfl fun q _ => ?_
  have hq : (val_main_v3 (F := Ideal) T (Predicate.ij b q) = 1#1) ↔ keep (tgtR T b q) = true := by
    rw [ij_eq, v3_at]; exact ne_bit_iff _
  by_cases hk : keep (tgtR T b q) = true
  · rw [if_pos (hq.mpr hk), if_pos hk]
  · rw [if_neg (fun h => hk (hq.mp h)), if_neg hk]

/-- One example's score. -/
theorem score_at (X : XTy) (T : TTy) (b : Fin 8) : val_main_v15 (F := Ideal) X T (ix1 b) = scoreB X T b := by
  rw [val_main_v15_apply, Ideal.hostDivf_def, num_at, den_at]
  rfl

/-- The first score vector the reference forms is `scoreR` of its first two arguments. -/
theorem score_anti (X : XTy) (T : TTy) : val_main_v15 (F := Ideal) X T = scoreR X T := by
  funext j
  obtain ⟨b, rfl⟩ : ∃ b : Fin 8, j = ix1 b := ⟨j 0, eq_ix1 j⟩
  exact score_at X T b

/-- The second score vector is the same function of the last two arguments: its operations are the first's, one for
one. -/
theorem v31_eq_v15 (X : XTy) (T : TTy) : val_main_v31 (F := Ideal) X T = val_main_v15 (F := Ideal) X T := rfl

theorem score_stereo (X : XTy) (T : TTy) : val_main_v31 (F := Ideal) X T = scoreR X T :=
  (v31_eq_v15 X T).trans (score_anti X T)

/-! ### The tail: from the two score vectors to the six results -/

/-- The symmetric divergence of the two score vectors: the mean over the eight examples of
`exp s · (s − a)` plus that of `exp a · (a − s)`. -/
def tailLoss (a s : VTy) : STy :=
  addf (F := Ideal)
    (Host.divf (F := Ideal)
      (Host.reduceAdd (F := Ideal) (mulf (F := Ideal) (Host.exp (F := Ideal) s) (subf (F := Ideal) s a))
        (constant (F := Ideal) S_ .f32 0x00000000#32) reducesTo_S8_S_d0 h_S_)
      (constant (F := Ideal) S_ .f32 0x41000000#32))
    (Host.divf (F := Ideal)
      (Host.reduceAdd (F := Ideal) (mulf (F := Ideal) (Host.exp (F := Ideal) a) (subf (F := Ideal) a s))
        (constant (F := Ideal) S_ .f32 0x00000000#32) reducesTo_S8_S_d0 h_S_)
      (constant (F := Ideal) S_ .f32 0x41000000#32))

/-- The mean of a score vector over the eight examples. -/
def tailMean (a : VTy) : STy :=
  Host.divf (F := Ideal)
    (Host.reduceAdd (F := Ideal) a (constant (F := Ideal) S_ .f32 0x00000000#32) reducesTo_S8_S_d0 h_S_)
    (constant (F := Ideal) S_ .f32 0x41000000#32)

/-- The fraction of the eight examples whose second score exceeds the first. -/
def tailFrac (a s : VTy) : STy :=
  Host.divf (F := Ideal)
    (Host.reduceAdd (F := Ideal) (uitofp (F := Ideal) .f32 (cmpf (F := Ideal) (φ := .f32) .ogt s a))
      (constant (F := Ideal) S_ .f32 0x00000000#32) reducesTo_S8_S_d0 h_S_)
    (constant (F := Ideal) S_ .f32 0x41000000#32)

/-- The six results, in the order the program returns them, from the two score vectors. -/
def tailR (a s : VTy) : STy × VTy × VTy × STy × STy × STy :=
  (tailLoss a s, a, s, tailMean a, tailMean s, tailFrac a s)

theorem tail_v42 (x0 : XTy) (x1 : TTy) (x2 : XTy) (x3 : TTy) :
    val_main_v42 (F := Ideal) x0 x1 x2 x3
      = tailLoss (val_main_v15 (F := Ideal) x0 x1) (val_main_v31 (F := Ideal) x2 x3) := rfl

theorem tail_v48 (x0 : XTy) (x1 : TTy) :
    val_main_v48 (F := Ideal) x0 x1 = tailMean (val_main_v15 (F := Ideal) x0 x1) := rfl

theorem tail_v50 (x2 : XTy) (x3 : TTy) :
    val_main_v50 (F := Ideal) x2 x3 = tailMean (val_main_v31 (F := Ideal) x2 x3) := rfl

theorem tail_v46 (x0 : XTy) (x1 : TTy) (x2 : XTy) (x3 : TTy) :
    val_main_v46 (F := Ideal) x0 x1 x2 x3
      = tailFrac (val_main_v15 (F := Ideal) x0 x1) (val_main_v31 (F := Ideal) x2 x3) := rfl

/-! ### The run -/

/-- Every weakly fair execution of the reference ends with its six result buffers at `tailR` of the two score
vectors of its arguments, and the arguments unchanged. -/
theorem run_results (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v42)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).1
      ∧ r.2.mem ((c.tc : Thread nD τ).loc main_v15)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).2.1
      ∧ r.2.mem ((c.tc : Thread nD τ).loc main_v31)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).2.2.1
      ∧ r.2.mem ((c.tc : Thread nD τ).loc main_v48)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).2.2.2.1
      ∧ r.2.mem ((c.tc : Thread nD τ).loc main_v50)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).2.2.2.2.1
      ∧ r.2.mem ((c.tc : Thread nD τ).loc main_v46)
        = (tailR (scoreR (m' ((c.tc : Thread nD τ).loc main_arg0)) (m' ((c.tc : Thread nD τ).loc main_arg1)))
            (scoreR (m' ((c.tc : Thread nD τ).loc main_arg2)) (m' ((c.tc : Thread nD τ).loc main_arg3)))).2.2.2.2.2
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run (defs (F := Ideal)) _ _).mono (fun _ h c =>
    ⟨(h c main_v42).trans ((stage_v42 m' c).trans
        ((tail_v42 _ _ _ _).trans (congrArg₂ tailLoss (score_anti _ _) (score_stereo _ _)))),
      (h c main_v15).trans ((stage_v15 m' c).trans (score_anti _ _)),
      (h c main_v31).trans ((stage_v31 m' c).trans (score_stereo _ _)),
      (h c main_v48).trans ((stage_v48 m' c).trans ((tail_v48 _ _).trans (congrArg tailMean (score_anti _ _)))),
      (h c main_v50).trans ((stage_v50 m' c).trans ((tail_v50 _ _).trans (congrArg tailMean (score_stereo _ _)))),
      (h c main_v46).trans ((stage_v46 m' c).trans
        ((tail_v46 _ _ _ _).trans (congrArg₂ tailFrac (score_anti _ _) (score_stereo _ _)))),
      (h c main_arg0).trans (stage_arg0 m' c), (h c main_arg1).trans (stage_arg1 m' c),
      (h c main_arg2).trans (stage_arg2 m' c), (h c main_arg3).trans (stage_arg3 m' c)⟩)
    (Cert.ReferenceIdeal.ValueP.run (F := Ideal) m' ρ')

/-- The reference runs and leaves its four arguments unchanged. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
    ⟨(h c main_arg0).trans (stage_arg0 m c), (h c main_arg1).trans (stage_arg1 m c),
      (h c main_arg2).trans (stage_arg2 m c), (h c main_arg3).trans (stage_arg3 m c)⟩)
    (Cert.ReferenceIdeal.ValueP.run (F := Ideal) m ρ)

end Cert.ReferenceIdeal.Hand

end
-- ==== Proof.KernelIdealPieces.lean ====
import proofs.«403453_j14791867368156_3_alg».proof.Proof.KernelIdealRunC
import Idealize.ShloMosaic.Lib.Pipeline.Value

/-!
# What each buffer reads back as after a run of the body

For each of the three cases (first, middle, last tile) and each running buffer — and, at the last tile, each result
buffer — the pieces the run's stores leave cover the buffer, and read back over junk they are a named payload of the
values the run was handed: every store is of the whole buffer, so the last one decides the contents, and a load that
follows a store of the same run reads that store's payload.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a rank-2 whole-buffer rectangle, as the constant function. -/
theorem offZero2 : (![0, 0] : Fin 2 → Nat) = fun _ => 0 := funext fun a => by fin_cases a <;> rfl
/-- The zero offsets of a rank-3 whole-buffer rectangle, as the constant function. -/
theorem offZero3 : (![0, 0, 0] : Fin 3 → Nat) = fun _ => 0 := funext fun a => by fin_cases a <;> rfl

/-! ## The first tile -/

/-- At the first tile the pieces written into the first running maximum buffer cover it: two whole-buffer stores, the reset then the update. -/
theorem scoverA_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) (y : S128x1.Idx) :
    ∃ pc ∈ (kernelRun0_A c i arg2 harg2 arg3 harg3 arg4 harg4 arg5 harg5 arg6 harg6 arg7 harg7 arg8 harg8 arg9 harg9 hc0 hc1 hc2 x0 x1).1, y ∈ pc.1.set :=
  View.cover_of_tiledL (kernelRun0_A c i arg2 harg2 arg3 harg3 arg4 harg4 arg5 harg5 arg6 harg6 arg7 harg7 arg8 harg8 arg9 harg9 hc0 hc1 hc2 x0 x1).1 S128x1.size (by sl_kernel_rfl) y

/-- What the first tile leaves in the first running maximum buffer: its pieces read back over junk. -/
def soutA_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) : Vec F S128x1 .f32 :=
  arg6.view.read (Elt F) (arg6.view.writes (Elt F) arg6.view.junk (kernelRun0_A c i arg2 harg2 arg3 harg3 arg4 harg4 arg5 harg5 arg6 harg6 arg7 harg7 arg8 harg8 arg9 harg9 hc0 hc1 hc2 x0 x1).1)

/-- At the first tile the first running maximum buffer ends as the plain update's payload over the reset values (the update's loads read the reset's stores back): the first logit block's row maxima folded into the reset maximum. -/
theorem soutA_0_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    soutA_0 c i arg2 harg2 arg3 harg3 arg4 harg4 arg5 harg5 arg6 harg6 arg7 harg7 arg8 harg8 arg9 harg9 hc0 hc1 hc2 x0 x1 = k0_pay12 x0 k0_pay1 := by
  unfold soutA_0
  rw [View.read_writes_eq_canon _ _ _ (scoverA_0 c i arg2 harg2 arg3 harg3 arg4 harg4 arg5 harg5 arg6 harg6 arg7 harg7 arg8 harg8 arg9 harg9 hc0 hc1 hc2 x0 x1)]
  unfold kernelRun0_A; dsimp only; sl_unfold_words
  rw [View.canon_cons_unit_zero (S := S128x1) offZero2]
  simp only [View.readAt_eq_ld, harg2.read_unread, View.ld_unit_zero (S := S128x1) offZero2, View.ld_unit_zero (S := S1x128x8448) offZero3, View.readCov_unit_zero (S := S128x1) _ offZero2]

/-- At the first tile the pieces written into the first running sum buffer cover it: two whole-buffer stores, the reset then the update. -/
theorem scoverA_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) (y : S128x1.Idx) :
    ∃ pc ∈ (kernelRun0_A c i arg2 harg2 arg3 harg3 arg4 harg4 arg5 harg5 arg6 harg6 arg7 harg7 arg8 harg8 arg9 harg9 hc0 hc1 hc2 x0 x1).2.1, y ∈ pc.1.set :=
  View.cover_of_tiledL (kernelRun0_A c i arg2 harg2 arg3 harg3 arg4 harg4 arg5 harg5 arg6 harg6 arg7 harg7 arg8 harg8 arg9 harg9 hc0 hc1 hc2 x0 x1).2.1 S128x1.size (by sl_kernel_rfl) y

/-- What the first tile leaves in the first running sum buffer: its pieces read back over junk. -/
def soutA_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) : Vec F S128x1 .f32 :=
  arg7.view.read (Elt F) (arg7.view.writes (Elt F) arg7.view.junk (kernelRun0_A c i arg2 harg2 arg3 harg3 arg4 harg4 arg5 harg5 arg6 harg6 arg7 harg7 arg8 harg8 arg9 harg9 hc0 hc1 hc2 x0 x1).2.1)

/-- At the first tile the first running sum buffer ends as the plain update's payload over the reset values (the update's loads read the reset's stores back): the reset sum rescaled plus the first block's shifted exponentials. -/
theorem soutA_1_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    soutA_1 c i arg2 harg2 arg3 harg3 arg4 harg4 arg5 harg5 arg6 harg6 arg7 harg7 arg8 harg8 arg9 harg9 hc0 hc1 hc2 x0 x1 = k0_pay11 x0 k0_pay1 k0_pay1 k0_pay2 := by
  unfold soutA_1
  rw [View.read_writes_eq_canon _ _ _ (scoverA_1 c i arg2 harg2 arg3 harg3 arg4 harg4 arg5 harg5 arg6 harg6 arg7 harg7 arg8 harg8 arg9 harg9 hc0 hc1 hc2 x0 x1)]
  unfold kernelRun0_A; dsimp only; sl_unfold_words
  rw [View.canon_cons_unit_zero (S := S128x1) offZero2]
  simp only [View.readAt_eq_ld, harg2.read_unread, View.ld_unit_zero (S := S128x1) offZero2, View.ld_unit_zero (S := S1x128x8448) offZero3, View.readCov_unit_zero (S := S128x1) _ offZero2]

/-- At the first tile the pieces written into the second running maximum buffer cover it: two whole-buffer stores, the reset then the update. -/
theorem scoverA_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) (y : S128x1.Idx) :
    ∃ pc ∈ (kernelRun0_A c i arg2 harg2 arg3 harg3 arg4 harg4 arg5 harg5 arg6 harg6 arg7 harg7 arg8 harg8 arg9 harg9 hc0 hc1 hc2 x0 x1).2.2.1, y ∈ pc.1.set :=
  View.cover_of_tiledL (kernelRun0_A c i arg2 harg2 arg3 harg3 arg4 harg4 arg5 harg5 arg6 harg6 arg7 harg7 arg8 harg8 arg9 harg9 hc0 hc1 hc2 x0 x1).2.2.1 S128x1.size (by sl_kernel_rfl) y

/-- What the first tile leaves in the second running maximum buffer: its pieces read back over junk. -/
def soutA_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) : Vec F S128x1 .f32 :=
  arg8.view.read (Elt F) (arg8.view.writes (Elt F) arg8.view.junk (kernelRun0_A c i arg2 harg2 arg3 harg3 arg4 harg4 arg5 harg5 arg6 harg6 arg7 harg7 arg8 harg8 arg9 harg9 hc0 hc1 hc2 x0 x1).2.2.1)

/-- At the first tile the second running maximum buffer ends as the plain update's payload over the reset values (the update's loads read the reset's stores back): the second logit block's row maxima folded into the reset maximum. -/
theorem soutA_2_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    soutA_2 c i arg2 harg2 arg3 harg3 arg4 harg4 arg5 harg5 arg6 harg6 arg7 harg7 arg8 harg8 arg9 harg9 hc0 hc1 hc2 x0 x1 = k0_pay20 x1 k0_pay3 := by
  unfold soutA_2
  rw [View.read_writes_eq_canon _ _ _ (scoverA_2 c i arg2 harg2 arg3 harg3 arg4 harg4 arg5 harg5 arg6 harg6 arg7 harg7 arg8 harg8 arg9 harg9 hc0 hc1 hc2 x0 x1)]
  unfold kernelRun0_A; dsimp only; sl_unfold_words
  rw [View.canon_cons_unit_zero (S := S128x1) offZero2]
  simp only [View.readAt_eq_ld, harg3.read_unread, View.ld_unit_zero (S := S128x1) offZero2, View.ld_unit_zero (S := S1x128x8448) offZero3, View.readCov_unit_zero (S := S128x1) _ offZero2]

/-- At the first tile the pieces written into the second running sum buffer cover it: two whole-buffer stores, the reset then the update. -/
theorem scoverA_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) (y : S128x1.Idx) :
    ∃ pc ∈ (kernelRun0_A c i arg2 harg2 arg3 harg3 arg4 harg4 arg5 harg5 arg6 harg6 arg7 harg7 arg8 harg8 arg9 harg9 hc0 hc1 hc2 x0 x1).2.2.2.1, y ∈ pc.1.set :=
  View.cover_of_tiledL (kernelRun0_A c i arg2 harg2 arg3 harg3 arg4 harg4 arg5 harg5 arg6 harg6 arg7 harg7 arg8 harg8 arg9 harg9 hc0 hc1 hc2 x0 x1).2.2.2.1 S128x1.size (by sl_kernel_rfl) y

/-- What the first tile leaves in the second running sum buffer: its pieces read back over junk. -/
def soutA_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) : Vec F S128x1 .f32 :=
  arg9.view.read (Elt F) (arg9.view.writes (Elt F) arg9.view.junk (kernelRun0_A c i arg2 harg2 arg3 harg3 arg4 harg4 arg5 harg5 arg6 harg6 arg7 harg7 arg8 harg8 arg9 harg9 hc0 hc1 hc2 x0 x1).2.2.2.1)

/-- At the first tile the second running sum buffer ends as the plain update's payload over the reset values (the update's loads read the reset's stores back): the reset sum rescaled plus the second block's shifted exponentials. -/
theorem soutA_3_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : cFirst i) (hc1 : ¬cLast i) (hc2 : cRest i)
    (x0 x1 : Vec F S1x128x8448 .f32) :
    soutA_3 c i arg2 harg2 arg3 harg3 arg4 harg4 arg5 harg5 arg6 harg6 arg7 harg7 arg8 harg8 arg9 harg9 hc0 hc1 hc2 x0 x1 = k0_pay19 x1 k0_pay3 k0_pay3 k0_pay4 := by
  unfold soutA_3
  rw [View.read_writes_eq_canon _ _ _ (scoverA_3 c i arg2 harg2 arg3 harg3 arg4 harg4 arg5 harg5 arg6 harg6 arg7 harg7 arg8 harg8 arg9 harg9 hc0 hc1 hc2 x0 x1)]
  unfold kernelRun0_A; dsimp only; sl_unfold_words
  rw [View.canon_cons_unit_zero (S := S128x1) offZero2]
  simp only [View.readAt_eq_ld, harg3.read_unread, View.ld_unit_zero (S := S128x1) offZero2, View.ld_unit_zero (S := S1x128x8448) offZero3, View.readCov_unit_zero (S := S128x1) _ offZero2]

/-! ## A middle tile -/

/-- At a middle tile the pieces written into the first running maximum buffer cover it: one whole-buffer store. -/
theorem scoverB_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) (y : S128x1.Idx) :
    ∃ pc ∈ (kernelRun0_B c i arg2 harg2 arg3 harg3 arg4 harg4 arg5 harg5 arg6 harg6 arg7 harg7 arg8 harg8 arg9 harg9 hc0 hc1 hc2 x0 x1 xs0 xs1 xs2 xs3).1, y ∈ pc.1.set :=
  View.cover_of_tiledL (kernelRun0_B c i arg2 harg2 arg3 harg3 arg4 harg4 arg5 harg5 arg6 harg6 arg7 harg7 arg8 harg8 arg9 harg9 hc0 hc1 hc2 x0 x1 xs0 xs1 xs2 xs3).1 S128x1.size (by sl_kernel_rfl) y

/-- What a middle tile leaves in the first running maximum buffer: its pieces read back over junk. -/
def soutB_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) : Vec F S128x1 .f32 :=
  arg6.view.read (Elt F) (arg6.view.writes (Elt F) arg6.view.junk (kernelRun0_B c i arg2 harg2 arg3 harg3 arg4 harg4 arg5 harg5 arg6 harg6 arg7 harg7 arg8 harg8 arg9 harg9 hc0 hc1 hc2 x0 x1 xs0 xs1 xs2 xs3).1)

/-- At a middle tile the first running maximum buffer ends as the plain update's payload: the first logit block's row maxima folded into the running maximum. -/
theorem soutB_0_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    soutB_0 c i arg2 harg2 arg3 harg3 arg4 harg4 arg5 harg5 arg6 harg6 arg7 harg7 arg8 harg8 arg9 harg9 hc0 hc1 hc2 x0 x1 xs0 xs1 xs2 xs3 = k0_pay12 x0 xs0 := by
  unfold soutB_0
  rw [View.read_writes_eq_canon _ _ _ (scoverB_0 c i arg2 harg2 arg3 harg3 arg4 harg4 arg5 harg5 arg6 harg6 arg7 harg7 arg8 harg8 arg9 harg9 hc0 hc1 hc2 x0 x1 xs0 xs1 xs2 xs3)]
  unfold kernelRun0_B; dsimp only; sl_unfold_words
  rw [View.canon_unit_zero (S := S128x1) offZero2]
  simp only [View.readAt_eq_ld, harg2.read_unread, harg6.read_unread, View.ld_unit_zero (S := S128x1) offZero2, View.ld_unit_zero (S := S1x128x8448) offZero3]

/-- At a middle tile the pieces written into the first running sum buffer cover it: one whole-buffer store. -/
theorem scoverB_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) (y : S128x1.Idx) :
    ∃ pc ∈ (kernelRun0_B c i arg2 harg2 arg3 harg3 arg4 harg4 arg5 harg5 arg6 harg6 arg7 harg7 arg8 harg8 arg9 harg9 hc0 hc1 hc2 x0 x1 xs0 xs1 xs2 xs3).2.1, y ∈ pc.1.set :=
  View.cover_of_tiledL (kernelRun0_B c i arg2 harg2 arg3 harg3 arg4 harg4 arg5 harg5 arg6 harg6 arg7 harg7 arg8 harg8 arg9 harg9 hc0 hc1 hc2 x0 x1 xs0 xs1 xs2 xs3).2.1 S128x1.size (by sl_kernel_rfl) y

/-- What a middle tile leaves in the first running sum buffer: its pieces read back over junk. -/
def soutB_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) : Vec F S128x1 .f32 :=
  arg7.view.read (Elt F) (arg7.view.writes (Elt F) arg7.view.junk (kernelRun0_B c i arg2 harg2 arg3 harg3 arg4 harg4 arg5 harg5 arg6 harg6 arg7 harg7 arg8 harg8 arg9 harg9 hc0 hc1 hc2 x0 x1 xs0 xs1 xs2 xs3).2.1)

/-- At a middle tile the first running sum buffer ends as the plain update's payload: the running sum rescaled to the new maximum plus the first block's shifted exponentials. -/
theorem soutB_1_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    soutB_1 c i arg2 harg2 arg3 harg3 arg4 harg4 arg5 harg5 arg6 harg6 arg7 harg7 arg8 harg8 arg9 harg9 hc0 hc1 hc2 x0 x1 xs0 xs1 xs2 xs3 = k0_pay11 x0 xs0 xs0 xs1 := by
  unfold soutB_1
  rw [View.read_writes_eq_canon _ _ _ (scoverB_1 c i arg2 harg2 arg3 harg3 arg4 harg4 arg5 harg5 arg6 harg6 arg7 harg7 arg8 harg8 arg9 harg9 hc0 hc1 hc2 x0 x1 xs0 xs1 xs2 xs3)]
  unfold kernelRun0_B; dsimp only; sl_unfold_words
  rw [View.canon_unit_zero (S := S128x1) offZero2]
  simp only [View.readAt_eq_ld, harg2.read_unread, harg6.read_unread, harg7.read_unread, View.ld_unit_zero (S := S128x1) offZero2, View.ld_unit_zero (S := S1x128x8448) offZero3]

/-- At a middle tile the pieces written into the second running maximum buffer cover it: one whole-buffer store. -/
theorem scoverB_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) (y : S128x1.Idx) :
    ∃ pc ∈ (kernelRun0_B c i arg2 harg2 arg3 harg3 arg4 harg4 arg5 harg5 arg6 harg6 arg7 harg7 arg8 harg8 arg9 harg9 hc0 hc1 hc2 x0 x1 xs0 xs1 xs2 xs3).2.2.1, y ∈ pc.1.set :=
  View.cover_of_tiledL (kernelRun0_B c i arg2 harg2 arg3 harg3 arg4 harg4 arg5 harg5 arg6 harg6 arg7 harg7 arg8 harg8 arg9 harg9 hc0 hc1 hc2 x0 x1 xs0 xs1 xs2 xs3).2.2.1 S128x1.size (by sl_kernel_rfl) y

/-- What a middle tile leaves in the second running maximum buffer: its pieces read back over junk. -/
def soutB_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) : Vec F S128x1 .f32 :=
  arg8.view.read (Elt F) (arg8.view.writes (Elt F) arg8.view.junk (kernelRun0_B c i arg2 harg2 arg3 harg3 arg4 harg4 arg5 harg5 arg6 harg6 arg7 harg7 arg8 harg8 arg9 harg9 hc0 hc1 hc2 x0 x1 xs0 xs1 xs2 xs3).2.2.1)

/-- At a middle tile the second running maximum buffer ends as the plain update's payload: the second logit block's row maxima folded into the running maximum. -/
theorem soutB_2_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    soutB_2 c i arg2 harg2 arg3 harg3 arg4 harg4 arg5 harg5 arg6 harg6 arg7 harg7 arg8 harg8 arg9 harg9 hc0 hc1 hc2 x0 x1 xs0 xs1 xs2 xs3 = k0_pay20 x1 xs2 := by
  unfold soutB_2
  rw [View.read_writes_eq_canon _ _ _ (scoverB_2 c i arg2 harg2 arg3 harg3 arg4 harg4 arg5 harg5 arg6 harg6 arg7 harg7 arg8 harg8 arg9 harg9 hc0 hc1 hc2 x0 x1 xs0 xs1 xs2 xs3)]
  unfold kernelRun0_B; dsimp only; sl_unfold_words
  rw [View.canon_unit_zero (S := S128x1) offZero2]
  simp only [View.readAt_eq_ld, harg3.read_unread, harg8.read_unread, View.ld_unit_zero (S := S128x1) offZero2, View.ld_unit_zero (S := S1x128x8448) offZero3]

/-- At a middle tile the pieces written into the second running sum buffer cover it: one whole-buffer store. -/
theorem scoverB_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) (y : S128x1.Idx) :
    ∃ pc ∈ (kernelRun0_B c i arg2 harg2 arg3 harg3 arg4 harg4 arg5 harg5 arg6 harg6 arg7 harg7 arg8 harg8 arg9 harg9 hc0 hc1 hc2 x0 x1 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 hc0 hc1 hc2 x0 x1 xs0 xs1 xs2 xs3).2.2.2.1 S128x1.size (by sl_kernel_rfl) y

/-- What a middle tile leaves in the second running sum buffer: its pieces read back over junk. -/
def soutB_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) : Vec F S128x1 .f32 :=
  arg9.view.read (Elt F) (arg9.view.writes (Elt F) arg9.view.junk (kernelRun0_B c i arg2 harg2 arg3 harg3 arg4 harg4 arg5 harg5 arg6 harg6 arg7 harg7 arg8 harg8 arg9 harg9 hc0 hc1 hc2 x0 x1 xs0 xs1 xs2 xs3).2.2.2.1)

/-- At a middle tile the second running sum buffer ends as the plain update's payload: the running sum rescaled to the new maximum plus the second block's shifted exponentials. -/
theorem soutB_3_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : ¬cLast i) (hc2 : cRest i)
    (x0 x1 : Vec F S1x128x8448 .f32) (xs0 xs1 xs2 xs3 : Vec F S128x1 .f32) :
    soutB_3 c i arg2 harg2 arg3 harg3 arg4 harg4 arg5 harg5 arg6 harg6 arg7 harg7 arg8 harg8 arg9 harg9 hc0 hc1 hc2 x0 x1 xs0 xs1 xs2 xs3 = k0_pay19 x1 xs2 xs2 xs3 := by
  unfold soutB_3
  rw [View.read_writes_eq_canon _ _ _ (scoverB_3 c i arg2 harg2 arg3 harg3 arg4 harg4 arg5 harg5 arg6 harg6 arg7 harg7 arg8 harg8 arg9 harg9 hc0 hc1 hc2 x0 x1 xs0 xs1 xs2 xs3)]
  unfold kernelRun0_B; dsimp only; sl_unfold_words
  rw [View.canon_unit_zero (S := S128x1) offZero2]
  simp only [View.readAt_eq_ld, harg3.read_unread, harg8.read_unread, harg9.read_unread, View.ld_unit_zero (S := S128x1) offZero2, View.ld_unit_zero (S := S1x128x8448) offZero3]

/-! ## The last tile -/

/-- At the last tile the pieces written into the first running maximum buffer cover it: one whole-buffer store. -/
theorem scoverC_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).2.2.1 S128x1.size (by sl_kernel_rfl) y

/-- What the last tile leaves in the first running maximum buffer: its pieces read back over junk. -/
def soutC_0 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S128x1 .f32 :=
  arg6.view.read (Elt F) (arg6.view.writes (Elt F) arg6.view.junk (kernelRun0_C c i arg2 harg2 arg3 harg3 arg4 harg4 arg5 harg5 arg6 harg6 arg7 harg7 arg8 harg8 arg9 harg9 hc0 hc1 hc2 x0 x1 xs0 xs1 xs2 xs3).2.2.1)

/-- At the last tile the first running maximum buffer ends as the masked update's payload: the first logit block, masked past the row's end, folded into the running maximum. -/
theorem soutC_0_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    soutC_0 c i arg2 harg2 arg3 harg3 arg4 harg4 arg5 harg5 arg6 harg6 arg7 harg7 arg8 harg8 arg9 harg9 hc0 hc1 hc2 x0 x1 xs0 xs1 xs2 xs3 = k0_pay9 i x0 xs0 := by
  unfold soutC_0
  rw [View.read_writes_eq_canon _ _ _ (scoverC_0 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S128x1) offZero2]
  simp only [View.readAt_eq_ld, harg2.read_unread, harg6.read_unread, View.ld_unit_zero (S := S128x1) offZero2, View.ld_unit_zero (S := S1x128x8448) offZero3]

/-- At the last tile the pieces written into the first running sum buffer cover it: one whole-buffer store. -/
theorem scoverC_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).2.2.2.1 S128x1.size (by sl_kernel_rfl) y

/-- What the last tile leaves in the first running sum buffer: its pieces read back over junk. -/
def soutC_1 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S128x1 .f32 :=
  arg7.view.read (Elt F) (arg7.view.writes (Elt F) arg7.view.junk (kernelRun0_C c i arg2 harg2 arg3 harg3 arg4 harg4 arg5 harg5 arg6 harg6 arg7 harg7 arg8 harg8 arg9 harg9 hc0 hc1 hc2 x0 x1 xs0 xs1 xs2 xs3).2.2.2.1)

/-- At the last tile the first running sum buffer ends as the masked update's payload: the running sum rescaled to the new maximum plus the masked first block's shifted exponentials. -/
theorem soutC_1_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    soutC_1 c i arg2 harg2 arg3 harg3 arg4 harg4 arg5 harg5 arg6 harg6 arg7 harg7 arg8 harg8 arg9 harg9 hc0 hc1 hc2 x0 x1 xs0 xs1 xs2 xs3 = k0_pay8 i x0 xs0 xs0 xs1 := by
  unfold soutC_1
  rw [View.read_writes_eq_canon _ _ _ (scoverC_1 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S128x1) offZero2]
  simp only [View.readAt_eq_ld, harg2.read_unread, harg6.read_unread, harg7.read_unread, View.ld_unit_zero (S := S128x1) offZero2, View.ld_unit_zero (S := S1x128x8448) offZero3]

/-- At the last tile the pieces written into the second running maximum buffer cover it: one whole-buffer store. -/
theorem scoverC_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).2.2.2.2.1 S128x1.size (by sl_kernel_rfl) y

/-- What the last tile leaves in the second running maximum buffer: its pieces read back over junk. -/
def soutC_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S128x1 .f32 :=
  arg8.view.read (Elt F) (arg8.view.writes (Elt F) arg8.view.junk (kernelRun0_C c i arg2 harg2 arg3 harg3 arg4 harg4 arg5 harg5 arg6 harg6 arg7 harg7 arg8 harg8 arg9 harg9 hc0 hc1 hc2 x0 x1 xs0 xs1 xs2 xs3).2.2.2.2.1)

/-- At the last tile the second running maximum buffer ends as the masked update's payload: the second logit block, masked past the row's end, folded into the running maximum. -/
theorem soutC_2_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    soutC_2 c i arg2 harg2 arg3 harg3 arg4 harg4 arg5 harg5 arg6 harg6 arg7 harg7 arg8 harg8 arg9 harg9 hc0 hc1 hc2 x0 x1 xs0 xs1 xs2 xs3 = k0_pay17 i x1 xs2 := by
  unfold soutC_2
  rw [View.read_writes_eq_canon _ _ _ (scoverC_2 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S128x1) offZero2]
  simp only [View.readAt_eq_ld, harg3.read_unread, harg8.read_unread, View.ld_unit_zero (S := S128x1) offZero2, View.ld_unit_zero (S := S1x128x8448) offZero3]

/-- At the last tile the pieces written into the second running sum buffer cover it: one whole-buffer store. -/
theorem scoverC_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).2.2.2.2.2.1 S128x1.size (by sl_kernel_rfl) y

/-- What the last tile leaves in the second running sum buffer: its pieces read back over junk. -/
def soutC_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S128x1 .f32 :=
  arg9.view.read (Elt F) (arg9.view.writes (Elt F) arg9.view.junk (kernelRun0_C c i arg2 harg2 arg3 harg3 arg4 harg4 arg5 harg5 arg6 harg6 arg7 harg7 arg8 harg8 arg9 harg9 hc0 hc1 hc2 x0 x1 xs0 xs1 xs2 xs3).2.2.2.2.2.1)

/-- At the last tile the second running sum buffer ends as the masked update's payload: the running sum rescaled to the new maximum plus the masked second block's shifted exponentials. -/
theorem soutC_3_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    soutC_3 c i arg2 harg2 arg3 harg3 arg4 harg4 arg5 harg5 arg6 harg6 arg7 harg7 arg8 harg8 arg9 harg9 hc0 hc1 hc2 x0 x1 xs0 xs1 xs2 xs3 = k0_pay16 i x1 xs2 xs2 xs3 := by
  unfold soutC_3
  rw [View.read_writes_eq_canon _ _ _ (scoverC_3 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S128x1) offZero2]
  simp only [View.readAt_eq_ld, harg3.read_unread, harg8.read_unread, harg9.read_unread, View.ld_unit_zero (S := S128x1) offZero2, View.ld_unit_zero (S := S1x128x8448) offZero3]

/-- At the last tile the pieces written into the first result buffer cover it: one whole-buffer store. -/
theorem coverC_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S1x128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).1 S1x128x1.size (by sl_kernel_rfl) y

/-- What the last tile leaves in the first result buffer: its pieces read back over junk. -/
def outC_2 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S1x128x1 .f32 :=
  arg4.view.read (Elt F) (arg4.view.writes (Elt F) arg4.view.junk (kernelRun0_C c i arg2 harg2 arg3 harg3 arg4 harg4 arg5 harg5 arg6 harg6 arg7 harg7 arg8 harg8 arg9 harg9 hc0 hc1 hc2 x0 x1 xs0 xs1 xs2 xs3).1)

/-- At the last tile the first result buffer ends as maximum + log(sum) of the running buffers the masked update has just stored: the final loads read those stores back. -/
theorem outC_2_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    outC_2 c i arg2 harg2 arg3 harg3 arg4 harg4 arg5 harg5 arg6 harg6 arg7 harg7 arg8 harg8 arg9 harg9 hc0 hc1 hc2 x0 x1 xs0 xs1 xs2 xs3 = k0_pay21 (k0_pay9 i x0 xs0) (k0_pay8 i x0 xs0 xs0 xs1) := by
  unfold outC_2
  rw [View.read_writes_eq_canon _ _ _ (coverC_2 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S1x128x1) offZero3]
  simp only [View.readAt_eq_ld, harg2.read_unread, harg6.read_unread, harg7.read_unread, View.ld_unit_zero (S := S128x1) offZero2, View.ld_unit_zero (S := S1x128x8448) offZero3, View.readCov_unit_zero (S := S128x1) _ offZero2]

/-- At the last tile the pieces written into the second result buffer cover it: one whole-buffer store. -/
theorem coverC_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) (y : S1x128x1.Idx) :
    ∃ pc ∈ (kernelRun0_C c i arg2 harg2 arg3 harg3 arg4 harg4 arg5 harg5 arg6 harg6 arg7 harg7 arg8 harg8 arg9 harg9 hc0 hc1 hc2 x0 x1 xs0 xs1 xs2 xs3).2.1, y ∈ pc.1.set :=
  View.cover_of_tiledL (kernelRun0_C c i arg2 harg2 arg3 harg3 arg4 harg4 arg5 harg5 arg6 harg6 arg7 harg7 arg8 harg8 arg9 harg9 hc0 hc1 hc2 x0 x1 xs0 xs1 xs2 xs3).2.1 S1x128x1.size (by sl_kernel_rfl) y

/-- What the last tile leaves in the second result buffer: its pieces read back over junk. -/
def outC_3 (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) : Vec F S1x128x1 .f32 :=
  arg5.view.read (Elt F) (arg5.view.writes (Elt F) arg5.view.junk (kernelRun0_C c i arg2 harg2 arg3 harg3 arg4 harg4 arg5 harg5 arg6 harg6 arg7 harg7 arg8 harg8 arg9 harg9 hc0 hc1 hc2 x0 x1 xs0 xs1 xs2 xs3).2.1)

/-- At the last tile the second result buffer ends as maximum + log(sum) of the running buffers the masked update has just stored: the final loads read those stores back. -/
theorem outC_3_eq (c : Dev nD) (i : grid0.Coords)
    (arg2 : Memref sig .tc .vmem S1x128x8448 .f32) (harg2 : arg2.IsWhole) (arg3 : Memref sig .tc .vmem S1x128x8448 .f32) (harg3 : arg3.IsWhole)
    (arg4 : Memref sig .tc .vmem S1x128x1 .f32) (harg4 : arg4.IsWhole) (arg5 : Memref sig .tc .vmem S1x128x1 .f32) (harg5 : arg5.IsWhole)
    (arg6 : Memref sig .tc .vmem S128x1 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x1 .f32) (harg9 : arg9.IsWhole)
    (hc0 : ¬cFirst i) (hc1 : cLast i) (hc2 : ¬cRest i)
    (x0 x1 : Vec F S1x128x8448 .f32) (xs0 xs1 xs2 xs3 : Vec F S128x1 .f32) :
    outC_3 c i arg2 harg2 arg3 harg3 arg4 harg4 arg5 harg5 arg6 harg6 arg7 harg7 arg8 harg8 arg9 harg9 hc0 hc1 hc2 x0 x1 xs0 xs1 xs2 xs3 = k0_pay22 (k0_pay17 i x1 xs2) (k0_pay16 i x1 xs2 xs2 xs3) := by
  unfold outC_3
  rw [View.read_writes_eq_canon _ _ _ (coverC_3 c i arg2 harg2 arg3 harg3 arg4 harg4 arg5 harg5 arg6 harg6 arg7 harg7 arg8 harg8 arg9 harg9 hc0 hc1 hc2 x0 x1 xs0 xs1 xs2 xs3)]
  unfold kernelRun0_C; dsimp only; sl_unfold_words
  rw [View.canon_unit_zero (S := S1x128x1) offZero3]
  simp only [View.readAt_eq_ld, harg3.read_unread, harg8.read_unread, harg9.read_unread, View.ld_unit_zero (S := S128x1) offZero2, View.ld_unit_zero (S := S1x128x8448) offZero3, View.readCov_unit_zero (S := S128x1) _ offZero2]

end Cert.KernelIdeal.Hand

end
-- ==== Proof.KernelIdealExactData.lean ====
import proofs.«403453_j14791867368156_3_alg».proof.Proof.KernelIdealBase
import proofs.«403453_j14791867368156_3_alg».proof.Proof.KernelIdealAround
import proofs.«403453_j14791867368156_3_alg».proof.Proof.LseSpec
import Idealize.ShloMosaic.Lib.ValueIdx

/-!
# What the region's buffers hold, point by point, over the extended reals

Point `n` of the 8 × 6 grid is example `n / 6`, vocabulary tile `n % 6`. After point `n` the four running buffers
hold, row by row, the streaming recurrence's state after tiles `0 … n % 6` of that example's rows of the two logit
arrays; after a last tile the two result buffers hold, row by row, the state's maximum plus the logarithm of its sum.
-/

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lse

local notation "𝕄" => MT nD τ sig Unit (Elt Ideal) ℕ (UR sig nD τ) ℕ

variable (m : (ℓ : Loc nD τ sig) → Buf (Elt Ideal) ℓ) (ρ : Dev nD → PrngReg)

/-! ## Rows, examples, tiles -/

/-- Row `r` of example `b` of a logit array. -/
def rowOf (X : S8x128x50257.Idx → EReal) (b : Fin 8) (r : Fin 128) : Fin 50257 → EReal := fun k => X (ix3 b r k)

/-- The example point number `n` belongs to, -/
def exOf (n : ℕ) : Fin 8 := ⟨n / 6 % 8, Nat.mod_lt _ (by norm_num)⟩
/-- and its vocabulary tile. -/
def tileOf (n : ℕ) : ℕ := n % 6

/-- The row of a running buffer's index. -/
def rowIx (j : S128x1.Idx) : Fin 128 := ⟨(j 0).val, (j 0).isLt⟩
/-- The row of a result buffer's index. -/
def rowIx3 (j : S1x128x1.Idx) : Fin 128 := ⟨(j 1).val, (j 1).isLt⟩

/-- The two logit arrays as the region finds them. -/
def XA (c : Dev nD) : S8x128x50257.Idx → EReal := V m c main_arg0
def XB (c : Dev nD) : S8x128x50257.Idx → EReal := V m c main_arg2

/-- A running maximum buffer after point `n`, -/
def mState (X : S8x128x50257.Idx → EReal) (n : ℕ) : Vec Ideal S128x1 .f32 :=
  fun j => stM (rowOf X (exOf n) (rowIx j)) (tileOf n)
/-- a running sum buffer after point `n`, -/
def lState (X : S8x128x50257.Idx → EReal) (n : ℕ) : Vec Ideal S128x1 .f32 :=
  fun j => stL (rowOf X (exOf n) (rowIx j)) (tileOf n)
/-- and a result buffer after a last tile `n`. -/
def outState (X : S8x128x50257.Idx → EReal) (n : ℕ) : Vec Ideal S1x128x1 .f32 :=
  fun j => stM (rowOf X (exOf n) (rowIx3 j)) 5 + Ideal.log (stL (rowOf X (exOf n) (rowIx3 j)) 5)

/-! ## The region's invariant, point by point -/

/-- Before the first point the four running buffers hold anything; after point `n` they hold its states. -/
def PhiS (c : Dev nD) : (n : ℕ) → n ≤ cfg0.N → sProp 𝕄
  | 0, _ => Pipeline.ΦA spec0 c
  | n + 1, _ => iprop(iprop(owns (c : Thread nD τ) scM0_0 fullShare (mState (XA m c) n) ∗ owns (c : Thread nD τ) scM0_1 fullShare (lState (XA m c) n)
      ∗ owns (c : Thread nD τ) scM0_2 fullShare (mState (XB m c) n) ∗ owns (c : Thread nD τ) scM0_3 fullShare (lState (XB m c) n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0_0 fullShare (mState (XA m c) n) ∗ owns (c : Thread nD τ) scM0_1 fullShare (lState (XA m c) n)
      ∗ owns (c : Thread nD τ) scM0_2 fullShare (mState (XB m c) n) ∗ owns (c : Thread nD τ) scM0_3 fullShare (lState (XB m c) n)) ∗ (∃ r, prngReg c r)) := rfl

theorem PhiS_pos (c : Dev nD) (n : ℕ) (h : n ≤ cfg0.N) (hz : n ≠ 0) :
    PhiS m c n h = iprop(iprop(owns (c : Thread nD τ) scM0_0 fullShare (mState (XA m c) (n - 1)) ∗ owns (c : Thread nD τ) scM0_1 fullShare (lState (XA m c) (n - 1))
      ∗ owns (c : Thread nD τ) scM0_2 fullShare (mState (XB m c) (n - 1)) ∗ owns (c : Thread nD τ) scM0_3 fullShare (lState (XB m c) (n - 1))) ∗ (∃ r, prngReg c r)) := by
  cases n with
  | zero => exact absurd rfl hz
  | succ n => rfl

/-! ## The proof data -/

/-- Window `w`'s block at point `t`, its part inside the array, read off the array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The arrays as the region finds them; after the body each logit window's buffer at its block (filled out past
    the array's end by zero, which nothing reads), each result window's at the state after the point; the invariant
    `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => outState (XA m c) t.val
    | ⟨3, _⟩ => outState (XB m c) t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = outState (XA m c) t.val := by dsimp only [dats]
theorem after0_3 (c : Dev nD) (t : Fin cfg0.N) : (dats m 0 c).after 3 t = outState (XB m c) t.val := by dsimp only [dats]

/-- A logit window is fetched at every point: its buffer holds the block where the fetch filled it, `d` elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl

/-- Handed back as found, a logit buffer is what the obligation asks on the part inside the array. -/
theorem in0_back (c : Dev nD) (t : Fin cfg0.N) (d) :
    win0_0.fill (grid0.coords t) ((dats m 0 c).before 0 t d) (win0_0.cut (grid0.coords t) ((dats m 0 c).after 0 t))
      = (dats m 0 c).before 0 t d := by
  rw [before0_0, after0_0]
  exact win0_0.fill_congr_cut _ (by rw [Pipeline.Window.cut_fill, Pipeline.Window.cut_fill])
theorem in1_back (c : Dev nD) (t : Fin cfg0.N) (d) :
    win0_1.fill (grid0.coords t) ((dats m 0 c).before 1 t d) (win0_1.cut (grid0.coords t) ((dats m 0 c).after 1 t))
      = (dats m 0 c).before 1 t d := by
  rw [before0_1, after0_1]
  exact win0_1.fill_congr_cut _ (by rw [Pipeline.Window.cut_fill, Pipeline.Window.cut_fill])

end Cert.KernelIdeal.HandI

end
-- ==== Proof.PayloadsIdeal.lean ====
import proofs.«403453_j14791867368156_3_alg».proof.Proof.Gen.KernelIdeal.Skeleton
import proofs.«403453_j14791867368156_3_alg».proof.Proof.LseSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

/-!
# The kernel body's arithmetic, one row at a time, over the extended reals

Every value the body stores is, row by row, one step of the streaming recurrence: the new running maximum is the
old one joined with the tile's row maximum, the new running sum the old one rescaled plus the tile's shifted
exponentials; at the last tile the columns past the row's end are first replaced by `⊥`. The reset stores `⊥` and
`0`, and the result is the running maximum plus the logarithm of the running sum.
-/

noncomputable section

namespace Cert.KernelIdeal.HandI

open Cert.KernelIdeal Cert.KernelIdeal.Gen
open Idealize.ShloMosaic Idealize.ShloMosaic.ValueIdx Cert.Lse

/-- Row `r` of a staged logit block, as a tile of 8448 columns. -/
def blkRow (v : Vec Ideal S1x128x8448 .f32) (r : Fin 128) : Fin 8448 → EReal :=
  fun k => v (ix3 (0 : Fin 1) r k)

/-- The same with the columns that tile `kv` puts at or past the row's end (column 50257) read as `⊥`. -/
def blkRowMasked (kv : ℕ) (v : Vec Ideal S1x128x8448 .f32) (r : Fin 128) : Fin 8448 → EReal :=
  fun k => if kv * 8448 + k.val < 50257 then v (ix3 (0 : Fin 1) r k) else ⊥

/-! ## Constants -/

/-- The named large negative constant is `⊥` over the extended reals. -/
private theorem negBig_eq : Named.named (F := Ideal) κ "neg_big" (φ := .f32) 0xF149F2CA#32 = ⊥ :=
  IdealRules.named_const.ideal_named_scalar _ _ _ _ rfl

/-- The pattern of `-∞` denotes `⊥`. -/
private theorem ofBits_negInf : Ideal.ofBits .f32 0xFF800000#32 = ⊥ := by
  simp [Ideal.ofBits, Ideal.ieee]

/-- The pattern of `+0` denotes `0`. -/
private theorem ofBits_zero : Ideal.ofBits .f32 0x00000000#32 = 0 := by
  simp [Ideal.ofBits, Ideal.ieee]

/-! ## Layout operations at an index -/

/-- Inserting the column `k` into the row index `r` gives the index `(r, k)`. -/
private theorem lift_row (r : Fin 128) (k : Fin 8448) :
    reduces_S128x8448_S128.lift (ix1 r) k = ix2 r k := by
  funext c
  refine Fin.ext ?_
  match c with
  | ⟨0, _⟩ => rfl
  | ⟨1, _⟩ => rfl

/-- A vector of 128 entries viewed as a column reads, at `(r, 0)`, its entry `r`. -/
private theorem col_apply {α : Type} (v : S128.Idx → α) (r : Fin 128) :
    shapeCast S128x1 v shapeCasts_S128_S128x1 (ix2 r (0 : Fin 1)) = v (ix1 r) :=
  shapeCast_apply v _ _ _ (by
    rw [Shape.rowMajor_val_one, Shape.rowMajor_val_two]
    show r.val = r.val * 1 + 0
    omega)

/-- A column repeated along 8448 columns reads, at `(r, k)`, the column's entry `(r, 0)`. -/
private theorem bcast_apply {α : Type} (x : S128x1.Idx → α) (r : Fin 128) (k : Fin 8448) :
    broadcastTo S128x8448 x broadcasts_S128x1_S128x8448 (ix2 r k) = x (ix2 r (0 : Fin 1)) := by
  refine broadcastTo_apply x _ (ix2 r k) (ix2 r (0 : Fin 1)) fun a => ?_
  match a with
  | ⟨0, _⟩ => rfl
  | ⟨1, _⟩ => rfl

/-! ## The two lane reductions at a row -/

/-- The lane maximum of a block whose row `r` is `y`: the fold of `max` from `⊥` over `y`. -/
private theorem rowMax_apply (B : FVec Ideal S128x8448 .f32) (r : Fin 128) (y : Fin 8448 → EReal)
    (hB : ∀ k : Fin 8448, B (ix2 r k) = y k) :
    multiReduction (F := Ideal) .maximumf [1] S128 B 0xFF800000#32 reduces_S128x8448_S128 (.inl rfl) rfl (ix1 r)
      = (Finset.univ : Finset (Fin 8448)).fold max ⊥ y := by
  refine (Ideal.multiReduction_maximumf_single B 0xFF800000#32 reduces_S128x8448_S128 (.inl rfl) rfl (ix1 r)).trans ?_
  have e : (B ∘ reduces_S128x8448_S128.lift (ix1 r)) = y :=
    funext fun k => (congrArg B (lift_row r k)).trans (hB k)
  show (Finset.univ : Finset (Fin 8448)).fold max (Ideal.ofBits .f32 0xFF800000#32)
    (B ∘ reduces_S128x8448_S128.lift (ix1 r)) = _
  rw [e, ofBits_negInf]
  rfl

/-- The lane sum of a block whose row `r` is `y`: the sum of `y`. -/
private theorem rowSum_apply (B : FVec Ideal S128x8448 .f32) (r : Fin 128) (y : Fin 8448 → EReal)
    (hB : ∀ k : Fin 8448, B (ix2 r k) = y k) :
    multiReduction (F := Ideal) .add [1] S128 B 0x00000000#32 reduces_S128x8448_S128 (.inl rfl) rfl (ix1 r)
      = ∑ k : Fin 8448, y k := by
  refine (Ideal.multiReduction_add_single B _ reduces_S128x8448_S128 (.inl rfl) rfl (ix1 r)).trans ?_
  exact Finset.sum_congr rfl fun k _ => (congrArg B (lift_row r k)).trans (hB k)

/-! ## One step of the recurrence, for any block whose row is known -/

/-- The new running maximum of a row: the old one joined with the lane maximum of the row's tile. -/
private theorem mstep (B : FVec Ideal S128x8448 .f32) (mo : FVec Ideal S128x1 .f32) (r : Fin 128) (y : Fin 8448 → EReal)
    (hB : ∀ k : Fin 8448, B (ix2 r k) = y k) :
    maximumf mo (shapeCast S128x1
        (multiReduction (F := Ideal) .maximumf [1] S128 B 0xFF800000#32 reduces_S128x8448_S128 (.inl rfl) rfl)
        shapeCasts_S128_S128x1) (ix2 r (0 : Fin 1))
      = stepM (mo (ix2 r 0)) y := by
  show max (mo (ix2 r 0)) _ = max (mo (ix2 r 0)) _
  rw [col_apply, rowMax_apply B r y hB]

/-- The new running sum of a row, from a new maximum `M`: the old sum rescaled by `exp (m - M)` plus the lane sum
of the exponentials shifted by `M`. -/
private theorem lstep (B : FVec Ideal S128x8448 .f32) (M m2 l : FVec Ideal S128x1 .f32) (r : Fin 128) (y : Fin 8448 → EReal)
    (hB : ∀ k : Fin 8448, B (ix2 r k) = y k) :
    shapeCast S128x1
        (addf (mulf (exp (subf m2 M)) l)
          (shapeCast S128x1
            (multiReduction (F := Ideal) .add [1] S128
              (exp (subf B (broadcastTo S128x8448 M broadcasts_S128x1_S128x8448)))
              0x00000000#32 reduces_S128x8448_S128 (.inl rfl) rfl)
            shapeCasts_S128_S128x1))
        shapeCasts_S128x1_S128x1 (ix2 r (0 : Fin 1))
      = Ideal.exp (m2 (ix2 r 0) - M (ix2 r 0)) * l (ix2 r 0) + ∑ k : Fin 8448, Ideal.exp (y k - M (ix2 r 0)) := by
  rw [shapeCast_self]
  show Ideal.exp (m2 (ix2 r 0) - M (ix2 r 0)) * l (ix2 r 0) + _ = _
  rw [col_apply, rowSum_apply _ r (fun k => Ideal.exp (y k - M (ix2 r 0)))]
  intro k
  show Ideal.exp (B (ix2 r k) - broadcastTo S128x8448 M broadcasts_S128x1_S128x8448 (ix2 r k)) = _
  rw [bcast_apply, hB]

/-! ## The last tile's mask -/

/-- In tile 5 the comparison "global column below 50257" at column `k`: no 32-bit overflow, since
`42240 + k < 50688`. -/
private theorem mask_bit (k : Fin 8448) :
    IntOp.cmpi .slt (IntOp.addi (Scalar.muli (BitVec.ofNat 32 5) 8448#32) (BitVec.ofNat 32 k.val)) 50257#32
      = BitVec.ofBool (decide (5 * 8448 + k.val < 50257)) := by
  have hk := k.isLt
  show BitVec.ofBool (BitVec.slt (BitVec.ofNat 32 5 * 8448#32 + BitVec.ofNat 32 k.val) 50257#32) = _
  congr 1
  have h1 : (BitVec.ofNat 32 5 * 8448#32 + BitVec.ofNat 32 k.val) = BitVec.ofNat 32 (42240 + k.val) := by
    rw [BitVec.ofNat_add]; rfl
  rw [h1]
  unfold BitVec.slt
  rw [BitVec.toInt_eq_toNat_cond, BitVec.toInt_eq_toNat_cond, BitVec.toNat_ofNat, BitVec.toNat_ofNat]
  rw [decide_eq_decide]
  have e1 : (42240 + k.val) % 2 ^ 32 = 42240 + k.val := Nat.mod_eq_of_lt (by omega)
  have e2 : 50257 % 2 ^ 32 = 50257 := by norm_num
  rw [e1, e2, if_pos (by omega), if_pos (by omega)]
  omega

/-- A select between a row entry and `⊥` on that comparison is the masked row's entry. -/
private theorem select_mask (k : Fin 8448) (x : EReal) :
    Scalar.select (IntOp.cmpi .slt (IntOp.addi (Scalar.muli (BitVec.ofNat 32 5) 8448#32) (BitVec.ofNat 32 k.val)) 50257#32)
      x ⊥ = if 5 * 8448 + k.val < 50257 then x else ⊥ := by
  rw [mask_bit]
  unfold Scalar.select
  by_cases h : 5 * 8448 + k.val < 50257
  · rw [if_pos h, decide_eq_true h]; rfl
  · rw [if_neg h, decide_eq_false h]; rfl

/-! ## The first logit array's chain -/

private theorem pay5_apply (v4 : Vec Ideal S1x128x8448 .f32) (r : Fin 128) (k : Fin 8448) :
    k0_pay5 (F := Ideal) v4 (ix2 r k) = blkRow v4 r k :=
  shapeCast_1ab_ab_apply v4 shapeCasts_S1x128x8448_S128x8448 r k

private theorem pay10_apply (v4 : Vec Ideal S1x128x8448 .f32) (mo : Vec Ideal S128x1 .f32) (r : Fin 128) :
    k0_pay10 (F := Ideal) v4 mo (ix2 r (0 : Fin 1)) = stepM (mo (ix2 r 0)) (blkRow v4 r) :=
  mstep (k0_pay5 v4) mo r (blkRow v4 r) (pay5_apply v4 r)

private theorem pay6_apply (i : grid0.Coords) (hi : (i 1).val = 5) (v4 : Vec Ideal S1x128x8448 .f32) (r : Fin 128) (k : Fin 8448) :
    k0_pay6 (F := Ideal) i v4 (ix2 r k) = blkRowMasked 5 v4 r k := by
  unfold k0_pay6
  show Scalar.select
      (IntOp.cmpi .slt
        (IntOp.addi (Scalar.muli (BitVec.ofNat 32 (i 1).val) 8448#32)
          (iota .tc S128x8448 32 [1] iota_S128x8448_d1_w32 (ix2 r k))) 50257#32)
      (k0_pay5 v4 (ix2 r k)) (Named.named (F := Ideal) κ "neg_big" (φ := .f32) 0xF149F2CA#32) = _
  rw [hi, iota_single_apply, negBig_eq, pay5_apply]
  exact select_mask k (blkRow v4 r k)

private theorem pay7_apply (i : grid0.Coords) (hi : (i 1).val = 5) (v4 : Vec Ideal S1x128x8448 .f32) (mo : Vec Ideal S128x1 .f32) (r : Fin 128) :
    k0_pay7 (F := Ideal) i v4 mo (ix2 r (0 : Fin 1)) = stepM (mo (ix2 r 0)) (blkRowMasked 5 v4 r) :=
  mstep (k0_pay6 i v4) mo r (blkRowMasked 5 v4 r) (pay6_apply i hi v4 r)

theorem reset_m_a (r : Fin 128) : k0_pay1 (F := Ideal) (ix2 r (0 : Fin 1)) = ⊥ := by
  unfold k0_pay1
  rw [shapeCast_self]
  exact negBig_eq
theorem reset_l_a (r : Fin 128) : k0_pay2 (F := Ideal) (ix2 r (0 : Fin 1)) = 0 := by
  unfold k0_pay2
  rw [shapeCast_self]
  exact ofBits_zero
theorem plain_m_a (v4 : Vec Ideal S1x128x8448 .f32) (mo : Vec Ideal S128x1 .f32) (r : Fin 128) :
    k0_pay12 (F := Ideal) v4 mo (ix2 r (0 : Fin 1)) = stepM (mo (ix2 r 0)) (blkRow v4 r) := by
  unfold k0_pay12
  rw [shapeCast_self]
  exact pay10_apply v4 mo r
theorem plain_l_a (v4 : Vec Ideal S1x128x8448 .f32) (mo lo : Vec Ideal S128x1 .f32) (r : Fin 128) :
    k0_pay11 (F := Ideal) v4 mo mo lo (ix2 r (0 : Fin 1)) = stepL (mo (ix2 r 0)) (lo (ix2 r 0)) (blkRow v4 r) := by
  refine (lstep (k0_pay5 v4) (k0_pay10 v4 mo) mo lo r (blkRow v4 r) (pay5_apply v4 r)).trans ?_
  rw [pay10_apply]
  rfl
theorem masked_m_a (i : grid0.Coords) (hi : (i 1).val = 5) (v4 : Vec Ideal S1x128x8448 .f32) (mo : Vec Ideal S128x1 .f32) (r : Fin 128) :
    k0_pay9 (F := Ideal) i v4 mo (ix2 r (0 : Fin 1)) = stepM (mo (ix2 r 0)) (blkRowMasked 5 v4 r) := by
  unfold k0_pay9
  rw [shapeCast_self]
  exact pay7_apply i hi v4 mo r
theorem masked_l_a (i : grid0.Coords) (hi : (i 1).val = 5) (v4 : Vec Ideal S1x128x8448 .f32) (mo lo : Vec Ideal S128x1 .f32) (r : Fin 128) :
    k0_pay8 (F := Ideal) i v4 mo mo lo (ix2 r (0 : Fin 1)) = stepL (mo (ix2 r 0)) (lo (ix2 r 0)) (blkRowMasked 5 v4 r) := by
  refine (lstep (k0_pay6 i v4) (k0_pay7 i v4 mo) mo lo r (blkRowMasked 5 v4 r) (pay6_apply i hi v4 r)).trans ?_
  rw [pay7_apply i hi]
  rfl
theorem result_a (mv lv : Vec Ideal S128x1 .f32) (r : Fin 128) :
    k0_pay21 (F := Ideal) mv lv (ix3 (0 : Fin 1) r (0 : Fin 1)) = mv (ix2 r 0) + Ideal.log (lv (ix2 r 0)) := by
  unfold k0_pay21
  exact shapeCast_ab_1ab_apply _ shapeCasts_S128x1_S1x128x1 0 r 0

/-! ## The second logit array's chain -/

private theorem pay13_apply (v11 : Vec Ideal S1x128x8448 .f32) (r : Fin 128) (k : Fin 8448) :
    k0_pay13 (F := Ideal) v11 (ix2 r k) = blkRow v11 r k :=
  shapeCast_1ab_ab_apply v11 shapeCasts_S1x128x8448_S128x8448 r k

private theorem pay18_apply (v11 : Vec Ideal S1x128x8448 .f32) (mo : Vec Ideal S128x1 .f32) (r : Fin 128) :
    k0_pay18 (F := Ideal) v11 mo (ix2 r (0 : Fin 1)) = stepM (mo (ix2 r 0)) (blkRow v11 r) :=
  mstep (k0_pay13 v11) mo r (blkRow v11 r) (pay13_apply v11 r)

private theorem pay14_apply (i : grid0.Coords) (hi : (i 1).val = 5) (v11 : Vec Ideal S1x128x8448 .f32) (r : Fin 128) (k : Fin 8448) :
    k0_pay14 (F := Ideal) i v11 (ix2 r k) = blkRowMasked 5 v11 r k := by
  unfold k0_pay14
  show Scalar.select
      (IntOp.cmpi .slt
        (IntOp.addi (Scalar.muli (BitVec.ofNat 32 (i 1).val) 8448#32)
          (iota .tc S128x8448 32 [1] iota_S128x8448_d1_w32 (ix2 r k))) 50257#32)
      (k0_pay13 v11 (ix2 r k)) (Named.named (F := Ideal) κ "neg_big" (φ := .f32) 0xF149F2CA#32) = _
  rw [hi, iota_single_apply, negBig_eq, pay13_apply]
  exact select_mask k (blkRow v11 r k)

private theorem pay15_apply (i : grid0.Coords) (hi : (i 1).val = 5) (v11 : Vec Ideal S1x128x8448 .f32) (mo : Vec Ideal S128x1 .f32) (r : Fin 128) :
    k0_pay15 (F := Ideal) i v11 mo (ix2 r (0 : Fin 1)) = stepM (mo (ix2 r 0)) (blkRowMasked 5 v11 r) :=
  mstep (k0_pay14 i v11) mo r (blkRowMasked 5 v11 r) (pay14_apply i hi v11 r)

theorem reset_m_b (r : Fin 128) : k0_pay3 (F := Ideal) (ix2 r (0 : Fin 1)) = ⊥ := by
  unfold k0_pay3
  rw [shapeCast_self]
  exact negBig_eq
theorem reset_l_b (r : Fin 128) : k0_pay4 (F := Ideal) (ix2 r (0 : Fin 1)) = 0 := by
  unfold k0_pay4
  rw [shapeCast_self]
  exact ofBits_zero
theorem plain_m_b (v11 : Vec Ideal S1x128x8448 .f32) (mo : Vec Ideal S128x1 .f32) (r : Fin 128) :
    k0_pay20 (F := Ideal) v11 mo (ix2 r (0 : Fin 1)) = stepM (mo (ix2 r 0)) (blkRow v11 r) := by
  unfold k0_pay20
  rw [shapeCast_self]
  exact pay18_apply v11 mo r
theorem plain_l_b (v11 : Vec Ideal S1x128x8448 .f32) (mo lo : Vec Ideal S128x1 .f32) (r : Fin 128) :
    k0_pay19 (F := Ideal) v11 mo mo lo (ix2 r (0 : Fin 1)) = stepL (mo (ix2 r 0)) (lo (ix2 r 0)) (blkRow v11 r) := by
  refine (lstep (k0_pay13 v11) (k0_pay18 v11 mo) mo lo r (blkRow v11 r) (pay13_apply v11 r)).trans ?_
  rw [pay18_apply]
  rfl
theorem masked_m_b (i : grid0.Coords) (hi : (i 1).val = 5) (v11 : Vec Ideal S1x128x8448 .f32) (mo : Vec Ideal S128x1 .f32) (r : Fin 128) :
    k0_pay17 (F := Ideal) i v11 mo (ix2 r (0 : Fin 1)) = stepM (mo (ix2 r 0)) (blkRowMasked 5 v11 r) := by
  unfold k0_pay17
  rw [shapeCast_self]
  exact pay15_apply i hi v11 mo r
theorem masked_l_b (i : grid0.Coords) (hi : (i 1).val = 5) (v11 : Vec Ideal S1x128x8448 .f32) (mo lo : Vec Ideal S128x1 .f32) (r : Fin 128) :
    k0_pay16 (F := Ideal) i v11 mo mo lo (ix2 r (0 : Fin 1)) = stepL (mo (ix2 r 0)) (lo (ix2 r 0)) (blkRowMasked 5 v11 r) := by
  refine (lstep (k0_pay14 i v11) (k0_pay15 i v11 mo) mo lo r (blkRowMasked 5 v11 r) (pay14_apply i hi v11 r)).trans ?_
  rw [pay15_apply i hi]
  rfl
theorem result_b (mv lv : Vec Ideal S128x1 .f32) (r : Fin 128) :
    k0_pay22 (F := Ideal) mv lv (ix3 (0 : Fin 1) r (0 : Fin 1)) = mv (ix2 r 0) + Ideal.log (lv (ix2 r 0)) := by
  unfold k0_pay22
  exact shapeCast_ab_1ab_apply _ shapeCasts_S128x1_S1x128x1 0 r 0

end Cert.KernelIdeal.HandI

end
-- ==== Proof.BlockReads.lean ====
import proofs.«403453_j14791867368156_3_alg».proof.Proof.Gen.KernelIdeal.Points
import Idealize.ShloMosaic.Lib.ValueIdx

/-!
# A staged logit block, read where the array is

Point `t` of the 8 × 6 grid is example `t / 6`, vocabulary tile `t % 6`. The logit windows stage the block
`[1, 128, 8448]` at block index `(t / 6, 0, t % 6)` of a `[8, 128, 50257]` array; the last tile overhangs the array,
so the fetch fills only the columns inside it. At a column inside the array the staging buffer holds the array's
entry, whatever it held before.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]

/-- The grid runs row-major, the tile axis fastest: decided over the 48 points. -/
theorem coords_facts : ∀ t : Fin cfg0.N, ((grid0.coords t) 0).val = t.val / 6 ∧ ((grid0.coords t) 1).val = t.val % 6 :=
  (by decide +kernel : ∀ t : Fin grid0.N, ((grid0.coords t) 0).val = t.val / 6 ∧ ((grid0.coords t) 1).val = t.val % 6)

/-- The grid coordinates of point `t`: example, tile. -/
theorem coords_ex (t : Fin cfg0.N) : ((grid0.coords t) 0).val = t.val / 6 := (coords_facts t).1
theorem coords_tile (t : Fin cfg0.N) : ((grid0.coords t) 1).val = t.val % 6 := (coords_facts t).2

/-- The example of a point is one of the eight. -/
theorem ex_lt (t : Fin cfg0.N) : t.val / 6 < 8 := by
  have h : t.val < 48 := t.isLt
  omega

/-- The first logit window's block index at point `t` is `(t / 6, 0, t % 6)`: decided over the 48 points. -/
theorem idx_facts_0 : ∀ t : Fin cfg0.N, win0_0.index t (0 : Fin 3) = t.val / 6 ∧ win0_0.index t (1 : Fin 3) = 0
    ∧ win0_0.index t (2 : Fin 3) = t.val % 6 :=
  (by decide +kernel : ∀ t : Fin grid0.N, win0_0.index t (0 : Fin 3) = t.val / 6 ∧ win0_0.index t (1 : Fin 3) = 0
    ∧ win0_0.index t (2 : Fin 3) = t.val % 6)

/-- What its fetch moves: the whole block on the first two axes, and on the last the columns up to the array's
    end, `50257 - (t % 6) * 8448` of them on the last tile. -/
theorem xsize_facts_0 : ∀ t : Fin cfg0.N, win0_0.xsize (grid0.coords t) (0 : Fin 3) = 1
    ∧ win0_0.xsize (grid0.coords t) (1 : Fin 3) = 128
    ∧ win0_0.xsize (grid0.coords t) (2 : Fin 3) = min 8448 (50257 - t.val % 6 * 8448) :=
  (by decide +kernel : ∀ t : Fin grid0.N, win0_0.xsize (grid0.coords t) (0 : Fin 3) = 1
    ∧ win0_0.xsize (grid0.coords t) (1 : Fin 3) = 128
    ∧ win0_0.xsize (grid0.coords t) (2 : Fin 3) = min 8448 (50257 - t.val % 6 * 8448))

/-- The first logit window's staging buffer, at a column inside the array, holds the array's entry. -/
theorem stage_read_0 (c : Dev nD) (X : Buf (Elt F) ((c : Thread nD τ).loc main_arg0)) (t : Fin cfg0.N)
    (d : S1x128x8448.Idx → Elt F .f32) (r : Fin 128) (k : Fin 8448) (h : t.val % 6 * 8448 + k.val < 50257) :
    win0_0.fill (grid0.coords t) d ((win0_0.blk t).view.read (Elt F) X) (ix3 (0 : Fin 1) r k)
      = X (ix3 (⟨t.val / 6, ex_lt t⟩ : Fin 8) r (⟨t.val % 6 * 8448 + k.val, h⟩ : Fin 50257)) := by
  obtain ⟨x0, x1, x2⟩ := xsize_facts_0 t
  obtain ⟨i0, i1, i2⟩ := idx_facts_0 t
  have hr : r.val < 128 := r.isLt
  have hk : k.val < 8448 := k.isLt
  -- the index lies in the part the fetch moves
  have hm : win0_0.moved (grid0.coords t) (ix3 (0 : Fin 1) r k) = true := by
    rw [Pipeline.Window.moved_iff]
    intro a
    match a with
    | ⟨0, _⟩ => show (0 : Nat) < win0_0.xsize (grid0.coords t) (0 : Fin 3); omega
    | ⟨1, _⟩ => show r.val < win0_0.xsize (grid0.coords t) (1 : Fin 3); omega
    | ⟨2, _⟩ => show k.val < win0_0.xsize (grid0.coords t) (2 : Fin 3); omega
  unfold Pipeline.Window.fill
  rw [dif_pos hm]
  -- the block's coordinate is the block index times the block size plus the coordinate inside the block
  show X ((win0_0.blk t).view.emb _) = X _
  congr 1
  funext a; apply Fin.ext
  match a with
  | ⟨0, _⟩ => show win0_0.index t (0 : Fin 3) * 1 + 1 * 0 = t.val / 6; omega
  | ⟨1, _⟩ => show win0_0.index t (1 : Fin 3) * 128 + 1 * r.val = r.val; omega
  | ⟨2, _⟩ => show win0_0.index t (2 : Fin 3) * 8448 + 1 * k.val = t.val % 6 * 8448 + k.val; omega

/-- The second logit window's block index and cuts are the first's. -/
theorem idx_facts_1 : ∀ t : Fin cfg0.N, win0_1.index t (0 : Fin 3) = t.val / 6 ∧ win0_1.index t (1 : Fin 3) = 0
    ∧ win0_1.index t (2 : Fin 3) = t.val % 6 :=
  (by decide +kernel : ∀ t : Fin grid0.N, win0_1.index t (0 : Fin 3) = t.val / 6 ∧ win0_1.index t (1 : Fin 3) = 0
    ∧ win0_1.index t (2 : Fin 3) = t.val % 6)

theorem xsize_facts_1 : ∀ t : Fin cfg0.N, win0_1.xsize (grid0.coords t) (0 : Fin 3) = 1
    ∧ win0_1.xsize (grid0.coords t) (1 : Fin 3) = 128
    ∧ win0_1.xsize (grid0.coords t) (2 : Fin 3) = min 8448 (50257 - t.val % 6 * 8448) :=
  (by decide +kernel : ∀ t : Fin grid0.N, win0_1.xsize (grid0.coords t) (0 : Fin 3) = 1
    ∧ win0_1.xsize (grid0.coords t) (1 : Fin 3) = 128
    ∧ win0_1.xsize (grid0.coords t) (2 : Fin 3) = min 8448 (50257 - t.val % 6 * 8448))

/-- The second logit window's likewise. -/
theorem stage_read_1 (c : Dev nD) (X : Buf (Elt F) ((c : Thread nD τ).loc main_arg2)) (t : Fin cfg0.N)
    (d : S1x128x8448.Idx → Elt F .f32) (r : Fin 128) (k : Fin 8448) (h : t.val % 6 * 8448 + k.val < 50257) :
    win0_1.fill (grid0.coords t) d ((win0_1.blk t).view.read (Elt F) X) (ix3 (0 : Fin 1) r k)
      = X (ix3 (⟨t.val / 6, ex_lt t⟩ : Fin 8) r (⟨t.val % 6 * 8448 + k.val, h⟩ : Fin 50257)) := by
  obtain ⟨x0, x1, x2⟩ := xsize_facts_1 t
  obtain ⟨i0, i1, i2⟩ := idx_facts_1 t
  have hr : r.val < 128 := r.isLt
  have hk : k.val < 8448 := k.isLt
  -- the index lies in the part the fetch moves
  have hm : win0_1.moved (grid0.coords t) (ix3 (0 : Fin 1) r k) = true := by
    rw [Pipeline.Window.moved_iff]
    intro a
    match a with
    | ⟨0, _⟩ => show (0 : Nat) < win0_1.xsize (grid0.coords t) (0 : Fin 3); omega
    | ⟨1, _⟩ => show r.val < win0_1.xsize (grid0.coords t) (1 : Fin 3); omega
    | ⟨2, _⟩ => show k.val < win0_1.xsize (grid0.coords t) (2 : Fin 3); omega
  unfold Pipeline.Window.fill
  rw [dif_pos hm]
  -- the block's coordinate is the block index times the block size plus the coordinate inside the block
  show X ((win0_1.blk t).view.emb _) = X _
  congr 1
  funext a; apply Fin.ext
  match a with
  | ⟨0, _⟩ => show win0_1.index t (0 : Fin 3) * 1 + 1 * 0 = t.val / 6; omega
  | ⟨1, _⟩ => show win0_1.index t (1 : Fin 3) * 128 + 1 * r.val = r.val; omega
  | ⟨2, _⟩ => show win0_1.index t (2 : Fin 3) * 8448 + 1 * k.val = t.val % 6 * 8448 + k.val; omega

end Cert.KernelIdeal.Hand

end
-- ==== Proof.KernelIdealSteps.lean ====
import proofs.«403453_j14791867368156_3_alg».proof.Proof.KernelIdealExactData
import proofs.«403453_j14791867368156_3_alg».proof.Proof.PayloadsIdeal
import proofs.«403453_j14791867368156_3_alg».proof.Proof.BlockReads

/-!
# One point of the grid is one step of the streaming recurrence

At point `t` (example `t / 6`, tile `t % 6`) a logit window's staging buffer holds, on the columns inside the array,
tile `t % 6` of that example's rows; the body's stored values, read row by row, are the recurrence's step applied to
the state the point before left (at the first tile: to `⊥` and `0`); at the last tile the columns past the row's end
read `⊥`, whatever the staging buffer holds there.
-/

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Lse

variable (m : (ℓ : Loc nD τ sig) → Buf (Elt Ideal) ℓ)

/-! ## Indices of the running and result buffers -/

/-- Every index of a running buffer is a row and the one column. -/
private theorem idx_col (j : S128x1.Idx) : ∃ r : Fin 128, j = ix2 r (0 : Fin 1) := by
  obtain ⟨r, z, rfl⟩ : ∃ (r : Fin 128) (z : Fin 1), j = ix2 r z := ⟨j 0, j 1, eq_ix2 j⟩
  obtain rfl : z = 0 := Subsingleton.elim z 0
  exact ⟨r, rfl⟩

/-- Every index of a result buffer is a row between two unit axes. -/
private theorem idx_out (j : S1x128x1.Idx) : ∃ r : Fin 128, j = ix3 (0 : Fin 1) r (0 : Fin 1) := by
  obtain ⟨z, r, z', rfl⟩ : ∃ (z : Fin 1) (r : Fin 128) (z' : Fin 1), j = ix3 z r z' := ⟨j 0, j 1, j 2, eq_ix3 j⟩
  obtain rfl : z = 0 := Subsingleton.elim z 0
  obtain rfl : z' = 0 := Subsingleton.elim z' 0
  exact ⟨r, rfl⟩

/-! ## The states, one row at a time -/

/-- At a first tile the state is one step from `⊥` and `0`. -/
private theorem mState_first (X : S8x128x50257.Idx → EReal) (n : ℕ) (h0 : n % 6 = 0) (r : Fin 128) :
    mState X n (ix2 r (0 : Fin 1)) = stepM ⊥ (tile (rowOf X (exOf n) r) (tileOf n)) := by
  have e : tileOf n = 0 := h0
  show stM (rowOf X (exOf n) r) (tileOf n) = _
  rw [e]
  rfl
private theorem lState_first (X : S8x128x50257.Idx → EReal) (n : ℕ) (h0 : n % 6 = 0) (r : Fin 128) :
    lState X n (ix2 r (0 : Fin 1)) = stepL ⊥ 0 (tile (rowOf X (exOf n) r) (tileOf n)) := by
  have e : tileOf n = 0 := h0
  show stL (rowOf X (exOf n) r) (tileOf n) = _
  rw [e]
  rfl

/-- At a later tile the point before is the same example's tile before, and the state is one step from its state. -/
private theorem mState_next (X : S8x128x50257.Idx → EReal) (n : ℕ) (h0 : ¬ n % 6 = 0) (r : Fin 128) :
    mState X n (ix2 r (0 : Fin 1))
      = stepM (mState X (n - 1) (ix2 r 0)) (tile (rowOf X (exOf n) r) (tileOf n)) := by
  have e1 : exOf (n - 1) = exOf n := Fin.ext (by show (n - 1) / 6 % 8 = n / 6 % 8; omega)
  have e2 : tileOf n = tileOf (n - 1) + 1 := by show n % 6 = (n - 1) % 6 + 1; omega
  show stM (rowOf X (exOf n) r) (tileOf n)
    = stepM (stM (rowOf X (exOf (n - 1)) r) (tileOf (n - 1))) (tile (rowOf X (exOf n) r) (tileOf n))
  rw [e1, e2]
  rfl
private theorem lState_next (X : S8x128x50257.Idx → EReal) (n : ℕ) (h0 : ¬ n % 6 = 0) (r : Fin 128) :
    lState X n (ix2 r (0 : Fin 1))
      = stepL (mState X (n - 1) (ix2 r 0)) (lState X (n - 1) (ix2 r 0)) (tile (rowOf X (exOf n) r) (tileOf n)) := by
  have e1 : exOf (n - 1) = exOf n := Fin.ext (by show (n - 1) / 6 % 8 = n / 6 % 8; omega)
  have e2 : tileOf n = tileOf (n - 1) + 1 := by show n % 6 = (n - 1) % 6 + 1; omega
  show stL (rowOf X (exOf n) r) (tileOf n)
    = stepL (stM (rowOf X (exOf (n - 1)) r) (tileOf (n - 1))) (stL (rowOf X (exOf (n - 1)) r) (tileOf (n - 1)))
        (tile (rowOf X (exOf n) r) (tileOf n))
  rw [e1, e2]
  rfl

/-! ## A tile's entries -/

private theorem tile_in (x : Fin 50257 → EReal) (kv : ℕ) (k : Fin 8448) (h : kv * 8448 + k.val < 50257) :
    tile x kv k = x ⟨kv * 8448 + k.val, h⟩ := by
  rw [tile, dif_pos h]
private theorem tile_out (x : Fin 50257 → EReal) (kv : ℕ) (k : Fin 8448) (h : ¬ kv * 8448 + k.val < 50257) :
    tile x kv k = ⊥ := by
  rw [tile, dif_neg h]

/-! ## The staged blocks, one row at a time -/

/-- A staged entry of the first logit window at a column inside the array is the row's entry at that tile's column. -/
private theorem entry_a (c : Dev nD) (t : Fin cfg0.N) (d) (r : Fin 128) (k : Fin 8448)
    (h : t.val % 6 * 8448 + k.val < 50257) :
    (dats m 0 c).before 0 t d (ix3 (0 : Fin 1) r k)
      = rowOf (XA m c) (exOf t.val) r ⟨tileOf t.val * 8448 + k.val, h⟩ := by
  have ht : t.val < 48 := t.isLt
  have hex : (⟨t.val / 6, ex_lt t⟩ : Fin 8) = exOf t.val :=
    Fin.ext (by show t.val / 6 = t.val / 6 % 8; omega)
  rw [before0_0]
  refine (stage_read_0 (F := Ideal) c (XA m c) t d r k h).trans ?_
  rw [hex]
  rfl

/-- On a tile inside the array the staged block's row is that tile of the row. -/
private theorem blkRow_a (c : Dev nD) (t : Fin cfg0.N) (h5 : ¬ t.val % 6 = 5) (d) (r : Fin 128) :
    blkRow ((dats m 0 c).before 0 t d) r = tile (rowOf (XA m c) (exOf t.val) r) (tileOf t.val) := by
  funext k
  have ht : t.val < 48 := t.isLt
  have hk : k.val < 8448 := k.isLt
  have h : t.val % 6 * 8448 + k.val < 50257 := by omega
  have h' : tileOf t.val * 8448 + k.val < 50257 := h
  show (dats m 0 c).before 0 t d (ix3 (0 : Fin 1) r k) = _
  rw [entry_a m c t d r k h]
  exact (tile_in _ _ k h').symm

/-- On the last tile the staged block's row with the columns past the row's end read as `⊥` is that tile of the row,
whatever the staging buffer holds past the array's end. -/
private theorem blkRowMasked_a (c : Dev nD) (t : Fin cfg0.N) (h5 : t.val % 6 = 5) (d) (r : Fin 128) :
    blkRowMasked 5 ((dats m 0 c).before 0 t d) r = tile (rowOf (XA m c) (exOf t.val) r) (tileOf t.val) := by
  funext k
  have e5 : tileOf t.val = 5 := h5
  show (if 5 * 8448 + k.val < 50257 then (dats m 0 c).before 0 t d (ix3 (0 : Fin 1) r k) else (⊥ : EReal)) = _
  by_cases hk : 5 * 8448 + k.val < 50257
  · have h : t.val % 6 * 8448 + k.val < 50257 := by rw [h5]; exact hk
    have h' : tileOf t.val * 8448 + k.val < 50257 := h
    rw [if_pos hk, entry_a m c t d r k h]
    exact (tile_in _ _ k h').symm
  · have h' : ¬ tileOf t.val * 8448 + k.val < 50257 := by rw [e5]; exact hk
    rw [if_neg hk]
    exact (tile_out _ _ k h').symm

/-- A staged entry of the second logit window at a column inside the array is the row's entry at that tile's column. -/
private theorem entry_b (c : Dev nD) (t : Fin cfg0.N) (d) (r : Fin 128) (k : Fin 8448)
    (h : t.val % 6 * 8448 + k.val < 50257) :
    (dats m 0 c).before 1 t d (ix3 (0 : Fin 1) r k)
      = rowOf (XB m c) (exOf t.val) r ⟨tileOf t.val * 8448 + k.val, h⟩ := by
  have ht : t.val < 48 := t.isLt
  have hex : (⟨t.val / 6, ex_lt t⟩ : Fin 8) = exOf t.val :=
    Fin.ext (by show t.val / 6 = t.val / 6 % 8; omega)
  rw [before0_1]
  refine (stage_read_1 (F := Ideal) c (XB m c) t d r k h).trans ?_
  rw [hex]
  rfl

/-- On a tile inside the array the second window's staged row is that tile of the row. -/
private theorem blkRow_b (c : Dev nD) (t : Fin cfg0.N) (h5 : ¬ t.val % 6 = 5) (d) (r : Fin 128) :
    blkRow ((dats m 0 c).before 1 t d) r = tile (rowOf (XB m c) (exOf t.val) r) (tileOf t.val) := by
  funext k
  have ht : t.val < 48 := t.isLt
  have hk : k.val < 8448 := k.isLt
  have h : t.val % 6 * 8448 + k.val < 50257 := by omega
  have h' : tileOf t.val * 8448 + k.val < 50257 := h
  show (dats m 0 c).before 1 t d (ix3 (0 : Fin 1) r k) = _
  rw [entry_b m c t d r k h]
  exact (tile_in _ _ k h').symm

/-- On the last tile the second window's staged row with the columns past the row's end read as `⊥` is that tile of
the row. -/
private theorem blkRowMasked_b (c : Dev nD) (t : Fin cfg0.N) (h5 : t.val % 6 = 5) (d) (r : Fin 128) :
    blkRowMasked 5 ((dats m 0 c).before 1 t d) r = tile (rowOf (XB m c) (exOf t.val) r) (tileOf t.val) := by
  funext k
  have e5 : tileOf t.val = 5 := h5
  show (if 5 * 8448 + k.val < 50257 then (dats m 0 c).before 1 t d (ix3 (0 : Fin 1) r k) else (⊥ : EReal)) = _
  by_cases hk : 5 * 8448 + k.val < 50257
  · have h : t.val % 6 * 8448 + k.val < 50257 := by rw [h5]; exact hk
    have h' : tileOf t.val * 8448 + k.val < 50257 := h
    rw [if_pos hk, entry_b m c t d r k h]
    exact (tile_in _ _ k h').symm
  · have h' : ¬ tileOf t.val * 8448 + k.val < 50257 := by rw [e5]; exact hk
    rw [if_neg hk]
    exact (tile_out _ _ k h').symm

/-! ## The first logit array's running buffers -/

/-- First tile: the reset's `⊥` and `0`, then one update, are the state after tile `0`. -/
theorem stepA_m_a (c : Dev nD) (t : Fin cfg0.N) (h0 : t.val % 6 = 0) (d) :
    k0_pay12 (F := Ideal) ((dats m 0 c).before 0 t d) (k0_pay1 (F := Ideal)) = mState (XA m c) t.val := by
  funext j
  obtain ⟨r, rfl⟩ := idx_col j
  have h5 : ¬ t.val % 6 = 5 := by omega
  rw [plain_m_a, reset_m_a, blkRow_a m c t h5 d r, mState_first _ _ h0 r]
theorem stepA_l_a (c : Dev nD) (t : Fin cfg0.N) (h0 : t.val % 6 = 0) (d) :
    k0_pay11 (F := Ideal) ((dats m 0 c).before 0 t d) (k0_pay1 (F := Ideal)) (k0_pay1 (F := Ideal)) (k0_pay2 (F := Ideal)) = lState (XA m c) t.val := by
  funext j
  obtain ⟨r, rfl⟩ := idx_col j
  have h5 : ¬ t.val % 6 = 5 := by omega
  rw [plain_l_a, reset_m_a, reset_l_a, blkRow_a m c t h5 d r, lState_first _ _ h0 r]
/-- A middle tile: one update of the state the tile before left. -/
theorem stepB_m_a (c : Dev nD) (t : Fin cfg0.N) (h0 : ¬ t.val % 6 = 0) (h5 : ¬ t.val % 6 = 5) (d) :
    k0_pay12 (F := Ideal) ((dats m 0 c).before 0 t d) (mState (XA m c) (t.val - 1)) = mState (XA m c) t.val := by
  funext j
  obtain ⟨r, rfl⟩ := idx_col j
  rw [plain_m_a, blkRow_a m c t h5 d r, mState_next _ _ h0 r]
theorem stepB_l_a (c : Dev nD) (t : Fin cfg0.N) (h0 : ¬ t.val % 6 = 0) (h5 : ¬ t.val % 6 = 5) (d) :
    k0_pay11 (F := Ideal) ((dats m 0 c).before 0 t d) (mState (XA m c) (t.val - 1)) (mState (XA m c) (t.val - 1)) (lState (XA m c) (t.val - 1))
      = lState (XA m c) t.val := by
  funext j
  obtain ⟨r, rfl⟩ := idx_col j
  rw [plain_l_a, blkRow_a m c t h5 d r, lState_next _ _ h0 r]
/-- The last tile: the masked update, and the result. -/
theorem stepC_m_a (c : Dev nD) (t : Fin cfg0.N) (h5 : t.val % 6 = 5) (d) :
    k0_pay9 (F := Ideal) (grid0.coords t) ((dats m 0 c).before 0 t d) (mState (XA m c) (t.val - 1)) = mState (XA m c) t.val := by
  funext j
  obtain ⟨r, rfl⟩ := idx_col j
  have h0 : ¬ t.val % 6 = 0 := by omega
  rw [masked_m_a (grid0.coords t) ((coords_tile t).trans h5), blkRowMasked_a m c t h5 d r, mState_next _ _ h0 r]
theorem stepC_l_a (c : Dev nD) (t : Fin cfg0.N) (h5 : t.val % 6 = 5) (d) :
    k0_pay8 (F := Ideal) (grid0.coords t) ((dats m 0 c).before 0 t d) (mState (XA m c) (t.val - 1)) (mState (XA m c) (t.val - 1)) (lState (XA m c) (t.val - 1))
      = lState (XA m c) t.val := by
  funext j
  obtain ⟨r, rfl⟩ := idx_col j
  have h0 : ¬ t.val % 6 = 0 := by omega
  rw [masked_l_a (grid0.coords t) ((coords_tile t).trans h5), blkRowMasked_a m c t h5 d r, lState_next _ _ h0 r]
theorem stepC_out_a (c : Dev nD) (t : Fin cfg0.N) (h5 : t.val % 6 = 5) :
    k0_pay21 (F := Ideal) (mState (XA m c) t.val) (lState (XA m c) t.val) = outState (XA m c) t.val := by
  funext j
  obtain ⟨r, rfl⟩ := idx_out j
  have e5 : tileOf t.val = 5 := h5
  rw [result_a]
  show stM (rowOf (XA m c) (exOf t.val) r) (tileOf t.val) + Ideal.log (stL (rowOf (XA m c) (exOf t.val) r) (tileOf t.val))
    = stM (rowOf (XA m c) (exOf t.val) r) 5 + Ideal.log (stL (rowOf (XA m c) (exOf t.val) r) 5)
  rw [e5]

/-! ## The second logit array's running buffers -/

/-- First tile: the reset's `⊥` and `0`, then one update, are the state after tile `0`. -/
theorem stepA_m_b (c : Dev nD) (t : Fin cfg0.N) (h0 : t.val % 6 = 0) (d) :
    k0_pay20 (F := Ideal) ((dats m 0 c).before 1 t d) (k0_pay3 (F := Ideal)) = mState (XB m c) t.val := by
  funext j
  obtain ⟨r, rfl⟩ := idx_col j
  have h5 : ¬ t.val % 6 = 5 := by omega
  rw [plain_m_b, reset_m_b, blkRow_b m c t h5 d r, mState_first _ _ h0 r]
theorem stepA_l_b (c : Dev nD) (t : Fin cfg0.N) (h0 : t.val % 6 = 0) (d) :
    k0_pay19 (F := Ideal) ((dats m 0 c).before 1 t d) (k0_pay3 (F := Ideal)) (k0_pay3 (F := Ideal)) (k0_pay4 (F := Ideal)) = lState (XB m c) t.val := by
  funext j
  obtain ⟨r, rfl⟩ := idx_col j
  have h5 : ¬ t.val % 6 = 5 := by omega
  rw [plain_l_b, reset_m_b, reset_l_b, blkRow_b m c t h5 d r, lState_first _ _ h0 r]
/-- A middle tile: one update of the state the tile before left. -/
theorem stepB_m_b (c : Dev nD) (t : Fin cfg0.N) (h0 : ¬ t.val % 6 = 0) (h5 : ¬ t.val % 6 = 5) (d) :
    k0_pay20 (F := Ideal) ((dats m 0 c).before 1 t d) (mState (XB m c) (t.val - 1)) = mState (XB m c) t.val := by
  funext j
  obtain ⟨r, rfl⟩ := idx_col j
  rw [plain_m_b, blkRow_b m c t h5 d r, mState_next _ _ h0 r]
theorem stepB_l_b (c : Dev nD) (t : Fin cfg0.N) (h0 : ¬ t.val % 6 = 0) (h5 : ¬ t.val % 6 = 5) (d) :
    k0_pay19 (F := Ideal) ((dats m 0 c).before 1 t d) (mState (XB m c) (t.val - 1)) (mState (XB m c) (t.val - 1)) (lState (XB m c) (t.val - 1))
      = lState (XB m c) t.val := by
  funext j
  obtain ⟨r, rfl⟩ := idx_col j
  rw [plain_l_b, blkRow_b m c t h5 d r, lState_next _ _ h0 r]
/-- The last tile: the masked update, and the result. -/
theorem stepC_m_b (c : Dev nD) (t : Fin cfg0.N) (h5 : t.val % 6 = 5) (d) :
    k0_pay17 (F := Ideal) (grid0.coords t) ((dats m 0 c).before 1 t d) (mState (XB m c) (t.val - 1)) = mState (XB m c) t.val := by
  funext j
  obtain ⟨r, rfl⟩ := idx_col j
  have h0 : ¬ t.val % 6 = 0 := by omega
  rw [masked_m_b (grid0.coords t) ((coords_tile t).trans h5), blkRowMasked_b m c t h5 d r, mState_next _ _ h0 r]
theorem stepC_l_b (c : Dev nD) (t : Fin cfg0.N) (h5 : t.val % 6 = 5) (d) :
    k0_pay16 (F := Ideal) (grid0.coords t) ((dats m 0 c).before 1 t d) (mState (XB m c) (t.val - 1)) (mState (XB m c) (t.val - 1)) (lState (XB m c) (t.val - 1))
      = lState (XB m c) t.val := by
  funext j
  obtain ⟨r, rfl⟩ := idx_col j
  have h0 : ¬ t.val % 6 = 0 := by omega
  rw [masked_l_b (grid0.coords t) ((coords_tile t).trans h5), blkRowMasked_b m c t h5 d r, lState_next _ _ h0 r]
theorem stepC_out_b (c : Dev nD) (t : Fin cfg0.N) (h5 : t.val % 6 = 5) :
    k0_pay22 (F := Ideal) (mState (XB m c) t.val) (lState (XB m c) t.val) = outState (XB m c) t.val := by
  funext j
  obtain ⟨r, rfl⟩ := idx_out j
  have e5 : tileOf t.val = 5 := h5
  rw [result_b]
  show stM (rowOf (XB m c) (exOf t.val) r) (tileOf t.val) + Ideal.log (stL (rowOf (XB m c) (exOf t.val) r) (tileOf t.val))
    = stM (rowOf (XB m c) (exOf t.val) r) 5 + Ideal.log (stL (rowOf (XB m c) (exOf t.val) r) 5)
  rw [e5]

end Cert.KernelIdeal.HandI

end
-- ==== Proof.KernelIdealExactBody.lean ====
import proofs.«403453_j14791867368156_3_alg».proof.Proof.KernelIdealPieces
import proofs.«403453_j14791867368156_3_alg».proof.Proof.KernelIdealSteps

/-!
# The body obligation over the extended reals, with every buffer's contents named

At each point the body is handed the four running buffers at the state the point before left (at an example's first
tile: at anything, the reset overwrites them) and the logit windows at their blocks, and hands the running buffers back
at this point's state; at an example's last tile it also leaves the two result buffers at that state's maximum plus the
logarithm of its sum. Elsewhere a result window is idle: its buffer is handed back untouched.
-/

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lse

local notation "𝕄" => MT nD τ sig Unit (Elt Ideal) ℕ (UR sig nD τ) ℕ

variable (m : (ℓ : Loc nD τ sig) → Buf (Elt Ideal) ℓ) (ρ : Dev nD → PrngReg)

/-! ## Where the result windows are idle -/

/-- Off an example's last tile the configuration calls the result windows idle, and nothing is written back; -/
theorem idleAt0_2 : ∀ t : Fin cfg0.N, ¬ t.val % 6 = 5 → cfg0.idle 2 (grid0.coords t) = true := by decide +kernel
theorem idleAt0_3 : ∀ t : Fin cfg0.N, ¬ t.val % 6 = 5 → cfg0.idle 3 (grid0.coords t) = true := by decide +kernel
theorem noFlush0_2 : ∀ t : Fin cfg0.N, ¬ t.val % 6 = 5 → (cfg0.win 2).flush t = false := by decide +kernel
theorem noFlush0_3 : ∀ t : Fin cfg0.N, ¬ t.val % 6 = 5 → (cfg0.win 3).flush t = false := by decide +kernel
/-- at the last tile they are live. -/
theorem liveAt0_2 : ∀ t : Fin cfg0.N, t.val % 6 = 5 → cfg0.idle 2 (grid0.coords t) = false := by decide +kernel
theorem liveAt0_3 : ∀ t : Fin cfg0.N, t.val % 6 = 5 → cfg0.idle 3 (grid0.coords t) = false := by decide +kernel

/-! ## The obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns: the logit windows on the part inside the array, the result windows exactly. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (dats m 0 c).leavesExact 2 t
    ∗ (dats m 0 c).leavesExact 3 t)

set_option maxHeartbeats 4000000 in
/-- The body at any point: by the tile, one of the three runs. The running buffers go in at the state the point
    before left (at a first tile: at anything) and come back at this point's state: what the run's stores leave is a
    payload of what it was handed, and that payload is one step of the recurrence. At a last tile the result buffers
    come back at the state's maximum plus the logarithm of its sum; elsewhere untouched. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h5 : t.val % 6 = 5
  ·
    have h0 : ¬ t.val % 6 = 0 := by omega
    have hz : t.val ≠ 0 := fun h => h0 (by rw [h])
    rw [show (dats m 0 c).leavesExact 2 t = owns (c : Thread nD τ) (ms0_2 t) fullShare ((dats m 0 c).after 2 t) from by
      unfold Dat.leavesExact; rw [liveAt0_2 t h5], after0_2]
    rw [show (dats m 0 c).leavesExact 3 t = owns (c : Thread nD τ) (ms0_3 t) fullShare ((dats m 0 c).after 3 t) from by
      unfold Dat.leavesExact; rw [liveAt0_3 t h5], after0_3]
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).2.2.2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    iintro ⟨H0, H1, ⟨%g2, H2⟩, ⟨%g3, H3⟩, ⟨%f0, HS0⟩, ⟨%f1, HS1⟩, ⟨%f2, HS2⟩, ⟨%f3, HS3⟩⟩
    isplitl [HS0 HS1 HS2 HS3 Hg]
    · isplitl [HS0 HS1 HS2 HS3]
      · isplitl [HS0]
        · unfold owns; iexists _; isplitr; swap; · iexact HS0
          ipureintro
          exact (View.read_writes_of_cover _ _ _ _ _ (scoverC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
            ((soutC_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans (stepC_m_a m c t h5 d0))
        isplitl [HS1]
        · unfold owns; iexists _; isplitr; swap; · iexact HS1
          ipureintro
          exact (View.read_writes_of_cover _ _ _ _ _ (scoverC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
            ((soutC_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans (stepC_l_a m c t h5 d0))
        isplitl [HS2]
        · unfold owns; iexists _; isplitr; swap; · iexact HS2
          ipureintro
          exact (View.read_writes_of_cover _ _ _ _ _ (scoverC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
            ((soutC_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans (stepC_m_b m c t h5 d1))
        unfold owns; iexists _; isplitr; swap; · iexact HS3
        ipureintro
        exact (View.read_writes_of_cover _ _ _ _ _ (scoverC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
          ((soutC_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans (stepC_l_b m c t h5 d1))
      iexact Hg
    isplitl [Ho]; · iexact Ho
    isplitl [H0]; · iexists _; rw [in0_back m c t d0]; iexact H0
    isplitl [H1]; · iexists _; rw [in1_back m c t d1]; iexact H1
    isplitl [H2]
    · unfold owns; iexists _; isplitr; swap; · iexact H2
      ipureintro
      refine (View.read_writes_of_cover _ _ _ _ _ (coverC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
        ((outC_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans ?_)
      rw [stepC_m_a m c t h5 d0, stepC_l_a m c t h5 d0]
      exact stepC_out_a m c t h5
    unfold owns; iexists _; isplitr; swap; · iexact H3
    ipureintro
    refine (View.read_writes_of_cover _ _ _ _ _ (coverC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1)))).trans
      ((outC_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) ((hcLast t).mpr h5) (fun h => ((hcRest t).mp h) h5) ((dats m 0 c).before 0 t d0) ((dats m 0 c).before 1 t d1) (mState (XA m c) (t.val - 1)) (lState (XA m c) (t.val - 1)) (mState (XB m c) (t.val - 1)) (lState (XB m c) (t.val - 1))).trans ?_)
    rw [stepC_m_b m c t h5 d1, stepC_l_b m c t h5 d1]
    exact stepC_out_b m c t h5
  · rw [Dat.leavesExact_idle (dats m 0 c) 2 t (idleAt0_2 t h5) (noFlush0_2 t h5)]
    rw [Dat.leavesExact_idle (dats m 0 c) 3 t (idleAt0_3 t h5) (noFlush0_3 t h5)]
    by_cases h0 : t.val % 6 = 0
    ·
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).2.2.2.2 ((dats m 0 c).before 2 t d2) ((dats m 0 c).before 3 t d3) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%f0, HS0⟩, ⟨%f1, HS1⟩, ⟨%f2, HS2⟩, ⟨%f3, HS3⟩⟩
        isplitl [HS0 HS1 HS2 HS3 Hg]
        · isplitl [HS0 HS1 HS2 HS3]
          · isplitl [HS0]
            · unfold owns; iexists _; isplitr; swap; · iexact HS0
              ipureintro
              exact (View.read_writes_of_cover _ _ _ _ _ (scoverA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_m_a m c t h0 d0))
            isplitl [HS1]
            · unfold owns; iexists _; isplitr; swap; · iexact HS1
              ipureintro
              exact (View.read_writes_of_cover _ _ _ _ _ (scoverA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_l_a m c t h0 d0))
            isplitl [HS2]
            · unfold owns; iexists _; isplitr; swap; · iexact HS2
              ipureintro
              exact (View.read_writes_of_cover _ _ _ _ _ (scoverA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_m_b m c t h0 d1))
            unfold owns; iexists _; isplitr; swap; · iexact HS3
            ipureintro
            exact (View.read_writes_of_cover _ _ _ _ _ (scoverA_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
              ((soutA_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_l_b m c t h0 d1))
          iexact Hg
        isplitl [Ho]; · iexact Ho
        isplitl [H0]; · iexists _; rw [in0_back m c t d0]; iexact H0
        isplitl [H1]; · iexists _; rw [in1_back m c t d1]; iexact H1
        isplitl [H2]; · iexists _; iexact H2
        iexists _; iexact H3
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).2.2.2.2 ((dats m 0 c).before 2 t d2) ((dats m 0 c).before 3 t d3) Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%f0, HS0⟩, ⟨%f1, HS1⟩, ⟨%f2, HS2⟩, ⟨%f3, HS3⟩⟩
        isplitl [HS0 HS1 HS2 HS3 Hg]
        · isplitl [HS0 HS1 HS2 HS3]
          · isplitl [HS0]
            · unfold owns; iexists _; isplitr; swap; · iexact HS0
              ipureintro
              exact (View.read_writes_of_cover _ _ _ _ _ (scoverA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_m_a m c t h0 d0))
            isplitl [HS1]
            · unfold owns; iexists _; isplitr; swap; · iexact HS1
              ipureintro
              exact (View.read_writes_of_cover _ _ _ _ _ (scoverA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_l_a m c t h0 d0))
            isplitl [HS2]
            · unfold owns; iexists _; isplitr; swap; · iexact HS2
              ipureintro
              exact (View.read_writes_of_cover _ _ _ _ _ (scoverA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
                ((soutA_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_m_b m c t h0 d1))
            unfold owns; iexists _; isplitr; swap; · iexact HS3
            ipureintro
            exact (View.read_writes_of_cover _ _ _ _ _ (scoverA_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1))).trans
              ((soutA_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcFirst t).mpr h0) (fun h => h5 ((hcLast t).mp h)) ((hcRest t).mpr h5) ((dats m 0 c).before 0 t d0) ((dats m 0 c).before 1 t d1)).trans (stepA_l_b m c t h0 d1))
          iexact Hg
        isplitl [Ho]; · iexact Ho
        isplitl [H0]; · iexists _; rw [in0_back m c t d0]; iexact H0
        isplitl [H1]; · iexists _; rw [in1_back m c t d1]; iexact H1
        isplitl [H2]; · iexists _; iexact H2
        iexists _; iexact H3
    ·
      have hz : t.val ≠ 0 := fun h => h0 (by rw [h])
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1))).2.2.2.2 ((dats m 0 c).before 2 t d2) ((dats m 0 c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]
          · unfold owns; iexists _; isplitr; swap; · iexact HS0
            ipureintro
            exact (View.read_writes_of_cover _ _ _ _ _ (scoverB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1)))).trans
              ((soutB_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1))).trans (stepB_m_a m c t h0 h5 d0))
          isplitl [HS1]
          · unfold owns; iexists _; isplitr; swap; · iexact HS1
            ipureintro
            exact (View.read_writes_of_cover _ _ _ _ _ (scoverB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1)))).trans
              ((soutB_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1))).trans (stepB_l_a m c t h0 h5 d0))
          isplitl [HS2]
          · unfold owns; iexists _; isplitr; swap; · iexact HS2
            ipureintro
            exact (View.read_writes_of_cover _ _ _ _ _ (scoverB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1)))).trans
              ((soutB_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1))).trans (stepB_m_b m c t h0 h5 d1))
          unfold owns; iexists _; isplitr; swap; · iexact HS3
          ipureintro
          exact (View.read_writes_of_cover _ _ _ _ _ (scoverB_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1)))).trans
            ((soutB_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcFirst t).mp h)) (fun h => h5 ((hcLast t).mp h)) ((hcRest t).mpr h5) ((dats m 0 c).before 0 t d0) ((dats m 0 c).before 1 t d1) (mState (XA m c) (t.val - 1)) (lState (XA m c) (t.val - 1)) (mState (XB m c) (t.val - 1)) (lState (XB m c) (t.val - 1))).trans (stepB_l_b m c t h0 h5 d1))
        iexact Hg
      isplitl [Ho]; · iexact Ho
      isplitl [H0]; · iexists _; rw [in0_back m c t d0]; iexact H0
      isplitl [H1]; · iexists _; rw [in1_back m c t d1]; iexact H1
      isplitl [H2]; · iexists _; iexact H2
      iexists _; iexact H3

/-- The library's body obligation (stated on the part inside the array for the two logit windows), at every point. -/
theorem body_obligation (c : Dev nD) :
    Pipeline.BodyObligationLoose (dats m 0 c) (defs₀ (F := Ideal)) Variants.none () Set.univ := fun t => by
  rw [bigSep_W0, bigSep_W0]
  exact sound_body m c t

end Cert.KernelIdeal.HandI

end
-- ==== Proof.KernelIdealFinal.lean ====
import proofs.«403453_j14791867368156_3_alg».proof.Proof.KernelIdealExactData
import Idealize.ShloMosaic.Lib.Pipeline.Value

/-!
# The two result arrays after the region

A result window's block is written back only at an example's last tile, and the eight blocks tile the `[8, 128, 1]`
array: it ends holding, entry by entry, the final state's maximum plus the logarithm of its sum for that example's row.
-/

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Lse

variable (m : (ℓ : Loc nD τ sig) → Buf (Elt Ideal) ℓ)

/-- A logit array's rows' final states, as one `[8, 128, 1]` array. -/
def lseArr (X : S8x128x50257.Idx → EReal) : S8x128x1.Idx → EReal :=
  fun j => stM (rowOf X ⟨(j 0).val, (j 0).isLt⟩ ⟨(j 1).val, (j 1).isLt⟩) 5
    + Ideal.log (stL (rowOf X ⟨(j 0).val, (j 0).isLt⟩ ⟨(j 1).val, (j 1).isLt⟩) 5)

/-- Result window one's block index at point `t` is `(t / 6, 0, 0)`: decided over the 48 points. -/
theorem idx_facts_a : ∀ t : Fin cfg0.N, win0_2.index t (0 : Fin 3) = t.val / 6 ∧ win0_2.index t (1 : Fin 3) = 0
    ∧ win0_2.index t (2 : Fin 3) = 0 :=
  (by decide +kernel : ∀ t : Fin grid0.N, win0_2.index t (0 : Fin 3) = t.val / 6 ∧ win0_2.index t (1 : Fin 3) = 0
    ∧ win0_2.index t (2 : Fin 3) = 0)

/-- What point `t` writes back is block `t` of `lseArr`: the block is example `t / 6`'s 128 rows, and the state the
    body left is that example's. -/
theorem flushed_a (c : Dev nD) (t : Fin cfg0.N) :
    (dats m 0 c).flushed 2 t = ((cfg0.win 2).blk t).view.read (Elt Ideal) (lseArr (XA m c)) := by
  show (cfg0.win 2).cut (grid0.coords t) ((dats m 0 c).after 2 t) = _
  rw [after0_2]
  obtain ⟨i0, i1, i2⟩ := idx_facts_a t
  have hN : t.val < 48 := t.isLt
  funext j
  have hj0 : (j 0).val < 1 := (j 0).isLt
  have hj1 : (j 1).val < 128 := (j 1).isLt
  show outState (XA m c) t.val (win0_2.xinj (grid0.coords t) j) = lseArr (XA m c) (((cfg0.win 2).blk t).view.emb j)
  unfold outState lseArr
  have e0 : exOf t.val = ⟨((((cfg0.win 2).blk t).view.emb j) 0).val, ((((cfg0.win 2).blk t).view.emb j) 0).isLt⟩ :=
    Fin.ext (by show t.val / 6 % 8 = win0_2.index t (0 : Fin 3) * 1 + 1 * (j 0).val; omega)
  have e1 : rowIx3 (win0_2.xinj (grid0.coords t) j)
      = ⟨((((cfg0.win 2).blk t).view.emb j) 1).val, ((((cfg0.win 2).blk t).view.emb j) 1).isLt⟩ :=
    Fin.ext (by show (j 1).val = win0_2.index t (1 : Fin 3) * 128 + 1 * (j 1).val; omega)
  rw [e0, e1]

/-- An index of the array is in point `t`'s block iff each coordinate is in the block's range on its axis. -/
theorem mem_blk_a (t : Fin cfg0.N) (i : S8x128x1.Idx) :
    i ∈ ((cfg0.win 2).blk t).view.set ↔ ∀ a : Fin 3, win0_2.index t a * S1x128x1.size a ≤ (i a).val
      ∧ (i a).val < win0_2.index t a * S1x128x1.size a + S1x128x1.size a := by
  show i ∈ ((View.whole main_v10_0).slice (win0_2.rect t)).set ↔ _
  rw [View.set_slice_whole, Rect.mem_set_unit]
  exact Iff.rfl

/-- Every index of the array is in the block of its example's last tile, which is written back. -/
theorem cover_a (i : S8x128x1.Idx) :
    ∃ t : Fin cfg0.N, (cfg0.win 2).flush t = true ∧ i ∈ ((cfg0.win 2).blk t).view.set := by
  have h0 : (i 0).val < 8 := (i 0).isLt
  have h1 : (i 1).val < 128 := (i 1).isLt
  have h2 : (i 2).val < 1 := (i 2).isLt
  have hlt : 6 * (i 0).val + 5 < cfg0.N := by show _ < grid0.N; rw [N_0]; omega
  refine ⟨⟨6 * (i 0).val + 5, hlt⟩, (flush0_2 _).mpr (by show (6 * (i 0).val + 5) % 6 = 5; omega), ?_⟩
  rw [mem_blk_a]
  obtain ⟨i0, i1, i2⟩ := idx_facts_a ⟨6 * (i 0).val + 5, hlt⟩
  have i0' : win0_2.index ⟨6 * (i 0).val + 5, hlt⟩ (0 : Fin 3) = (6 * (i 0).val + 5) / 6 := i0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 128 ≤ (i 1).val ∧ (i 1).val < win0_2.index _ (1 : Fin 3) * 128 + 128; omega
  | ⟨2, _⟩ => show win0_2.index _ (2 : Fin 3) * 1 ≤ (i 2).val ∧ (i 2).val < win0_2.index _ (2 : Fin 3) * 1 + 1; omega

theorem final_a (c : Dev nD) : (dats m 0 c).arrAt 2 cfg0.N = lseArr (XA m c) :=
  (dats m 0 c).arrAt_eq_of_cover 2 (lseArr (XA m c)) (fun t _ => flushed_a m c t) cover_a

/-- Result window two's block index at point `t` is `(t / 6, 0, 0)`: decided over the 48 points. -/
theorem idx_facts_b : ∀ t : Fin cfg0.N, win0_3.index t (0 : Fin 3) = t.val / 6 ∧ win0_3.index t (1 : Fin 3) = 0
    ∧ win0_3.index t (2 : Fin 3) = 0 :=
  (by decide +kernel : ∀ t : Fin grid0.N, win0_3.index t (0 : Fin 3) = t.val / 6 ∧ win0_3.index t (1 : Fin 3) = 0
    ∧ win0_3.index t (2 : Fin 3) = 0)

/-- What point `t` writes back is block `t` of `lseArr`: the block is example `t / 6`'s 128 rows, and the state the
    body left is that example's. -/
theorem flushed_b (c : Dev nD) (t : Fin cfg0.N) :
    (dats m 0 c).flushed 3 t = ((cfg0.win 3).blk t).view.read (Elt Ideal) (lseArr (XB m c)) := by
  show (cfg0.win 3).cut (grid0.coords t) ((dats m 0 c).after 3 t) = _
  rw [after0_3]
  obtain ⟨i0, i1, i2⟩ := idx_facts_b t
  have hN : t.val < 48 := t.isLt
  funext j
  have hj0 : (j 0).val < 1 := (j 0).isLt
  have hj1 : (j 1).val < 128 := (j 1).isLt
  show outState (XB m c) t.val (win0_3.xinj (grid0.coords t) j) = lseArr (XB m c) (((cfg0.win 3).blk t).view.emb j)
  unfold outState lseArr
  have e0 : exOf t.val = ⟨((((cfg0.win 3).blk t).view.emb j) 0).val, ((((cfg0.win 3).blk t).view.emb j) 0).isLt⟩ :=
    Fin.ext (by show t.val / 6 % 8 = win0_3.index t (0 : Fin 3) * 1 + 1 * (j 0).val; omega)
  have e1 : rowIx3 (win0_3.xinj (grid0.coords t) j)
      = ⟨((((cfg0.win 3).blk t).view.emb j) 1).val, ((((cfg0.win 3).blk t).view.emb j) 1).isLt⟩ :=
    Fin.ext (by show (j 1).val = win0_3.index t (1 : Fin 3) * 128 + 1 * (j 1).val; omega)
  rw [e0, e1]

/-- An index of the array is in point `t`'s block iff each coordinate is in the block's range on its axis. -/
theorem mem_blk_b (t : Fin cfg0.N) (i : S8x128x1.Idx) :
    i ∈ ((cfg0.win 3).blk t).view.set ↔ ∀ a : Fin 3, win0_3.index t a * S1x128x1.size a ≤ (i a).val
      ∧ (i a).val < win0_3.index t a * S1x128x1.size a + S1x128x1.size a := by
  show i ∈ ((View.whole main_v10_1).slice (win0_3.rect t)).set ↔ _
  rw [View.set_slice_whole, Rect.mem_set_unit]
  exact Iff.rfl

/-- Every index of the array is in the block of its example's last tile, which is written back. -/
theorem cover_b (i : S8x128x1.Idx) :
    ∃ t : Fin cfg0.N, (cfg0.win 3).flush t = true ∧ i ∈ ((cfg0.win 3).blk t).view.set := by
  have h0 : (i 0).val < 8 := (i 0).isLt
  have h1 : (i 1).val < 128 := (i 1).isLt
  have h2 : (i 2).val < 1 := (i 2).isLt
  have hlt : 6 * (i 0).val + 5 < cfg0.N := by show _ < grid0.N; rw [N_0]; omega
  refine ⟨⟨6 * (i 0).val + 5, hlt⟩, (flush0_3 _).mpr (by show (6 * (i 0).val + 5) % 6 = 5; omega), ?_⟩
  rw [mem_blk_b]
  obtain ⟨i0, i1, i2⟩ := idx_facts_b ⟨6 * (i 0).val + 5, hlt⟩
  have i0' : win0_3.index ⟨6 * (i 0).val + 5, hlt⟩ (0 : Fin 3) = (6 * (i 0).val + 5) / 6 := i0
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 128 ≤ (i 1).val ∧ (i 1).val < win0_3.index _ (1 : Fin 3) * 128 + 128; omega
  | ⟨2, _⟩ => show win0_3.index _ (2 : Fin 3) * 1 ≤ (i 2).val ∧ (i 2).val < win0_3.index _ (2 : Fin 3) * 1 + 1; omega

theorem final_b (c : Dev nD) : (dats m 0 c).arrAt 3 cfg0.N = lseArr (XB m c) :=
  (dats m 0 c).arrAt_eq_of_cover 3 (lseArr (XB m c)) (fun t _ => flushed_b m c t) cover_b

end Cert.KernelIdeal.HandI

end
-- ==== Proof.KernelHost.lean ====
import proofs.«403453_j14791867368156_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Frame
import Idealize.ShloMosaic.Lib.KernelVsHost
import Idealize.ShloMosaic.PureOps.Ideal.Laws
import proofs.«403453_j14791867368156_3_alg».proof.Proof.HostSpec

/-!
# The host side of the program, read at an index

Before the region the program shifts each example's targets one position to the left, fills the last position with
the ignored word `-100`, and forms the mask "not ignored" and the targets with the ignored word replaced by `0`.
After the region it takes, per position, the row's entry the target names (or the fill value when the target is out
of range), subtracts the row's log-sum-exp, weights by the mask, sums over the positions and divides by the sum of
the mask; a tail of scalar and eight-vector operations turns the two score vectors into the six results.
-/

set_option maxRecDepth 8192

noncomputable section

namespace Cert.KernelIdeal.HandHost

open Idealize.ShloMosaic Idealize.ShloMosaic.TcCoe Idealize.ShloMosaic.ValueIdx
open Cert.KernelIdeal Cert.KernelIdeal.Gen

/-! ## The shifted targets, their mask and their safe form, as vectors -/

/-- The targets shifted one position to the left, the last position filled with the ignored word. -/
def padT (T : IVec S8x128 32) : IVec S8x128 32 :=
  pad S8x128 ![0, 0] ![0, 1] ![0, 0] (extractStridedSlice S8x127 ![0, 1] T slices_S8x128_S8x127_0_1)
    (constantI S_ 32 4294967196#32) pads_S8x127_S8x128_000_010 h_S_

/-- The mask "the shifted target is not the ignored word". -/
def maskT (T : IVec S8x128 32) : IVec S8x128 1 :=
  cmpi .ne (padT T) (broadcastInDim S8x128 ![] bcast_S_S8x128 (constantI S_ 32 4294967196#32))

/-- The shifted targets with the ignored word replaced by `0`. -/
def safeT (T : IVec S8x128 32) : IVec S8x128 32 :=
  select (maskT T) (padT T) (broadcastInDim S8x128 ![] bcast_S_S8x128 (constantI S_ 32 0#32))

/-- The shifted target of example `b` at position `r`. -/
def tS (T : IVec S8x128 32) (b : Fin 8) (r : Fin 128) : BitVec 32 :=
  if h : r.val < 127 then T (ix2 b ⟨r.val + 1, by omega⟩) else Cert.Host.ignoreW

theorem padT_apply (T : IVec S8x128 32) (b : Fin 8) (r : Fin 128) : padT T (ix2 b r) = tS T b r := by
  unfold padT tS
  by_cases h : r.val < 127
  · rw [dif_pos h]
    refine (pad_apply_of_inside _ _ _ _ _ _ _ (ix2 b r) (ix2 b (⟨r.val, h⟩ : Fin 127)) (fun a => by
      match a with
      | ⟨0, _⟩ => show b.val = 0 + b.val * (0 + 1); omega
      | ⟨1, _⟩ => show r.val = 0 + r.val * (0 + 1); omega)).trans ?_
    exact slice2_axis1_apply 1 T _ b ⟨r.val, h⟩ ⟨r.val + 1, by omega⟩ (by show r.val + 1 = 1 + r.val; omega)
  · rw [dif_neg h]
    refine (pad_apply_of_not_inside _ _ _ _ _ _ _ (ix2 b r) (⟨1, by decide⟩ : Fin S8x127.rank) (fun hin => ?_)).trans rfl
    have h3 : (r.val - 0) / (0 + 1) < 127 := hin.2.2
    omega

theorem maskT_apply (T : IVec S8x128 32) (b : Fin 8) (r : Fin 128) :
    maskT T (ix2 b r) = if Cert.Host.keep (tS T b r) then 1#1 else 0#1 := by
  have h : maskT T (ix2 b r) = IntOp.cmpi .ne (padT T (ix2 b r)) 4294967196#32 := rfl
  rw [h, padT_apply]
  unfold Cert.Host.keep IntOp.cmpi
  by_cases e : tS T b r = 4294967196#32
  · have hb : (tS T b r != 4294967196#32) = false := by rw [e]; rfl
    have hd : decide (tS T b r ≠ Cert.Host.ignoreW) = false := decide_eq_false (not_not.mpr e)
    rw [hb, hd]; rfl
  · have hb : (tS T b r != 4294967196#32) = true := bne_iff_ne.mpr e
    have hd : decide (tS T b r ≠ Cert.Host.ignoreW) = true := decide_eq_true e
    rw [hb, hd]; rfl

theorem safeT_apply (T : IVec S8x128 32) (b : Fin 8) (r : Fin 128) :
    safeT T (ix2 b r) = Cert.Host.safe (tS T b r) := by
  have h : safeT T (ix2 b r) = Scalar.select (maskT T (ix2 b r)) (padT T (ix2 b r)) 0#32 := rfl
  rw [h, maskT_apply, padT_apply]
  unfold Cert.Host.safe
  by_cases k : Cert.Host.keep (tS T b r) = true
  · rw [if_pos k, if_pos k, select_one]
  · rw [if_neg k, if_neg k, select_zero]

/-! ## The host operations before the region, read back -/

/-- The eight stretches of host operations before the region. -/
abbrev prefixOps : List (List (HloOp τ sig (Elt Ideal))) :=
  [hostOps0, hostOps0_1, hostOps0_2, hostOps0_3, hostOps0_4, hostOps0_5, hostOps0_6, hostOps0_7]

/-- The buffers' contents when the region is entered. -/
def W₀ (M : Valuation τ sig (Elt Ideal)) : Valuation τ sig (Elt Ideal) :=
  StableHlo.after (List.flatten prefixOps) M

theorem W₀_v4 (M : Valuation τ sig (Elt Ideal)) :
    W₀ M (Proc.devRef .tc main_v4) = safeT (M (Proc.devRef .tc main_arg1)) := by
  show StableHlo.after _ _ (Proc.devRef .tc main_v4) = _
  simp only [prefixOps, hostOps0, hostOps0_1, hostOps0_2, hostOps0_3, hostOps0_4, hostOps0_5, hostOps0_6, hostOps0_7,
    List.flatten_cons, List.flatten_nil, List.append_nil, List.cons_append, List.nil_append]
  after_results
  rfl

theorem W₀_v3 (M : Valuation τ sig (Elt Ideal)) :
    W₀ M (Proc.devRef .tc main_v3) = maskT (M (Proc.devRef .tc main_arg1)) := by
  show StableHlo.after _ _ (Proc.devRef .tc main_v3) = _
  simp only [prefixOps, hostOps0, hostOps0_1, hostOps0_2, hostOps0_3, hostOps0_4, hostOps0_5, hostOps0_6, hostOps0_7,
    List.flatten_cons, List.flatten_nil, List.append_nil, List.cons_append, List.nil_append]
  after_results
  rfl

theorem W₀_v9 (M : Valuation τ sig (Elt Ideal)) :
    W₀ M (Proc.devRef .tc main_v9) = safeT (M (Proc.devRef .tc main_arg3)) := by
  show StableHlo.after _ _ (Proc.devRef .tc main_v9) = _
  simp only [prefixOps, hostOps0, hostOps0_1, hostOps0_2, hostOps0_3, hostOps0_4, hostOps0_5, hostOps0_6, hostOps0_7,
    List.flatten_cons, List.flatten_nil, List.append_nil, List.cons_append, List.nil_append]
  after_results
  rfl

theorem W₀_v8 (M : Valuation τ sig (Elt Ideal)) :
    W₀ M (Proc.devRef .tc main_v8) = maskT (M (Proc.devRef .tc main_arg3)) := by
  show StableHlo.after _ _ (Proc.devRef .tc main_v8) = _
  simp only [prefixOps, hostOps0, hostOps0_1, hostOps0_2, hostOps0_3, hostOps0_4, hostOps0_5, hostOps0_6, hostOps0_7,
    List.flatten_cons, List.flatten_nil, List.append_nil, List.cons_append, List.nil_append]
  after_results
  rfl

/-- No operation before the region writes an argument. -/
theorem W₀_arg0 (M : Valuation τ sig (Elt Ideal)) : W₀ M (Proc.devRef .tc main_arg0) = M (Proc.devRef .tc main_arg0) := by
  show StableHlo.after _ _ (Proc.devRef .tc main_arg0) = _
  simp only [prefixOps, hostOps0, hostOps0_1, hostOps0_2, hostOps0_3, hostOps0_4, hostOps0_5, hostOps0_6, hostOps0_7,
    List.flatten_cons, List.flatten_nil, List.append_nil, List.cons_append, List.nil_append]
  after_results

theorem W₀_arg1 (M : Valuation τ sig (Elt Ideal)) : W₀ M (Proc.devRef .tc main_arg1) = M (Proc.devRef .tc main_arg1) := by
  show StableHlo.after _ _ (Proc.devRef .tc main_arg1) = _
  simp only [prefixOps, hostOps0, hostOps0_1, hostOps0_2, hostOps0_3, hostOps0_4, hostOps0_5, hostOps0_6, hostOps0_7,
    List.flatten_cons, List.flatten_nil, List.append_nil, List.cons_append, List.nil_append]
  after_results

theorem W₀_arg2 (M : Valuation τ sig (Elt Ideal)) : W₀ M (Proc.devRef .tc main_arg2) = M (Proc.devRef .tc main_arg2) := by
  show StableHlo.after _ _ (Proc.devRef .tc main_arg2) = _
  simp only [prefixOps, hostOps0, hostOps0_1, hostOps0_2, hostOps0_3, hostOps0_4, hostOps0_5, hostOps0_6, hostOps0_7,
    List.flatten_cons, List.flatten_nil, List.append_nil, List.cons_append, List.nil_append]
  after_results

theorem W₀_arg3 (M : Valuation τ sig (Elt Ideal)) : W₀ M (Proc.devRef .tc main_arg3) = M (Proc.devRef .tc main_arg3) := by
  show StableHlo.after _ _ (Proc.devRef .tc main_arg3) = _
  simp only [prefixOps, hostOps0, hostOps0_1, hostOps0_2, hostOps0_3, hostOps0_4, hostOps0_5, hostOps0_6, hostOps0_7,
    List.flatten_cons, List.flatten_nil, List.append_nil, List.cons_append, List.nil_append]
  after_results

/-- The safe shifted targets of the first target array, at an index. -/
theorem W₀_v4_apply (M : Valuation τ sig (Elt Ideal)) (b : Fin 8) (r : Fin 128) :
    W₀ M (Proc.devRef .tc main_v4) (ix2 b r) = Cert.Host.safe (tS (M (Proc.devRef .tc main_arg1)) b r) := by
  rw [W₀_v4]; exact safeT_apply _ b r

theorem W₀_v3_apply (M : Valuation τ sig (Elt Ideal)) (b : Fin 8) (r : Fin 128) :
    W₀ M (Proc.devRef .tc main_v3) (ix2 b r)
      = if Cert.Host.keep (tS (M (Proc.devRef .tc main_arg1)) b r) then 1#1 else 0#1 := by
  rw [W₀_v3]; exact maskT_apply _ b r

theorem W₀_v9_apply (M : Valuation τ sig (Elt Ideal)) (b : Fin 8) (r : Fin 128) :
    W₀ M (Proc.devRef .tc main_v9) (ix2 b r) = Cert.Host.safe (tS (M (Proc.devRef .tc main_arg3)) b r) := by
  rw [W₀_v9]; exact safeT_apply _ b r

theorem W₀_v8_apply (M : Valuation τ sig (Elt Ideal)) (b : Fin 8) (r : Fin 128) :
    W₀ M (Proc.devRef .tc main_v8) (ix2 b r)
      = if Cert.Host.keep (tS (M (Proc.devRef .tc main_arg3)) b r) then 1#1 else 0#1 := by
  rw [W₀_v8]; exact maskT_apply _ b r

/-! ## The take along the last axis, as vectors -/

/-- The program's gather record: batch axes `0, 1` on both sides, the start index names axis `2`, every slice of size one. -/
abbrev gd : GatherDims S8x128x50257 S8x128x1x1 S8x128x1 := gather_S8x128x50257_S8x128x1x1_S8x128x1_n_2_01_01_2_3_111

/-- The targets as a column. -/
def col3 (S : IVec S8x128 32) : IVec S8x128x1 32 := broadcastInDim S8x128x1 ![0, 1] bcast_S8x128_S8x128x1_0_1 S

/-- A negative target counted from the row's end. -/
def wrap3 (S : IVec S8x128 32) : IVec S8x128x1 32 :=
  select (cmpi .slt (col3 S) (broadcastInDim S8x128x1 ![] bcast_S_S8x128x1 (constantI S_ 32 0#32)))
    (addi (col3 S) (broadcastInDim S8x128x1 ![] bcast_S_S8x128x1 (constantI S_ 32 50257#32))) (col3 S)

/-- The same with one more unit axis: the start indices of the gather. -/
def wrap4 (S : IVec S8x128 32) : IVec S8x128x1x1 32 := shapeCast S8x128x1x1 (wrap3 S) shapeCasts_S8x128x1_S8x128x1x1

/-- "The start index lies in the row". -/
def inb4 (S : IVec S8x128 32) : IVec S8x128x1x1 1 :=
  andi (cmpi .sge (wrap4 S) (broadcastInDim S8x128x1x1 ![] bcast_S_S8x128x1x1 (constantI S_ 32 0#32)))
    (cmpi .sle (wrap4 S) (broadcastInDim S8x128x1x1 ![0, 1, 2, 3] bcast_S1x1x1x1_S8x128x1x1_0_1_2_3
      (broadcastInDim S1x1x1x1 ![3] bcast_S1_S1x1x1x1_3 (constantI S1 32 50256#32))))

/-- The same, the unit axis folded away by `and` from `1`. -/
def inb3 (S : IVec S8x128 32) : IVec S8x128x1 1 :=
  Host.reduce IntOp.andi (inb4 S) (constantI S_ 1 1#1) reducesTo_S8x128x1x1_S8x128x1_d3 h_S_

/-- The entry each target names in its row, or the fill value when the target is out of range. -/
def takeT (X : FVec Ideal S8x128x50257 .f32) (S : IVec S8x128 32) : FVec Ideal S8x128x1 .f32 :=
  select (inb3 S) (Host.gather gd X (wrap4 S))
    (broadcastInDim S8x128x1 ![] bcast_S_S8x128x1 (constant (F := Ideal) S_ .f32 0x7FC00000#32))

/-- One example's score: the masked sum of (taken entry minus log-sum-exp) over the sum of the mask. -/
def scoreV (g l : FVec Ideal S8x128 .f32) (m : IVec S8x128 1) : FVec Ideal S8 .f32 :=
  Host.divf
    (Host.reduceAdd (mulf (subf g l) (uitofp (F := Ideal) .f32 m)) (constant (F := Ideal) S_ .f32 0x00000000#32) reducesTo_S8x128_S8_d1 h_S_)
    (Host.reduceAdd (uitofp (F := Ideal) .f32 m) (constant (F := Ideal) S_ .f32 0x00000000#32) reducesTo_S8x128_S8_d1 h_S_)

/-- The score vector from the logits `X`, the safe targets `S`, the log-sum-exps `L` and the mask `m`. -/
def scoreW (X : FVec Ideal S8x128x50257 .f32) (S : IVec S8x128 32) (L : FVec Ideal S8x128x1 .f32) (m : IVec S8x128 1) :
    FVec Ideal S8 .f32 :=
  scoreV (shapeCast S8x128 (takeT X S) shapeCasts_S8x128x1_S8x128) (shapeCast S8x128 L shapeCasts_S8x128x1_S8x128) m

/-! ## The common tail -/

/-- The tail shared with the reference, from the two score vectors `a` and `s`: the sum of the two batch-mean
    divergences, the mean of `a`, the mean of `s`, and the fraction of examples with `s > a`. -/
def tailK (a s : FVec Ideal S8 .f32) :
    FVec Ideal S_ .f32 × FVec Ideal S_ .f32 × FVec Ideal S_ .f32 × FVec Ideal S_ .f32 :=
  ( addf
      (Host.divf (Host.reduceAdd (mulf (Host.exp s) (subf s a)) (constant (F := Ideal) S_ .f32 0x00000000#32) reducesTo_S8_S_d0 h_S_)
        (constant (F := Ideal) S_ .f32 0x41000000#32))
      (Host.divf (Host.reduceAdd (mulf (Host.exp a) (subf a s)) (constant (F := Ideal) S_ .f32 0x00000000#32) reducesTo_S8_S_d0 h_S_)
        (constant (F := Ideal) S_ .f32 0x41000000#32)),
    Host.divf (Host.reduceAdd a (constant (F := Ideal) S_ .f32 0x00000000#32) reducesTo_S8_S_d0 h_S_)
      (constant (F := Ideal) S_ .f32 0x41000000#32),
    Host.divf (Host.reduceAdd s (constant (F := Ideal) S_ .f32 0x00000000#32) reducesTo_S8_S_d0 h_S_)
      (constant (F := Ideal) S_ .f32 0x41000000#32),
    Host.divf (Host.reduceAdd (uitofp (F := Ideal) .f32 (cmpf .ogt s a)) (constant (F := Ideal) S_ .f32 0x00000000#32) reducesTo_S8_S_d0 h_S_)
      (constant (F := Ideal) S_ .f32 0x41000000#32) )

/-! ## The host operations after the region, read back stretch by stretch -/

/-- The first two stretches: the log-sum-exps reshaped, the first take. -/
abbrev opsA : List (HloOp τ sig (Elt Ideal)) := hostOps1 ++ hostOps1_1
/-- The next two: the second take. -/
abbrev opsB : List (HloOp τ sig (Elt Ideal)) := hostOps1_2 ++ hostOps1_3

theorem A_v14 (W : Valuation τ sig (Elt Ideal)) : StableHlo.after opsA W (Proc.devRef .tc main_v14)
    = takeT (W (Proc.devRef .tc main_arg0)) (W (Proc.devRef .tc main_v4)) := by
  simp only [opsA, hostOps1, hostOps1_1, List.append_nil, List.cons_append, List.nil_append]
  after_results_simp
  rfl

theorem A_v11 (W : Valuation τ sig (Elt Ideal)) : StableHlo.after opsA W (Proc.devRef .tc main_v11)
    = shapeCast S8x128 (W (Proc.devRef .tc main_v10_0)) shapeCasts_S8x128x1_S8x128 := by
  simp only [opsA, hostOps1, hostOps1_1, List.append_nil, List.cons_append, List.nil_append]
  after_results_simp
  rfl

theorem A_v12 (W : Valuation τ sig (Elt Ideal)) : StableHlo.after opsA W (Proc.devRef .tc main_v12)
    = shapeCast S8x128 (W (Proc.devRef .tc main_v10_1)) shapeCasts_S8x128x1_S8x128 := by
  simp only [opsA, hostOps1, hostOps1_1, List.append_nil, List.cons_append, List.nil_append]
  after_results_simp
  rfl

theorem A_arg2 (W : Valuation τ sig (Elt Ideal)) : StableHlo.after opsA W (Proc.devRef .tc main_arg2) = W (Proc.devRef .tc main_arg2) := by
  simp only [opsA, hostOps1, hostOps1_1, List.append_nil, List.cons_append, List.nil_append]
  after_results_simp

theorem A_v9 (W : Valuation τ sig (Elt Ideal)) : StableHlo.after opsA W (Proc.devRef .tc main_v9) = W (Proc.devRef .tc main_v9) := by
  simp only [opsA, hostOps1, hostOps1_1, List.append_nil, List.cons_append, List.nil_append]
  after_results_simp

theorem A_v3 (W : Valuation τ sig (Elt Ideal)) : StableHlo.after opsA W (Proc.devRef .tc main_v3) = W (Proc.devRef .tc main_v3) := by
  simp only [opsA, hostOps1, hostOps1_1, List.append_nil, List.cons_append, List.nil_append]
  after_results_simp

theorem A_v8 (W : Valuation τ sig (Elt Ideal)) : StableHlo.after opsA W (Proc.devRef .tc main_v8) = W (Proc.devRef .tc main_v8) := by
  simp only [opsA, hostOps1, hostOps1_1, List.append_nil, List.cons_append, List.nil_append]
  after_results_simp

theorem B_v15 (V : Valuation τ sig (Elt Ideal)) : StableHlo.after opsB V (Proc.devRef .tc main_v15)
    = shapeCast S8x128 (V (Proc.devRef .tc main_v14)) shapeCasts_S8x128x1_S8x128 := by
  simp only [opsB, hostOps1_2, hostOps1_3, List.append_nil, List.cons_append, List.nil_append]
  after_results_simp
  rfl

theorem B_v17 (V : Valuation τ sig (Elt Ideal)) : StableHlo.after opsB V (Proc.devRef .tc main_v17)
    = takeT (V (Proc.devRef .tc main_arg2)) (V (Proc.devRef .tc main_v9)) := by
  simp only [opsB, hostOps1_2, hostOps1_3, List.append_nil, List.cons_append, List.nil_append]
  after_results_simp
  rfl

theorem B_v11 (V : Valuation τ sig (Elt Ideal)) : StableHlo.after opsB V (Proc.devRef .tc main_v11) = V (Proc.devRef .tc main_v11) := by
  simp only [opsB, hostOps1_2, hostOps1_3, List.append_nil, List.cons_append, List.nil_append]
  after_results_simp

theorem B_v12 (V : Valuation τ sig (Elt Ideal)) : StableHlo.after opsB V (Proc.devRef .tc main_v12) = V (Proc.devRef .tc main_v12) := by
  simp only [opsB, hostOps1_2, hostOps1_3, List.append_nil, List.cons_append, List.nil_append]
  after_results_simp

theorem B_v3 (V : Valuation τ sig (Elt Ideal)) : StableHlo.after opsB V (Proc.devRef .tc main_v3) = V (Proc.devRef .tc main_v3) := by
  simp only [opsB, hostOps1_2, hostOps1_3, List.append_nil, List.cons_append, List.nil_append]
  after_results_simp

theorem B_v8 (V : Valuation τ sig (Elt Ideal)) : StableHlo.after opsB V (Proc.devRef .tc main_v8) = V (Proc.devRef .tc main_v8) := by
  simp only [opsB, hostOps1_2, hostOps1_3, List.append_nil, List.cons_append, List.nil_append]
  after_results_simp

/-- The first score vector as the last stretch computes it. -/
def aOf (V : Valuation τ sig (Elt Ideal)) : FVec Ideal S8 .f32 :=
  scoreV (V (Proc.devRef .tc main_v15)) (V (Proc.devRef .tc main_v11)) (V (Proc.devRef .tc main_v3))
/-- The second. -/
def sOf (V : Valuation τ sig (Elt Ideal)) : FVec Ideal S8 .f32 :=
  scoreV (shapeCast S8x128 (V (Proc.devRef .tc main_v17)) shapeCasts_S8x128x1_S8x128) (V (Proc.devRef .tc main_v12))
    (V (Proc.devRef .tc main_v8))

theorem C_v25 (V : Valuation τ sig (Elt Ideal)) : StableHlo.after hostOps1_4 V (Proc.devRef .tc main_v25) = aOf V := by
  simp only [hostOps1_4]
  after_results_simp
  rfl

theorem C_v30 (V : Valuation τ sig (Elt Ideal)) : StableHlo.after hostOps1_4 V (Proc.devRef .tc main_v30) = sOf V := by
  simp only [hostOps1_4]
  after_results_simp
  rfl

theorem C_v41 (V : Valuation τ sig (Elt Ideal)) : StableHlo.after hostOps1_4 V (Proc.devRef .tc main_v41) = (tailK (aOf V) (sOf V)).1 := by
  simp only [hostOps1_4]
  after_results_simp
  rfl

theorem C_v47 (V : Valuation τ sig (Elt Ideal)) : StableHlo.after hostOps1_4 V (Proc.devRef .tc main_v47) = (tailK (aOf V) (sOf V)).2.1 := by
  simp only [hostOps1_4]
  after_results_simp
  rfl

theorem C_v49 (V : Valuation τ sig (Elt Ideal)) : StableHlo.after hostOps1_4 V (Proc.devRef .tc main_v49) = (tailK (aOf V) (sOf V)).2.2.1 := by
  simp only [hostOps1_4]
  after_results_simp
  rfl

theorem C_v45 (V : Valuation τ sig (Elt Ideal)) : StableHlo.after hostOps1_4 V (Proc.devRef .tc main_v45) = (tailK (aOf V) (sOf V)).2.2.2 := by
  simp only [hostOps1_4]
  after_results_simp
  rfl

/-! ## The take read at an index -/

/-- Row `r` of example `b`. -/
def rowOf (X : FVec Ideal S8x128x50257 .f32) (b : Fin 8) (r : Fin 128) : Fin 50257 → EReal := fun k => X (ix3 b r k)

/-- The start-indices index a result index reads: its batch coordinates, `0` on the index vector's axis. -/
theorem g_siIdx (b : Fin 8) (r : Fin 128) (c : Fin gd.startIndexMap.length) :
    gd.siIdx (ix3 b r (0 : Fin 1)) c = ix4 b r (0 : Fin 1) (0 : Fin 1) := by
  have hc : c.val = 0 := by have := c.isLt; have h1 : gd.startIndexMap.length = 1 := rfl; omega
  funext a; refine Fin.ext ?_
  match a with
  | ⟨0, _⟩ => rfl
  | ⟨1, _⟩ => rfl
  | ⟨2, _⟩ => rfl
  | ⟨3, _⟩ => exact hc

/-- The operand index the gather reads at `(b, r, 0)`: the batch coordinates and the start index read signed and
    clamped into the row. -/
theorem g_idx (b : Fin 8) (r : Fin 128) (idx : IVec S8x128x1x1 32) (w : BitVec 32)
    (hw : idx (ix4 b r (0 : Fin 1) (0 : Fin 1)) = w) :
    gd.operandIdx (ix3 b r (0 : Fin 1)) idx = ix3 b r (⟨min w.toInt.toNat 50256, by omega⟩ : Fin 50257) := by
  subst hw
  funext a; refine Fin.ext ?_
  match a with
  | ⟨0, h0⟩ =>
    show gd.start (ix3 b r (0 : Fin 1)) idx ⟨0, h0⟩ + gd.batchCoord (ix3 b r (0 : Fin 1)) ⟨0, h0⟩
      + gd.offCoord (ix3 b r (0 : Fin 1)) ⟨0, h0⟩ = b.val
    have hs : gd.start (ix3 b r (0 : Fin 1)) idx ⟨0, h0⟩ = 0 := rfl
    have hb : gd.batchCoord (ix3 b r (0 : Fin 1)) ⟨0, h0⟩ = b.val := rfl
    have ho : gd.offCoord (ix3 b r (0 : Fin 1)) ⟨0, h0⟩ = 0 := rfl
    rw [hs, hb, ho]; omega
  | ⟨1, h1⟩ =>
    show gd.start (ix3 b r (0 : Fin 1)) idx ⟨1, h1⟩ + gd.batchCoord (ix3 b r (0 : Fin 1)) ⟨1, h1⟩
      + gd.offCoord (ix3 b r (0 : Fin 1)) ⟨1, h1⟩ = r.val
    have hs : gd.start (ix3 b r (0 : Fin 1)) idx ⟨1, h1⟩ = 0 := rfl
    have hb : gd.batchCoord (ix3 b r (0 : Fin 1)) ⟨1, h1⟩ = r.val := rfl
    have ho : gd.offCoord (ix3 b r (0 : Fin 1)) ⟨1, h1⟩ = 0 := rfl
    rw [hs, hb, ho]; omega
  | ⟨2, h2⟩ =>
    show gd.start (ix3 b r (0 : Fin 1)) idx ⟨2, h2⟩ + gd.batchCoord (ix3 b r (0 : Fin 1)) ⟨2, h2⟩
      + gd.offCoord (ix3 b r (0 : Fin 1)) ⟨2, h2⟩ = _
    have hb : gd.batchCoord (ix3 b r (0 : Fin 1)) ⟨2, h2⟩ = 0 := rfl
    have ho : gd.offCoord (ix3 b r (0 : Fin 1)) ⟨2, h2⟩ = 0 := rfl
    rw [hb, ho]
    simp only [Nat.add_zero]
    have hm : (2 : Fin 3) ∈ gd.startIndexMap := by decide
    unfold GatherDims.start
    rw [dif_pos (show (⟨2, h2⟩ : Fin S8x128x50257.rank) ∈ gd.startIndexMap from hm), g_siIdx]
    rfl

theorem col3_apply (S : IVec S8x128 32) (b : Fin 8) (r : Fin 128) (c : Fin 1) : col3 S (ix3 b r c) = S (ix2 b r) :=
  broadcastInDim_apply _ _ _ (ix3 b r c) (ix2 b r) (fun a => match a with | ⟨0, _⟩ => rfl | ⟨1, _⟩ => rfl)

/-- The signed compare with zero, as a bit. -/
theorem slt_zero (t : BitVec 32) : IntOp.cmpi .slt t 0#32 = if t.toInt < 0 then 1#1 else 0#1 := by
  unfold IntOp.cmpi
  show BitVec.ofBool (t.slt 0#32) = _
  have h : t.slt 0#32 = decide (t.toInt < 0) := by simp [BitVec.slt]
  rw [h]
  by_cases k : t.toInt < 0
  · rw [if_pos k, decide_eq_true k]; rfl
  · rw [if_neg k, decide_eq_false k]; rfl

theorem wrap3_apply (S : IVec S8x128 32) (b : Fin 8) (r : Fin 128) :
    wrap3 S (ix3 b r (0 : Fin 1)) = Cert.Host.wrapW (S (ix2 b r)) := by
  have h : wrap3 S (ix3 b r (0 : Fin 1))
      = Scalar.select (IntOp.cmpi .slt (col3 S (ix3 b r (0 : Fin 1))) 0#32)
          (IntOp.addi (col3 S (ix3 b r (0 : Fin 1))) 50257#32) (col3 S (ix3 b r (0 : Fin 1))) := rfl
  rw [h, col3_apply, slt_zero]
  unfold Cert.Host.wrapW
  by_cases k : (S (ix2 b r)).toInt < 0
  · rw [if_pos k, if_pos k, select_one]; rfl
  · rw [if_neg k, if_neg k, select_zero]

theorem wrap4_apply (S : IVec S8x128 32) (b : Fin 8) (r : Fin 128) :
    wrap4 S (ix4 b r (0 : Fin 1) (0 : Fin 1)) = Cert.Host.wrapW (S (ix2 b r)) := by
  unfold wrap4
  rw [shapeCast_apply _ _ (ix4 b r (0 : Fin 1) (0 : Fin 1)) (ix3 b r (0 : Fin 1)) (by
    rw [Shape.rowMajor_val_three, Shape.rowMajor_val_four]
    show (b.val * 128 + r.val) * 1 + 0 = ((b.val * 128 + r.val) * 1 + 0) * 1 + 0
    omega)]
  exact wrap3_apply S b r

/-- "In the row", as a bit. -/
theorem sge_sle (w : BitVec 32) :
    IntOp.andi (IntOp.andi (IntOp.cmpi .sge w 0#32) (IntOp.cmpi .sle w 50256#32)) 1#1
      = if 0 ≤ w.toInt ∧ w.toInt ≤ 50256 then 1#1 else 0#1 := by
  unfold IntOp.andi IntOp.cmpi
  show (BitVec.ofBool ((0#32).sle w) &&& BitVec.ofBool (w.sle 50256#32)) &&& 1#1 = _
  have h1 : (0#32).sle w = decide (0 ≤ w.toInt) := by simp [BitVec.sle]
  have e2 : (50256#32 : BitVec 32).toInt = 50256 := by decide
  have h2 : w.sle 50256#32 = decide (w.toInt ≤ 50256) := by simp [BitVec.sle, e2]
  rw [h1, h2]
  by_cases a : 0 ≤ w.toInt <;> by_cases c : w.toInt ≤ 50256 <;> simp [a, c]

theorem inb3_apply (S : IVec S8x128 32) (b : Fin 8) (r : Fin 128) :
    inb3 S (ix3 b r (0 : Fin 1))
      = if 0 ≤ (Cert.Host.wrapW (S (ix2 b r))).toInt ∧ (Cert.Host.wrapW (S (ix2 b r))).toInt ≤ 50256 then 1#1 else 0#1 := by
  have hred : S8x128x1x1.Reduces [3] S8x128x1 := by decide
  unfold inb3
  rw [Host.reduce_eq_fold_single IntOp.andi _ _ reducesTo_S8x128x1x1_S8x128x1_d3 hred h_S_]
  show Finset.fold IntOp.andi (1#1 : BitVec 1) (fun k : Fin 1 => inb4 S (hred.lift (ix3 b r (0 : Fin 1)) k))
    ({(0 : Fin 1)} : Finset (Fin 1)) = _
  rw [Finset.fold_singleton]
  have hl : hred.lift (ix3 b r (0 : Fin 1)) (0 : Fin 1) = ix4 b r (0 : Fin 1) (0 : Fin 1) := by
    funext a; refine Fin.ext ?_
    match a with
    | ⟨0, _⟩ => rfl
    | ⟨1, _⟩ => rfl
    | ⟨2, _⟩ => rfl
    | ⟨3, _⟩ => rfl
  show IntOp.andi (inb4 S (hred.lift (ix3 b r (0 : Fin 1)) (0 : Fin 1))) 1#1 = _
  rw [hl]
  have h4 : inb4 S (ix4 b r (0 : Fin 1) (0 : Fin 1))
      = IntOp.andi (IntOp.cmpi .sge (wrap4 S (ix4 b r (0 : Fin 1) (0 : Fin 1))) 0#32)
          (IntOp.cmpi .sle (wrap4 S (ix4 b r (0 : Fin 1) (0 : Fin 1))) 50256#32) := rfl
  rw [h4, wrap4_apply]
  exact sge_sle _

/-- The fill value's pattern is a NaN's, which the extended reals read as `⊥`. -/
theorem fill_bot : Ideal.ofBits .f32 0x7FC00000#32 = ⊥ := by simp [Ideal.ofBits, Ideal.ieee]

/-- THE TAKE AT `(b, r)`: the row's entry the target names, `⊥` when the target is out of range. -/
theorem takeT_apply (X : FVec Ideal S8x128x50257 .f32) (S : IVec S8x128 32) (b : Fin 8) (r : Fin 128) :
    takeT X S (ix3 b r (0 : Fin 1)) = Cert.Host.takeFill (rowOf X b r) (S (ix2 b r)) := by
  have h : takeT X S (ix3 b r (0 : Fin 1))
      = Scalar.select (inb3 S (ix3 b r (0 : Fin 1))) (X (gd.operandIdx (ix3 b r (0 : Fin 1)) (wrap4 S)))
          (Ideal.ofBits .f32 0x7FC00000#32) := rfl
  rw [h, inb3_apply, g_idx b r (wrap4 S) _ (wrap4_apply S b r)]
  by_cases k : 0 ≤ (Cert.Host.wrapW (S (ix2 b r))).toInt ∧ (Cert.Host.wrapW (S (ix2 b r))).toInt ≤ 50256
  · have hc : Cert.Host.col? (S (ix2 b r)) = some ⟨(Cert.Host.wrapW (S (ix2 b r))).toInt.toNat, by omega⟩ := by
      unfold Cert.Host.col?; exact dif_pos k
    rw [if_pos k, select_one]
    unfold Cert.Host.takeFill
    rw [hc]
    show X _ = X _
    refine congrArg X (congrArg (ix3 b r) (Fin.ext ?_))
    show min (Cert.Host.wrapW (S (ix2 b r))).toInt.toNat 50256 = (Cert.Host.wrapW (S (ix2 b r))).toInt.toNat
    omega
  · have hc : Cert.Host.col? (S (ix2 b r)) = none := by unfold Cert.Host.col?; exact dif_neg k
    rw [if_neg k, select_zero]
    unfold Cert.Host.takeFill
    rw [hc]
    exact fill_bot

/-! ## The scores read at an index -/

/-- A reshape that drops the last unit axis reads the entry at `0` there. -/
theorem cast3_apply {α : Type} (x : S8x128x1.Idx → α) (b : Fin 8) (r : Fin 128) :
    shapeCast S8x128 x shapeCasts_S8x128x1_S8x128 (ix2 b r) = x (ix3 b r (0 : Fin 1)) :=
  shapeCast_apply x _ (ix2 b r) (ix3 b r (0 : Fin 1)) (by
    rw [Shape.rowMajor_val_three, Shape.rowMajor_val_two]
    show (b.val * 128 + r.val) * 1 + 0 = b.val * 128 + r.val
    omega)

theorem scoreV_apply (g l : FVec Ideal S8x128 .f32) (m : IVec S8x128 1) (b : Fin 8) :
    scoreV g l m (ix1 b)
      = Ideal.div (0 + ∑ r : Fin 128, (g (ix2 b r) - l (ix2 b r)) * (((m (ix2 b r)).toNat : ℝ) : EReal))
          (0 + ∑ r : Fin 128, (((m (ix2 b r)).toNat : ℝ) : EReal)) := by
  have hred : S8x128.Reduces [1] S8 := by decide
  have hl : ∀ k : Fin 128, hred.lift (ix1 b) k = ix2 b k := fun k => funext fun a => Fin.ext (by
    match a with
    | ⟨0, _⟩ => rfl
    | ⟨1, _⟩ => rfl)
  show Ideal.div
      (Ideal.hostReduceAdd reducesTo_S8x128_S8_d1 (mulf (subf g l) (uitofp (F := Ideal) .f32 m)) (Ideal.ofBits .f32 0x00000000#32) (ix1 b))
      (Ideal.hostReduceAdd reducesTo_S8x128_S8_d1 (uitofp (F := Ideal) .f32 m) (Ideal.ofBits .f32 0x00000000#32) (ix1 b)) = _
  rw [Ideal.hostReduceAdd_single _ hred, Ideal.hostReduceAdd_single _ hred, Ideal.ofBits_zero_f32]
  show Ideal.div (0 + ∑ k : Fin 128, (mulf (subf g l) (uitofp (F := Ideal) .f32 m)) (hred.lift (ix1 b) k))
      (0 + ∑ k : Fin 128, (uitofp (F := Ideal) .f32 m) (hred.lift (ix1 b) k)) = _
  simp only [hl]
  rfl

theorem scoreW_apply (X : FVec Ideal S8x128x50257 .f32) (S : IVec S8x128 32) (L : FVec Ideal S8x128x1 .f32)
    (m : IVec S8x128 1) (b : Fin 8) :
    scoreW X S L m (ix1 b)
      = Ideal.div (0 + ∑ r : Fin 128, (Cert.Host.takeFill (rowOf X b r) (S (ix2 b r)) - L (ix3 b r (0 : Fin 1)))
            * (((m (ix2 b r)).toNat : ℝ) : EReal))
          (0 + ∑ r : Fin 128, (((m (ix2 b r)).toNat : ℝ) : EReal)) := by
  unfold scoreW
  rw [scoreV_apply]
  have h1 : ∀ r : Fin 128, shapeCast S8x128 (takeT X S) shapeCasts_S8x128x1_S8x128 (ix2 b r)
      = Cert.Host.takeFill (rowOf X b r) (S (ix2 b r)) := fun r => by
    rw [cast3_apply]; exact takeT_apply X S b r
  have h2 : ∀ r : Fin 128, shapeCast S8x128 L shapeCasts_S8x128x1_S8x128 (ix2 b r) = L (ix3 b r (0 : Fin 1)) :=
    fun r => cast3_apply L b r
  simp only [h1, h2]

/-! ## The kernel's score vectors, as formulas -/

/-- The token log-probability of example `b` at position `r`: the entry the safe shifted target names in the row,
    less the row's log-sum-exp `L`. -/
def tokK (X : FVec Ideal S8x128x50257 .f32) (T : IVec S8x128 32) (L : FVec Ideal S8x128x1 .f32) (b : Fin 8) (r : Fin 128) : EReal :=
  Cert.Host.takeFill (rowOf X b r) (Cert.Host.safe (tS T b r)) - L (ix3 b r (0 : Fin 1))

/-- The score vector: per example the kept positions' token log-probabilities summed, over the sum of the indicator
    of "kept" (both sums started from `0`, as the host forms them). -/
def scoreK (X : FVec Ideal S8x128x50257 .f32) (T : IVec S8x128 32) (L : FVec Ideal S8x128x1 .f32) : FVec Ideal S8 .f32 :=
  fun j => Cert.Host.scoreOf 128 (tokK X T L (j 0)) (tS T (j 0)) (0 + ∑ r : Fin 128, Cert.Host.keepE (tS T (j 0) r))

theorem scoreW_eq_scoreK (X : FVec Ideal S8x128x50257 .f32) (T : IVec S8x128 32) (L : FVec Ideal S8x128x1 .f32) :
    scoreW X (safeT T) L (maskT T) = scoreK X T L := by
  funext j
  obtain ⟨b, rfl⟩ : ∃ b : Fin 8, j = ix1 b := ⟨j 0, eq_ix1 j⟩
  rw [scoreW_apply]
  have hk : ∀ r : Fin 128, (((maskT T (ix2 b r)).toNat : ℝ) : EReal) = Cert.Host.keepE (tS T b r) := fun r => by
    rw [maskT_apply]; unfold Cert.Host.keepE
    by_cases k : Cert.Host.keep (tS T b r) = true
    · rw [if_pos k, if_pos k]; simp
    · rw [if_neg k, if_neg k]; simp
  simp only [hk, safeT_apply]
  rfl

/-! ## The results -/

/-- The five stretches of host operations after the region. -/
abbrev suffixOps : List (List (HloOp τ sig (Elt Ideal))) := [hostOps1, hostOps1_1, hostOps1_2, hostOps1_3, hostOps1_4]

/-- The first score vector from the buffers the region leaves. -/
def aW (W : Valuation τ sig (Elt Ideal)) : FVec Ideal S8 .f32 :=
  scoreW (W (Proc.devRef .tc main_arg0)) (W (Proc.devRef .tc main_v4)) (W (Proc.devRef .tc main_v10_0)) (W (Proc.devRef .tc main_v3))
/-- The second. -/
def sW (W : Valuation τ sig (Elt Ideal)) : FVec Ideal S8 .f32 :=
  scoreW (W (Proc.devRef .tc main_arg2)) (W (Proc.devRef .tc main_v9)) (W (Proc.devRef .tc main_v10_1)) (W (Proc.devRef .tc main_v8))

theorem suffix_split : List.flatten suffixOps = opsA ++ (opsB ++ hostOps1_4) := by
  simp only [suffixOps, opsA, opsB, List.flatten_cons, List.flatten_nil, List.append_nil, List.append_assoc]

theorem aOf_eq (W : Valuation τ sig (Elt Ideal)) : aOf (StableHlo.after opsB (StableHlo.after opsA W)) = aW W := by
  unfold aOf
  rw [B_v15, B_v11, B_v3, A_v14, A_v11, A_v3]
  rfl

theorem sOf_eq (W : Valuation τ sig (Elt Ideal)) : sOf (StableHlo.after opsB (StableHlo.after opsA W)) = sW W := by
  unfold sOf
  rw [B_v17, B_v12, B_v8, A_arg2, A_v9, A_v12, A_v8]
  rfl

/-- THE SIX RESULTS from any contents `W` of the buffers when the region is left: the two score vectors and the tail's
    four scalars. -/
theorem tail_results (W : Valuation τ sig (Elt Ideal)) :
    StableHlo.after (List.flatten suffixOps) W (Proc.devRef .tc main_v41) = (tailK (aW W) (sW W)).1
    ∧ StableHlo.after (List.flatten suffixOps) W (Proc.devRef .tc main_v25) = aW W
    ∧ StableHlo.after (List.flatten suffixOps) W (Proc.devRef .tc main_v30) = sW W
    ∧ StableHlo.after (List.flatten suffixOps) W (Proc.devRef .tc main_v47) = (tailK (aW W) (sW W)).2.1
    ∧ StableHlo.after (List.flatten suffixOps) W (Proc.devRef .tc main_v49) = (tailK (aW W) (sW W)).2.2.1
    ∧ StableHlo.after (List.flatten suffixOps) W (Proc.devRef .tc main_v45) = (tailK (aW W) (sW W)).2.2.2 := by
  rw [suffix_split, StableHlo.after_append, StableHlo.after_append]
  refine ⟨?_, ?_, ?_, ?_, ?_, ?_⟩
  · rw [C_v41, aOf_eq, sOf_eq]
  · rw [C_v25, aOf_eq]
  · rw [C_v30, sOf_eq]
  · rw [C_v47, aOf_eq, sOf_eq]
  · rw [C_v49, aOf_eq, sOf_eq]
  · rw [C_v45, aOf_eq, sOf_eq]

/-- THE HOST SIDE: from contents `W` that are the region-entry contents `W₀ M` everywhere but at the region's two
    result arrays, which hold the log-sum-exps `LA` and `LB`, the six results are the tail of the two score formulas. -/
theorem host_results (M W : Valuation τ sig (Elt Ideal)) (LA LB : FVec Ideal S8x128x1 .f32)
    (hW : ∀ r : Ref sig .tc, r ≠ main_v10_0 → r ≠ main_v10_1 → W (Proc.devRef .tc r) = W₀ M (Proc.devRef .tc r))
    (hA : W (Proc.devRef .tc main_v10_0) = LA) (hB : W (Proc.devRef .tc main_v10_1) = LB) :
    StableHlo.after (List.flatten suffixOps) W (Proc.devRef .tc main_v41)
        = (tailK (scoreK (M (Proc.devRef .tc main_arg0)) (M (Proc.devRef .tc main_arg1)) LA)
            (scoreK (M (Proc.devRef .tc main_arg2)) (M (Proc.devRef .tc main_arg3)) LB)).1
    ∧ StableHlo.after (List.flatten suffixOps) W (Proc.devRef .tc main_v25)
        = scoreK (M (Proc.devRef .tc main_arg0)) (M (Proc.devRef .tc main_arg1)) LA
    ∧ StableHlo.after (List.flatten suffixOps) W (Proc.devRef .tc main_v30)
        = scoreK (M (Proc.devRef .tc main_arg2)) (M (Proc.devRef .tc main_arg3)) LB
    ∧ StableHlo.after (List.flatten suffixOps) W (Proc.devRef .tc main_v47)
        = (tailK (scoreK (M (Proc.devRef .tc main_arg0)) (M (Proc.devRef .tc main_arg1)) LA)
            (scoreK (M (Proc.devRef .tc main_arg2)) (M (Proc.devRef .tc main_arg3)) LB)).2.1
    ∧ StableHlo.after (List.flatten suffixOps) W (Proc.devRef .tc main_v49)
        = (tailK (scoreK (M (Proc.devRef .tc main_arg0)) (M (Proc.devRef .tc main_arg1)) LA)
            (scoreK (M (Proc.devRef .tc main_arg2)) (M (Proc.devRef .tc main_arg3)) LB)).2.2.1
    ∧ StableHlo.after (List.flatten suffixOps) W (Proc.devRef .tc main_v45)
        = (tailK (scoreK (M (Proc.devRef .tc main_arg0)) (M (Proc.devRef .tc main_arg1)) LA)
            (scoreK (M (Proc.devRef .tc main_arg2)) (M (Proc.devRef .tc main_arg3)) LB)).2.2.2 := by
  have ha : aW W = scoreK (M (Proc.devRef .tc main_arg0)) (M (Proc.devRef .tc main_arg1)) LA := by
    unfold aW
    rw [hW main_arg0 (by decide) (by decide), hW main_v4 (by decide) (by decide), hW main_v3 (by decide) (by decide), hA,
      W₀_arg0, W₀_v4, W₀_v3]
    exact scoreW_eq_scoreK _ _ _
  have hs : sW W = scoreK (M (Proc.devRef .tc main_arg2)) (M (Proc.devRef .tc main_arg3)) LB := by
    unfold sW
    rw [hW main_arg2 (by decide) (by decide), hW main_v9 (by decide) (by decide), hW main_v8 (by decide) (by decide), hB,
      W₀_arg2, W₀_v9, W₀_v8]
    exact scoreW_eq_scoreK _ _ _
  have h := tail_results W
  rw [ha, hs] at h
  exact h

end Cert.KernelIdeal.HandHost

end
-- ==== Proof.KernelIdealExactRun.lean ====
import proofs.«403453_j14791867368156_3_alg».proof.Proof.KernelIdealExactBody
import proofs.«403453_j14791867368156_3_alg».proof.Proof.KernelIdealFinal
import proofs.«403453_j14791867368156_3_alg».proof.Proof.KernelHost

/-!
# The idealized kernel program's run, with its results named

Every weakly fair execution of @main terminates; the four arguments end as they were; the two result arrays of the
region end at the rows' final streaming states (maximum plus logarithm of the sum), and the six results of @main are
the host tail applied to the two score vectors computed from the arguments and those arrays.
-/

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lse

local notation "𝕄" => MT nD τ sig Unit (Elt Ideal) ℕ (UR sig nD τ) ℕ

variable (m : (ℓ : Loc nD τ sig) → Buf (Elt Ideal) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the running buffers' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The frame run: every array of the region at what the proof data computes, every other unscoped buffer as the
    operations after the region leave it. -/
theorem run_main : θ_run defs (onTc (τ := τ) (main (F := Ideal))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-! ## Reading the post -/

/-- The valuation the operations after the region start from: the region-entry contents with the four arrays at what
    the region leaves. -/
abbrev Wend (c : Dev nD) : Valuation τ sig (Elt Ideal) :=
  Pipeline.withArrays spec0 c (V0 m c) fun w => (dats m 0 c).arrAt w cfg0.N

/-- A buffer that is no array of the region is, after the later operations, their result from `Wend`. -/
theorem afterTail_eq (c : Dev nD) (b : Ref sig .tc) :
    Pipeline.afterTail₀ cfgs (dats m) 0 (V0 m) tailOps c b = StableHlo.after (List.flatten tailOps) (Wend m c) (Proc.devRef .tc b) := rfl

/-- The later operations leave the two target arrays alone, and so did the earlier ones. -/
theorem afterTail_arg1 (c : Dev nD) :
    Pipeline.afterTail₀ cfgs (dats m) 0 (V0 m) tailOps c main_arg1 = m ((c : Thread nD τ).loc main_arg1) := by
  rw [afterTail_eq, StableHlo.after_of_forall_not_mem _ _ fun op hop => (tail_args op hop).2.1]
  exact (Pipeline.withArrays_of_ne spec0 c (V0 m c) _ main_arg1 (by intro w; fin_cases w <;> decide)).trans (V_main_arg1 m c)
theorem afterTail_arg3 (c : Dev nD) :
    Pipeline.afterTail₀ cfgs (dats m) 0 (V0 m) tailOps c main_arg3 = m ((c : Thread nD τ).loc main_arg3) := by
  rw [afterTail_eq, StableHlo.after_of_forall_not_mem _ _ fun op hop => (tail_args op hop).2.2.2]
  exact (Pipeline.withArrays_of_ne spec0 c (V0 m c) _ main_arg3 (by intro w; fin_cases w <;> decide)).trans (V_main_arg3 m c)

theorem arg1_rest : main_arg1 ∈ Pipeline.restRefs sig spec0 :=
  Pipeline.mem_restRefs_of main_arg1 rfl (by intro w; fin_cases w <;> decide)
theorem arg3_rest : main_arg3 ∈ Pipeline.restRefs sig spec0 :=
  Pipeline.mem_restRefs_of main_arg3 rfl (by intro w; fin_cases w <;> decide)

/-- THE FRAME: the program runs to its end and its four arguments end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 arg1_rest).trans (afterTail_arg1 m c),
     ((h c).1 1).trans (((dats m 0 c).arrAt_in 1 rfl _).trans ((A_eq m c 1).trans (V_main_arg2 m c))),
     ((h c).2 main_arg3 arg3_rest).trans (afterTail_arg3 m c)⟩) (run_main m ρ)

end Cert.KernelIdeal.HandI

end
-- ==== Proof.KernelIdealResults.lean ====
import proofs.«403453_j14791867368156_3_alg».proof.Proof.KernelIdealExactRun

/-!
# The idealized kernel program's six results

After the region the later host operations run from the region-entry contents with the four arrays at what the region
left: the two logit arrays as they were, the two log-sum-exp arrays at the rows' final states. So the six results are
the host tail applied to the two score vectors of the arguments and those arrays.
-/

set_option maxRecDepth 16384

noncomputable section

namespace Cert.KernelIdeal.HandI

open Cert.KernelIdeal Cert.KernelIdeal.Gen Cert.KernelIdeal.Hand Cert.KernelIdeal.HandHost
open Idealize.ShloMosaic Idealize.ShloMosaic.TcCoe Idealize.ShloMosaic.ValueIdx
open Idealize.SL Idealize.SL.Sem
open Idealize.ShloMosaic.Pipeline (Dat Cfg Window)
open Cert.Lse

variable (m : (ℓ : Loc nD τ sig) → Buf (Elt Ideal) ℓ) (ρ : Dev nD → PrngReg)

/-- The two score vectors of core `c`'s arguments, with the log-sum-exp arrays the region leaves. -/
def scoreA (c : Dev nD) : FVec Ideal S8 .f32 :=
  scoreK (m ((c.tc : Thread nD τ).loc main_arg0)) (m ((c.tc : Thread nD τ).loc main_arg1)) (lseArr (m ((c.tc : Thread nD τ).loc main_arg0)))
def scoreS (c : Dev nD) : FVec Ideal S8 .f32 :=
  scoreK (m ((c.tc : Thread nD τ).loc main_arg2)) (m ((c.tc : Thread nD τ).loc main_arg3)) (lseArr (m ((c.tc : Thread nD τ).loc main_arg2)))

/-! ## The six result buffers bypass the region -/

theorem v41_rest : main_v41 ∈ Pipeline.restRefs sig spec0 :=
  Pipeline.mem_restRefs_of main_v41 rfl (by intro w; fin_cases w <;> decide)
theorem v25_rest : main_v25 ∈ Pipeline.restRefs sig spec0 :=
  Pipeline.mem_restRefs_of main_v25 rfl (by intro w; fin_cases w <;> decide)
theorem v30_rest : main_v30 ∈ Pipeline.restRefs sig spec0 :=
  Pipeline.mem_restRefs_of main_v30 rfl (by intro w; fin_cases w <;> decide)
theorem v47_rest : main_v47 ∈ Pipeline.restRefs sig spec0 :=
  Pipeline.mem_restRefs_of main_v47 rfl (by intro w; fin_cases w <;> decide)
theorem v49_rest : main_v49 ∈ Pipeline.restRefs sig spec0 :=
  Pipeline.mem_restRefs_of main_v49 rfl (by intro w; fin_cases w <;> decide)
theorem v45_rest : main_v45 ∈ Pipeline.restRefs sig spec0 :=
  Pipeline.mem_restRefs_of main_v45 rfl (by intro w; fin_cases w <;> decide)

/-! ## What the later operations start from -/

/-- Off the region's two result arrays it is the region-entry contents: a logit array is never written back, and every
    other buffer bypasses the region. -/
theorem Wend_rest (c : Dev nD) (r : Ref sig .tc) (h0 : r ≠ main_v10_0) (h1 : r ≠ main_v10_1) :
    Wend m c (Proc.devRef .tc r) = W₀ (fun b => m (c, b)) (Proc.devRef .tc r) := by
  by_cases e0 : r = main_arg0
  · subst e0
    exact (Pipeline.withArrays_arr spec0 launch0.win.arr_inj c _ _ 0).trans
      (((dats m 0 c).arrAt_in 0 rfl _).trans (A_eq m c 0))
  by_cases e2 : r = main_arg2
  · subst e2
    exact (Pipeline.withArrays_arr spec0 launch0.win.arr_inj c _ _ 1).trans
      (((dats m 0 c).arrAt_in 1 rfl _).trans (A_eq m c 1))
  exact Pipeline.withArrays_of_ne spec0 c (V0 m c) _ r (by
    intro w; fin_cases w
    · exact fun e => e0 e.symm
    · exact fun e => e2 e.symm
    · exact fun e => h0 e.symm
    · exact fun e => h1 e.symm)

/-- At the two result arrays it is the rows' final states. -/
theorem Wend_a (c : Dev nD) : Wend m c (Proc.devRef .tc main_v10_0) = lseArr (XA m c) :=
  (Pipeline.withArrays_arr spec0 launch0.win.arr_inj c _ _ 2).trans (final_a m c)
theorem Wend_b (c : Dev nD) : Wend m c (Proc.devRef .tc main_v10_1) = lseArr (XB m c) :=
  (Pipeline.withArrays_arr spec0 launch0.win.arr_inj c _ _ 3).trans (final_b m c)

/-- So the later operations leave the six results at the host tail of the two score vectors. -/
theorem tail_at (c : Dev nD) :
    StableHlo.after (List.flatten tailOps) (Wend m c) (Proc.devRef .tc main_v41) = (tailK (scoreA m c) (scoreS m c)).1
    ∧ StableHlo.after (List.flatten tailOps) (Wend m c) (Proc.devRef .tc main_v25) = scoreA m c
    ∧ StableHlo.after (List.flatten tailOps) (Wend m c) (Proc.devRef .tc main_v30) = scoreS m c
    ∧ StableHlo.after (List.flatten tailOps) (Wend m c) (Proc.devRef .tc main_v47) = (tailK (scoreA m c) (scoreS m c)).2.1
    ∧ StableHlo.after (List.flatten tailOps) (Wend m c) (Proc.devRef .tc main_v49) = (tailK (scoreA m c) (scoreS m c)).2.2.1
    ∧ StableHlo.after (List.flatten tailOps) (Wend m c) (Proc.devRef .tc main_v45) = (tailK (scoreA m c) (scoreS m c)).2.2.2 := by
  have h := host_results (fun b => m (c, b)) (Wend m c) (lseArr (XA m c)) (lseArr (XB m c))
    (Wend_rest m c) (Wend_a m c) (Wend_b m c)
  rw [show XA m c = m ((c.tc : Thread nD τ).loc main_arg0) from V_main_arg0 m c,
    show XB m c = m ((c.tc : Thread nD τ).loc main_arg2) from V_main_arg2 m c] at h
  exact h

/-- The run with its six results named, and the arguments unchanged. -/
theorem results : θ_run defs (onTc (τ := τ) (main (F := Ideal))) ⟨m, fun _ => 0, ρ⟩ (fun r => ∀ c : Dev nD,
      r.2.mem ((c.tc : Thread nD τ).loc main_v41) = (tailK (scoreA m c) (scoreS m c)).1
      ∧ r.2.mem ((c.tc : Thread nD τ).loc main_v25) = scoreA m c
      ∧ r.2.mem ((c.tc : Thread nD τ).loc main_v30) = scoreS m c
      ∧ r.2.mem ((c.tc : Thread nD τ).loc main_v47) = (tailK (scoreA m c) (scoreS m c)).2.1
      ∧ r.2.mem ((c.tc : Thread nD τ).loc main_v49) = (tailK (scoreA m c) (scoreS m c)).2.2.1
      ∧ r.2.mem ((c.tc : Thread nD τ).loc main_v45) = (tailK (scoreA m c) (scoreS m c)).2.2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨t41, t25, t30, t47, t49, t45⟩ := tail_at m c
    exact ⟨((h c).2 main_v41 v41_rest).trans ((afterTail_eq m c main_v41).trans t41),
      ((h c).2 main_v25 v25_rest).trans ((afterTail_eq m c main_v25).trans t25),
      ((h c).2 main_v30 v30_rest).trans ((afterTail_eq m c main_v30).trans t30),
      ((h c).2 main_v47 v47_rest).trans ((afterTail_eq m c main_v47).trans t47),
      ((h c).2 main_v49 v49_rest).trans ((afterTail_eq m c main_v49).trans t49),
      ((h c).2 main_v45 v45_rest).trans ((afterTail_eq m c main_v45).trans t45),
      ((h c).1 0).trans (((dats m 0 c).arrAt_in 0 rfl _).trans ((A_eq m c 0).trans (V_main_arg0 m c))),
      ((h c).2 main_arg1 arg1_rest).trans (afterTail_arg1 m c),
      ((h c).1 1).trans (((dats m 0 c).arrAt_in 1 rfl _).trans ((A_eq m c 1).trans (V_main_arg2 m c))),
      ((h c).2 main_arg3 arg3_rest).trans (afterTail_arg3 m c)⟩) (run_main m ρ)

end Cert.KernelIdeal.HandI

end
-- ==== Proof.ScoreBridge.lean ====
import proofs.«403453_j14791867368156_3_alg».proof.Proof.LseSpec
import proofs.«403453_j14791867368156_3_alg».proof.Proof.HostSpec

/-!
# One example's score computed two ways

The kernel's program scores all 128 positions of an example, the last against the ignored target, and subtracts a
row's log-sum-exp from the entry its target reads; the reference scores the first 127 positions and reads the target's
entry of the row's log-softmax. For rows of real numbers the two scores are equal: the last position's term is a
product with `0`; an in-range target reads `x k - lse` on one side and `(x k - max) - log Σ` on the other; an
out-of-range target reads `⊥` on both (`⊥ - lse = ⊥`); and the count of kept positions is the same number.
-/

noncomputable section

namespace Cert.Host

open Idealize.ShloMosaic Cert.Lse

/-- The shifted targets of an example continued by the ignored word at the last position. -/
def padT (t : Fin 127 → BitVec 32) (r : Fin 128) : BitVec 32 :=
  if h : r.val < 127 then t ⟨r.val, h⟩ else ignoreW

/-- A row's log-softmax. -/
def logpOf (y : Fin 50257 → EReal) (k : Fin 50257) : EReal := (y k - rowMax y) - Ideal.log (rowSum y)

/-- The number of kept targets among the 127, as an extended real. -/
def keptCount (t : Fin 127 → BitVec 32) : EReal :=
  (((Finset.univ.filter fun r : Fin 127 => keep (t r) = true).card : ℝ) : EReal)

/-- The coercion of a finite real sum is the sum of the coercions. -/
private theorem coe_finsum {ι : Type*} (s : Finset ι) (g : ι → ℝ) :
    ((∑ i ∈ s, g i : ℝ) : EReal) = ∑ i ∈ s, ((g i : ℝ) : EReal) := by
  classical
  induction s using Finset.induction_on with
  | empty => simp
  | insert i s hi ih => rw [Finset.sum_insert hi, Finset.sum_insert hi, EReal.coe_add, ih]

private theorem padT_castSucc (t : Fin 127 → BitVec 32) (r : Fin 127) : padT t r.castSucc = t r := by
  simp [padT]

private theorem padT_last (t : Fin 127 → BitVec 32) : padT t (Fin.last 127) = ignoreW := by
  simp [padT]

private theorem keepE_ignoreW : keepE ignoreW = 0 := by
  simp [keepE, keep]

/-- The indicator of a kept target is the coercion of the real indicator. -/
private theorem keepE_eq_coe (w : BitVec 32) :
    keepE w = (((if keep w = true then (1 : ℝ) else 0) : ℝ) : EReal) := by
  unfold keepE
  split <;> simp

/-- The sum of the 127 indicators is the count of kept targets. -/
private theorem sum_keepE (t : Fin 127 → BitVec 32) : ∑ r : Fin 127, keepE (t r) = keptCount t := by
  have h1 : ∑ r : Fin 127, keepE (t r)
      = ((∑ r : Fin 127, (if keep (t r) = true then (1 : ℝ) else 0) : ℝ) : EReal) := by
    rw [coe_finsum]
    exact Finset.sum_congr rfl fun r _ => keepE_eq_coe (t r)
  rw [h1, Finset.sum_boole, keptCount]

/-- Taking a real row's entry and subtracting its log-sum-exp is taking its log-softmax's entry. -/
theorem takeFill_sub_rowLse (y : Fin 50257 → EReal) (hy : RealRow y) (t : BitVec 32) :
    takeFill y t - rowLse y = takeFill (logpOf y) t := by
  unfold takeFill
  cases col? t with
  | none => exact Cert.Lse.bot_sub _
  | some k => exact Cert.Lse.sub_rowLse y hy k

/-- The kernel's denominator, the sum of the 128 indicators, is the count of kept targets among the 127. -/
theorem sum_keepE_padT (t : Fin 127 → BitVec 32) :
    (0 : EReal) + ∑ r : Fin 128, keepE (padT t r) = keptCount t := by
  rw [zero_add, Fin.sum_univ_castSucc, padT_last, keepE_ignoreW, add_zero, ← sum_keepE]
  exact Finset.sum_congr rfl fun r _ => by rw [padT_castSucc]

/-- The reference's denominator as an integer sum of indicators is the same count. -/
theorem intSum_keep (t : Fin 127 → BitVec 32) :
    (((∑ r : Fin 127, (if keep (t r) = true then (1 : ℤ) else 0) : ℤ) : ℝ) : EReal) = keptCount t := by
  rw [Finset.sum_boole, Int.cast_natCast, keptCount]

/-- The two scores of one example agree. -/
theorem score_bridge (row : Fin 128 → Fin 50257 → EReal) (hrow : ∀ r, RealRow (row r)) (t : Fin 127 → BitVec 32) :
    scoreOf 128 (fun r => takeFill (row r) (safe (padT t r)) - rowLse (row r)) (padT t) (0 + ∑ r : Fin 128, keepE (padT t r))
      = scoreOf 127 (fun r => takeFill (logpOf (row r.castSucc)) (safe (t r))) t (keptCount t) := by
  have hnum : ∑ r : Fin 128, (takeFill (row r) (safe (padT t r)) - rowLse (row r)) * keepE (padT t r)
      = ∑ r : Fin 127, takeFill (logpOf (row r.castSucc)) (safe (t r)) * keepE (t r) := by
    rw [Fin.sum_univ_castSucc, padT_last, keepE_ignoreW, mul_zero, add_zero]
    exact Finset.sum_congr rfl fun r _ => by
      rw [padT_castSucc, takeFill_sub_rowLse _ (hrow r.castSucc)]
  unfold scoreOf
  rw [sum_keepE_padT, hnum]

end Cert.Host

end
-- ==== Proof.Bridge.lean ====
import proofs.«403453_j14791867368156_3_alg».proof.Proof.RefSide
import proofs.«403453_j14791867368156_3_alg».proof.Proof.KernelIdealResults
import proofs.«403453_j14791867368156_3_alg».proof.Proof.ScoreBridge

/-!
# The two programs compute the same scores

For a logit array of real numbers the kernel's program scores an example from the entry its target reads minus the
row's streamed log-sum-exp, over 128 positions of which the last is ignored; the reference from the target's entry of
the row's log-softmax, over 127 positions. The six-tile stream ends at the row's log-sum-exp, and then the two scores
are one number. The scalar tail after the scores is the same composition of operations in both programs.
-/

noncomputable section

namespace Cert.Bridge

open Idealize.ShloMosaic Idealize.ShloMosaic.ValueIdx
open Cert.Lse Cert.Host

/-- Every row of a logit array of real numbers is a real row. -/
theorem realRow_of (X : (⟨3, ![8, 128, 50257]⟩ : Shape).Idx → EReal) (hX : ∀ i, ∃ r : ℝ, X i = (r : EReal)) (b : Fin 8) (r : Fin 128) :
    RealRow (fun k => X (ix3 b r k)) := fun k => hX (ix3 b r k)

/-- The streamed log-sum-exp array of a real logit array holds each row's log-sum-exp. -/
theorem lseArr_apply (X : (⟨3, ![8, 128, 50257]⟩ : Shape).Idx → EReal) (hX : ∀ i, ∃ r : ℝ, X i = (r : EReal)) (b : Fin 8) (r : Fin 128) :
    Cert.KernelIdeal.HandI.lseArr X (ix3 b r (0 : Fin 1)) = rowLse (fun k => X (ix3 b r k)) :=
  stream_final _ (realRow_of X hX b r)

/-- The kernel program's shifted targets of an example are the reference's 127 targets continued by the ignored word. -/
theorem tS_eq (T : (⟨2, ![8, 128]⟩ : Shape).Idx → BitVec 32) (b : Fin 8) :
    Cert.KernelIdeal.HandHost.tS T b = padT (Cert.ReferenceIdeal.Hand.tgtR T b) := by
  funext r
  unfold Cert.KernelIdeal.HandHost.tS padT Cert.ReferenceIdeal.Hand.tgtR
  by_cases h : r.val < 127
  · rw [dif_pos h]
  · rw [dif_neg h]

/-- One logit array, one target array: the kernel program's score vector is the reference's. -/
theorem score_eq (X : (⟨3, ![8, 128, 50257]⟩ : Shape).Idx → EReal) (T : (⟨2, ![8, 128]⟩ : Shape).Idx → BitVec 32)
    (hX : ∀ i, ∃ r : ℝ, X i = (r : EReal)) :
    Cert.KernelIdeal.HandHost.scoreK X T (Cert.KernelIdeal.HandI.lseArr X) = Cert.ReferenceIdeal.Hand.scoreR X T := by
  funext j
  obtain ⟨b, rfl⟩ : ∃ b : Fin 8, j = ix1 b := ⟨j 0, eq_ix1 j⟩
  show scoreOf 128 (Cert.KernelIdeal.HandHost.tokK X T (Cert.KernelIdeal.HandI.lseArr X) b) (Cert.KernelIdeal.HandHost.tS T b)
      (0 + ∑ r : Fin 128, keepE (Cert.KernelIdeal.HandHost.tS T b r)) = Cert.ReferenceIdeal.Hand.scoreB X T b
  have hb := score_bridge (fun r => fun k => X (ix3 b r k)) (fun r => realRow_of X hX b r)
    (Cert.ReferenceIdeal.Hand.tgtR T b)
  have h1 : Cert.KernelIdeal.HandHost.tokK X T (Cert.KernelIdeal.HandI.lseArr X) b
      = fun r => takeFill (fun k => X (ix3 b r k)) (safe (padT (Cert.ReferenceIdeal.Hand.tgtR T b) r))
          - rowLse (fun k => X (ix3 b r k)) := by
    funext r
    unfold Cert.KernelIdeal.HandHost.tokK
    rw [lseArr_apply X hX b r, tS_eq]
    rfl
  have h2 : Cert.ReferenceIdeal.Hand.tokR X T b
      = fun r => takeFill (logpOf (fun k => X (ix3 b r.castSucc k))) (safe (Cert.ReferenceIdeal.Hand.tgtR T b r)) := by
    funext r
    unfold Cert.ReferenceIdeal.Hand.tokR Cert.ReferenceIdeal.Hand.logpRow logpOf Cert.ReferenceIdeal.Hand.rowOf
    rfl
  have h3 : Cert.ReferenceIdeal.Hand.denR T b = keptCount (Cert.ReferenceIdeal.Hand.tgtR T b) := by
    unfold Cert.ReferenceIdeal.Hand.denR
    exact intSum_keep (Cert.ReferenceIdeal.Hand.tgtR T b)
  rw [h1, tS_eq]
  unfold Cert.ReferenceIdeal.Hand.scoreB
  rw [h2, h3]
  exact hb

/-- The scalar tail after the scores is the same composition of operations in the two programs. -/
theorem tail_eq (a s : (⟨1, ![8]⟩ : Shape).Idx → EReal) :
    (Cert.KernelIdeal.HandHost.tailK a s).1 = Cert.ReferenceIdeal.Hand.tailLoss a s
    ∧ (Cert.KernelIdeal.HandHost.tailK a s).2.1 = Cert.ReferenceIdeal.Hand.tailMean a
    ∧ (Cert.KernelIdeal.HandHost.tailK a s).2.2.1 = Cert.ReferenceIdeal.Hand.tailMean s
    ∧ (Cert.KernelIdeal.HandHost.tailK a s).2.2.2 = Cert.ReferenceIdeal.Hand.tailFrac a s :=
  ⟨rfl, rfl, rfl, rfl⟩

end Cert.Bridge

end
-- ==== Proof.PreFinite.lean ====
import proofs.«403453_j14791867368156_3_alg».proof.Pre_finite_inputs
import Idealize.ShloMosaic.Lib.ReduceAll
import Idealize.ShloMosaic.Lib.ValueIdx
import Idealize.ShloMosaic.PureOps.Ideal.Laws

/-!
# What the precondition says of the two logit arrays

The precondition takes the absolute value of every entry of each logit array, compares it with `+∞` (the pattern
`0x7F800000`), reduces the comparison bits of each array by `and` over all three axes, and takes the `and` of the two
results. When that is `1`, every entry `x` of both arrays has `max x (-x) < ⊤`, which excludes `⊥` and `⊤`: every
entry is a real number.
-/

noncomputable section

namespace Cert.PreFinite

open Idealize.ShloMosaic Idealize.ShloMosaic.ValueIdx

variable [Cert.Pre_finite_inputs.Facts]

/-- The scalar shape has one index. -/
private instance : Subsingleton Cert.Pre_finite_inputs.S_.Idx := ⟨fun _ _ => funext fun d => d.elim0⟩

/-- The pattern `0x7F800000` denotes `+∞`. -/
private theorem ofBits_inf : Ideal.ofBits .f32 0x7F800000#32 = ⊤ := by
  simp [Ideal.ofBits, Ideal.ieee]

/-- An extended real whose absolute value is below `⊤` is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- One comparison bit of the precondition being `1` says that the entry compared is a real number. -/
private theorem real_of_bit (x : EReal)
    (h : Ideal.cmp .olt (max x (-x)) (Ideal.ofBits .f32 0x7F800000#32) = 1#1) : ∃ r : ℝ, x = (r : EReal) := by
  rw [ofBits_inf] at h
  apply real_of_abs_lt_top
  by_contra hn
  simp [Ideal.cmp, hn] at h

/-- When the precondition evaluates to `1`, every entry of both logit arrays is a real number. -/
theorem real_of_pre (xa : FVec Ideal Cert.Pre_finite_inputs.S8x128x50257 .f32) (ta : IVec Cert.Pre_finite_inputs.S8x128 32)
    (xs : FVec Ideal Cert.Pre_finite_inputs.S8x128x50257 .f32) (ts : IVec Cert.Pre_finite_inputs.S8x128 32)
    (h : Cert.Pre_finite_inputs.fn (F := Ideal) xa ta xs ts = (fun _ => 1#1)) :
    (∀ i, ∃ r : ℝ, xa i = (r : EReal)) ∧ (∀ i, ∃ r : ℝ, xs i = (r : EReal)) := by
  have h0 := congrFun h ValueIdx.ix0
  dsimp only [Cert.Pre_finite_inputs.fn] at h0
  obtain ⟨h1, h2⟩ := IntOp.andi_eq_one.1 h0
  constructor
  · intro i
    exact real_of_bit (xa i) (Host.reduce_andi_all _ _ _ _ _ h1 i)
  · intro i
    exact real_of_bit (xs i) (Host.reduce_andi_all _ _ _ _ _ h2 i)

end Cert.PreFinite

end
-- ==== Proof.lean ====
/- Equivalence over the extended reals of a fused streaming log-sum-exp kernel program and its reference program.

   The kernel program pads and masks the shifted targets on the host, computes in ONE kernel call the per-row
   log-sum-exp of two [8, 128, 50257] logit arrays by a six-tile online maximum / rescaled-sum recurrence (the last
   tile's 431 columns past the row's end masked by a finite stand-in for −∞, which the certificate's table names −∞),
   gathers each target's logit on the host and subtracts the log-sum-exp; the reference takes log_softmax of the first
   127 rows and gathers from it. Both then form the masked mean per example and the same scalar tail.

   * the three frames: the kernel programs' by one frame run each that names no contents (the running buffers inside
     the region's invariant at some contents, the result windows forgotten, the overhanging logit windows handed
     back as found); the reference's from its run;
   * preserves: the table gives "neg_big" the value ⊥, four times;
   * algebraic: the idealized kernel program's run with every buffer's contents named by the recurrence's states
     ends with the two log-sum-exp arrays at the rows' final states; for real logits that is each row's
     max + log Σ exp (x − max), and x[t] − lse = (x[t] − max) − log Σ; an out-of-range target reads ⊥ on both sides;
     the 128th position is weighted by 0; the counts of kept targets agree; the tails are one composition. -/
import proofs.«403453_j14791867368156_3_alg».proof.Defs
import proofs.«403453_j14791867368156_3_alg».proof.Proof.Gen.Kernel
import proofs.«403453_j14791867368156_3_alg».proof.Proof.Gen.KernelIdeal
import proofs.«403453_j14791867368156_3_alg».proof.Proof.Gen.ReferenceIdeal
import proofs.«403453_j14791867368156_3_alg».proof.Proof.Gen.Pre_finite_inputs
import proofs.«403453_j14791867368156_3_alg».proof.Proof.KernelForget
import proofs.«403453_j14791867368156_3_alg».proof.Proof.KernelIdealForget
import proofs.«403453_j14791867368156_3_alg».proof.Proof.Bridge
import proofs.«403453_j14791867368156_3_alg».proof.Proof.PreFinite
import Idealize.ShloMosaic.Adequacy
import Idealize.ShloMosaic.Init

noncomputable section

namespace Cert.Proof

open Idealize.ShloMosaic Idealize.SL.Sem

/-- The word-level kernel program runs to its end and leaves its arguments as they were. -/
theorem frame_k : Cert.frame_Kernel := fun m ρ _ => Cert.Kernel.Hand.frame m ρ

/-- So does the idealized one. -/
theorem frame_ki : Cert.frame_KernelIdeal := fun m ρ _ => Cert.KernelIdeal.Hand.frame (F := Ideal) m ρ

/-- And the reference. -/
theorem frame_ri : Cert.frame_ReferenceIdeal := fun m g _ => Cert.ReferenceIdeal.Hand.frame_ri m g

/-- The certificate's table gives the masking constant the value −∞, at each of its four sites. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- From memories agreeing on finite arguments both programs end with the same six results. -/
theorem algebraic : Cert.algebraic_KernelIdeal_ReferenceIdeal := by
  intro m ρ m' ρ' hpre hagree
  refine ⟨fun c => (Cert.KernelIdeal.HandHost.tailK (Cert.KernelIdeal.HandI.scoreA m c) (Cert.KernelIdeal.HandI.scoreS m c)).1,
    fun c => Cert.KernelIdeal.HandI.scoreA m c, fun c => Cert.KernelIdeal.HandI.scoreS m c,
    fun c => (Cert.KernelIdeal.HandHost.tailK (Cert.KernelIdeal.HandI.scoreA m c) (Cert.KernelIdeal.HandI.scoreS m c)).2.1,
    fun c => (Cert.KernelIdeal.HandHost.tailK (Cert.KernelIdeal.HandI.scoreA m c) (Cert.KernelIdeal.HandI.scoreS m c)).2.2.1,
    fun c => (Cert.KernelIdeal.HandHost.tailK (Cert.KernelIdeal.HandI.scoreA m c) (Cert.KernelIdeal.HandI.scoreS m c)).2.2.2,
    Cert.KernelIdeal.HandI.results m ρ, ?_⟩
  refine (θ_run Cert.ReferenceIdeal.defs _ _).mono (fun _ h c => ?_) (Cert.ReferenceIdeal.Hand.run_results m' ρ')
  obtain ⟨h0, h1, h2, h3, h4, h5, hargs⟩ := h c
  obtain ⟨e0, e1, e2, e3⟩ := hagree c
  obtain ⟨ra, rs⟩ := Cert.PreFinite.real_of_pre _ _ _ _ (hpre c)
  have hA : Cert.ReferenceIdeal.Hand.scoreR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = Cert.KernelIdeal.HandI.scoreA m c := by
    rw [e0, e1]; exact (Cert.Bridge.score_eq _ _ ra).symm
  have hS : Cert.ReferenceIdeal.Hand.scoreR (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = Cert.KernelIdeal.HandI.scoreS m c := by
    rw [e2, e3]; exact (Cert.Bridge.score_eq _ _ rs).symm
  rw [hA, hS] at h0 h1 h2 h3 h4 h5
  obtain ⟨t0, t1, t2, t3⟩ := Cert.Bridge.tail_eq (Cert.KernelIdeal.HandI.scoreA m c) (Cert.KernelIdeal.HandI.scoreS m c)
  exact ⟨h0.trans t0.symm, h1, h2, h3.trans t1.symm, h4.trans t2.symm, h5.trans t3.symm, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
